-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S2048x2 : Shape := ⟨2, ![2048, 2]⟩
abbrev S2048x5 : Shape := ⟨2, ![2048, 5]⟩
abbrev S2048x3 : Shape := ⟨2, ![2048, 3]⟩
abbrev S_ : Shape := ⟨0, ![]⟩

class Facts : Prop where
  bcast_S_S2048x5 : S_.BroadcastsInDim S2048x5 (![] : Fin 0 → Fin S2048x5.rank)
  reducesTo_S2048x5_S_d0_1 : S2048x5.ReducesTo [0, 1] S_
  h_S_ : 0 < S_.numel

variable [Facts]

def fn {F : FTy → Type} [FloatOps F] (main_arg0 : IVec S8192x2 32) (main_arg1 : IVec S2048x2 32) (main_arg2 : FVec F S2048x5 .f32) (main_arg3 : IVec S2048x3 32) : IVec S_ 1 :=
  let main_v0 : FVec F S2048x5 .f32 := Host.absf main_arg2
  let main_cst : FVec F S_ .f32 := constant S_ .f32 0x7F800000#32
  let main_v1 : FVec F S2048x5 .f32 := broadcastInDim S2048x5 ![] bcast_S_S2048x5 main_cst
  let main_v2 : IVec S2048x5 1 := cmpf .olt main_v0 main_v1
  let main_c : IVec S_ 1 := constantI S_ 1 1#1
  let main_v3 : IVec S_ 1 := (fun x v => Host.reduce IntOp.andi x v reducesTo_S2048x5_S_d0_1 h_S_) main_v2 main_c
  main_v3
-- ==== Kernel.lean ====
abbrev S8192x2 : Shape := ⟨2, ![8192, 2]⟩
abbrev S2048x2 : Shape := ⟨2, ![2048, 2]⟩
abbrev S2048x5 : Shape := ⟨2, ![2048, 5]⟩
abbrev S2048x3 : Shape := ⟨2, ![2048, 3]⟩
abbrev S9x2 : Shape := ⟨2, ![9, 2]⟩
abbrev S1x9x2 : Shape := ⟨3, ![1, 9, 2]⟩
abbrev S2 : Shape := ⟨1, ![2]⟩
abbrev S2048x1 : Shape := ⟨2, ![2048, 1]⟩
abbrev S2048 : Shape := ⟨1, ![2048]⟩
abbrev S_ : Shape := ⟨0, ![]⟩
abbrev S1x2048 : Shape := ⟨2, ![1, 2048]⟩
abbrev S2x2048 : Shape := ⟨2, ![2, 2048]⟩
abbrev S8192x1x2 : Shape := ⟨3, ![8192, 1, 2]⟩
abbrev S8192x9x2 : Shape := ⟨3, ![8192, 9, 2]⟩
abbrev S1x1x2 : Shape := ⟨3, ![1, 1, 2]⟩
abbrev S73728x2 : Shape := ⟨2, ![73728, 2]⟩
abbrev S2048x1x2 : Shape := ⟨3, ![2048, 1, 2]⟩
abbrev S2048x9x2 : Shape := ⟨3, ![2048, 9, 2]⟩
abbrev S18432x2 : Shape := ⟨2, ![18432, 2]⟩
abbrev S73728 : Shape := ⟨1, ![73728]⟩
abbrev S512x2 : Shape := ⟨2, ![512, 2]⟩
abbrev S512 : Shape := ⟨1, ![512]⟩
abbrev S512x1 : Shape := ⟨2, ![512, 1]⟩
abbrev S512x2048 : Shape := ⟨2, ![512, 2048]⟩
abbrev S18432 : Shape := ⟨1, ![18432]⟩
abbrev S8192x9 : Shape := ⟨2, ![8192, 9]⟩
abbrev S2048x9 : Shape := ⟨2, ![2048, 9]⟩

abbrev nBuf : Space → Nat
  | .hbm => 109
  | .vmem => 12
  | .smem => 0
  | _ => 0

abbrev bufTy : (tb : Table) → Fin (tcTables nBuf tb) → BufTy
  | .hbm, ⟨0, _⟩ => ⟨S8192x2, .i32⟩
  | .hbm, ⟨1, _⟩ => ⟨S2048x2, .i32⟩
  | .hbm, ⟨2, _⟩ => ⟨S2048x5, .f32⟩
  | .hbm, ⟨3, _⟩ => ⟨S2048x3, .i32⟩
  | .hbm, ⟨4, _⟩ => ⟨S9x2, .i32⟩
  | .hbm, ⟨5, _⟩ => ⟨S1x9x2, .i32⟩
  | .hbm, ⟨6, _⟩ => ⟨S2, .i32⟩
  | .hbm, ⟨7, _⟩ => ⟨S9x2, .i32⟩
  | .hbm, ⟨8, _⟩ => ⟨S1x9x2, .i32⟩
  | .hbm, ⟨9, _⟩ => ⟨S2048x1, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .i1⟩
  | .hbm, ⟨15, _⟩ => ⟨S2048x2, .i32⟩
  | .hbm, ⟨16, _⟩ => ⟨S2048x2, .f32⟩
  | .hbm, ⟨17, _⟩ => ⟨S2048x1, .f32⟩
  | .hbm, ⟨18, _⟩ => ⟨S2048, .f32⟩
  | .hbm, ⟨19, _⟩ => ⟨S2048x1, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S2x2048, .f32⟩
  | .hbm, ⟨35, _⟩ => ⟨S8192x1x2, .i32⟩
  | .hbm, ⟨36, _⟩ => ⟨S8192x9x2, .i32⟩
  | .hbm, ⟨37, _⟩ => ⟨S8192x9x2, .i32⟩
  | .hbm, ⟨38, _⟩ => ⟨S8192x9x2, .i32⟩
  | .hbm, ⟨39, _⟩ => ⟨S1x1x2, .i32⟩
  | .hbm, ⟨40, _⟩ => ⟨S_, .i32⟩
  | .hbm, ⟨41, _⟩ => ⟨S1x1x2, .i32⟩
  | .hbm, ⟨42, _⟩ => ⟨S1x1x2, .i1⟩
  | .hbm, ⟨43, _⟩ => ⟨S_, .i32⟩
  | .hbm, ⟨44, _⟩ => ⟨S1x1x2, .i32⟩
  | .hbm, ⟨45, _⟩ => ⟨S1x1x2, .i32⟩
  | .hbm, ⟨46, _⟩ => ⟨S8192x9x2, .i32⟩
  | .hbm, ⟨47, _⟩ => ⟨S8192x9x2, .i32⟩
  | .hbm, ⟨48, _⟩ => ⟨S_, .i32⟩
  | .hbm, ⟨49, _⟩ => ⟨S8192x9x2, .i32⟩
  | .hbm, ⟨50, _⟩ => ⟨S8192x9x2, .i1⟩
  | .hbm, ⟨51, _⟩ => ⟨S_, .i32⟩
  | .hbm, ⟨52, _⟩ => ⟨S8192x9x2, .i32⟩
  | .hbm, ⟨53, _⟩ => ⟨S8192x9x2, .i1⟩
  | .hbm, ⟨54, _⟩ => ⟨S_, .i32⟩
  | .hbm, ⟨55, _⟩ => ⟨S1x1x2, .i32⟩
  | .hbm, ⟨56, _⟩ => ⟨S1x1x2, .i1⟩
  | .hbm, ⟨57, _⟩ => ⟨S8192x9x2, .i1⟩
  | .hbm, ⟨58, _⟩ => ⟨S8192x9x2, .i1⟩
  | .hbm, ⟨59, _⟩ => ⟨S8192x9x2, .i1⟩
  | .hbm, ⟨60, _⟩ => ⟨S8192x9x2, .i32⟩
  | .hbm, ⟨61, _⟩ => ⟨S8192x9x2, .i32⟩
  | .hbm, ⟨62, _⟩ => ⟨S8192x9x2, .i32⟩
  | .hbm, ⟨63, _⟩ => ⟨S73728x2, .i32⟩
  | .hbm, ⟨64, _⟩ => ⟨S73728x2, .f32⟩
  | .hbm, ⟨65, _⟩ => ⟨S2048x1x2, .i32⟩
  | .hbm, ⟨66, _⟩ => ⟨S2048x9x2, .i32⟩
  | .hbm, ⟨67, _⟩ => ⟨S2048x9x2, .i32⟩
  | .hbm, ⟨68, _⟩ => ⟨S2048x9x2, .i32⟩
  | .hbm, ⟨69, _⟩ => ⟨S1x1x2, .i32⟩
  | .hbm, ⟨70, _⟩ => ⟨S_, .i32⟩
  | .hbm, ⟨71, _⟩ => ⟨S1x1x2, .i32⟩
  | .hbm, ⟨72, _⟩ => ⟨S1x1x2, .i1⟩
  | .hbm, ⟨73, _⟩ => ⟨S_, .i32⟩
  | .hbm, ⟨74, _⟩ => ⟨S1x1x2, .i32⟩
  | .hbm, ⟨75, _⟩ => ⟨S1x1x2, .i32⟩
  | .hbm, ⟨76, _⟩ => ⟨S2048x9x2, .i32⟩
  | .hbm, ⟨77, _⟩ => ⟨S2048x9x2, .i32⟩
  | .hbm, ⟨78, _⟩ => ⟨S_, .i32⟩
  | .hbm, ⟨79, _⟩ => ⟨S2048x9x2, .i32⟩
  | .hbm, ⟨80, _⟩ => ⟨S2048x9x2, .i1⟩
  | .hbm, ⟨81, _⟩ => ⟨S_, .i32⟩
  | .hbm, ⟨82, _⟩ => ⟨S2048x9x2, .i32⟩
  | .hbm, ⟨83, _⟩ => ⟨S2048x9x2, .i1⟩
  | .hbm, ⟨84, _⟩ => ⟨S_, .i32⟩
  | .hbm, ⟨85, _⟩ => ⟨S1x1x2, .i32⟩
  | .hbm, ⟨86, _⟩ => ⟨S1x1x2, .i1⟩
  | .hbm, ⟨87, _⟩ => ⟨S2048x9x2, .i1⟩
  | .hbm, ⟨88, _⟩ => ⟨S2048x9x2, .i1⟩
  | .hbm, ⟨89, _⟩ => ⟨S2048x9x2, .i1⟩
  | .hbm, ⟨90, _⟩ => ⟨S2048x9x2, .i32⟩
  | .hbm, ⟨91, _⟩ => ⟨S2048x9x2, .i32⟩
  | .hbm, ⟨92, _⟩ => ⟨S2048x9x2, .i32⟩
  | .hbm, ⟨93, _⟩ => ⟨S18432x2, .i32⟩
  | .hbm, ⟨94, _⟩ => ⟨S18432x2, .f32⟩
  | .hbm, ⟨95, _⟩ => ⟨S73728, .f32⟩
  | .hbm, ⟨96, _⟩ => ⟨S18432, .f32⟩
  | .hbm, ⟨97, _⟩ => ⟨S2048, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i1⟩
  | .hbm, ⟨102, _⟩ => ⟨S_, .f32⟩
  | .hbm, ⟨103, _⟩ => ⟨S73728, .f32⟩
  | .hbm, ⟨104, _⟩ => ⟨S73728, .f32⟩
  | .hbm, ⟨105, _⟩ => ⟨S8192x9, .f32⟩
  | .hbm, ⟨106, _⟩ => ⟨S18432, .f32⟩
  | .hbm, ⟨107, _⟩ => ⟨S18432, .f32⟩
  | .hbm, ⟨108, _⟩ => ⟨S2048x9, .f32⟩
  | .local _ .vmem, ⟨0, _⟩ => ⟨S512x2, .f32⟩
  | .local _ .vmem, ⟨1, _⟩ => ⟨S512x2, .f32⟩
  | .local _ .vmem, ⟨2, _⟩ => ⟨S2x2048, .f32⟩
  | .local _ .vmem, ⟨3, _⟩ => ⟨S1x2048, .f32⟩
  | .local _ .vmem, ⟨4, _⟩ => ⟨S512, .f32⟩
  | .local _ .vmem, ⟨5, _⟩ => ⟨S512, .f32⟩
  | .local _ .vmem, ⟨6, _⟩ => ⟨S512x2, .f32⟩
  | .local _ .vmem, ⟨7, _⟩ => ⟨S512x2, .f32⟩
  | .local _ .vmem, ⟨8, _⟩ => ⟨S2x2048, .f32⟩
  | .local _ .vmem, ⟨9, _⟩ => ⟨S1x2048, .f32⟩
  | .local _ .vmem, ⟨10, _⟩ => ⟨S512, .f32⟩
  | .local _ .vmem, ⟨11, _⟩ => ⟨S512, .f32⟩
  | _, _ => ⟨S8192x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_c_0 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_c_1 : Ref sig .tc := ⟨.hbm, 48, rfl⟩
abbrev main_call1_v7 : Ref sig .tc := ⟨.hbm, 49, rfl⟩
abbrev main_call1_v8 : Ref sig .tc := ⟨.hbm, 50, rfl⟩
abbrev main_call1_c_2 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_v15 : Ref sig .tc := ⟨.hbm, 59, rfl⟩
abbrev main_call1_v16 : Ref sig .tc := ⟨.hbm, 60, rfl⟩
abbrev main_call1_v17 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call2_v0 : Ref sig .tc := ⟨.hbm, 69, rfl⟩
abbrev main_call2_c : Ref sig .tc := ⟨.hbm, 70, rfl⟩
abbrev main_call2_v1 : Ref sig .tc := ⟨.hbm, 71, rfl⟩
abbrev main_call2_v2 : Ref sig .tc := ⟨.hbm, 72, rfl⟩
abbrev main_call2_c_0 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_c_1 : Ref sig .tc := ⟨.hbm, 78, rfl⟩
abbrev main_call2_v7 : Ref sig .tc := ⟨.hbm, 79, rfl⟩
abbrev main_call2_v8 : Ref sig .tc := ⟨.hbm, 80, rfl⟩
abbrev main_call2_c_2 : Ref sig .tc := ⟨.hbm, 81, rfl⟩
abbrev main_call2_v9 : Ref sig .tc := ⟨.hbm, 82, rfl⟩
abbrev main_call2_v10 : Ref sig .tc := ⟨.hbm, 83, rfl⟩
abbrev main_call2_c_3 : Ref sig .tc := ⟨.hbm, 84, rfl⟩
abbrev main_call2_v11 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_v15 : Ref sig .tc := ⟨.hbm, 89, rfl⟩
abbrev main_call2_v16 : Ref sig .tc := ⟨.hbm, 90, rfl⟩
abbrev main_call2_v17 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_c_4 : Ref sig .tc := ⟨.hbm, 98, rfl⟩
abbrev main_v40 : Ref sig .tc := ⟨.hbm, 99, rfl⟩
abbrev main_c_5 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![144], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![36], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S512x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S9x2_S1x9x2_1_2 : S9x2.BroadcastsInDim S1x9x2 (![1, 2] : Fin 2 → Fin S1x9x2.rank)
  slices_S2048x5_S2048x1_0_4 : S2048x5.Slices ![0, 4] S2048x1
  shapeCasts_S2048x1_S2048 : S2048x1.ShapeCasts S2048
  bcast_S_S2048 : S_.BroadcastsInDim S2048 (![] : Fin 0 → Fin S2048.rank)
  slices_S2048x3_S2048x2_0_1 : S2048x3.Slices ![0, 1] S2048x2
  slices_S2048x2_S2048x1_0_0 : S2048x2.Slices ![0, 0] S2048x1
  slices_S2048x2_S2048x1_0_1 : S2048x2.Slices ![0, 1] S2048x1
  shapeCasts_S2048_S1x2048 : S2048.ShapeCasts S1x2048
  bcast_S2048_S1x2048_1 : S2048.BroadcastsInDim S1x2048 (![1] : Fin 1 → Fin S1x2048.rank)
  concatenates_S1x2048_S1x2048_S2x2048_d0 : Shape.Concatenates [S1x2048, S1x2048] S2x2048 0
  bcast_S8192x2_S8192x1x2_0_2 : S8192x2.BroadcastsInDim S8192x1x2 (![0, 2] : Fin 2 → Fin S8192x1x2.rank)
  bcast_S8192x1x2_S8192x9x2_0_1_2 : S8192x1x2.BroadcastsInDim S8192x9x2 (![0, 1, 2] : Fin 3 → Fin S8192x9x2.rank)
  bcast_S1x9x2_S8192x9x2_0_1_2 : S1x9x2.BroadcastsInDim S8192x9x2 (![0, 1, 2] : Fin 3 → Fin S8192x9x2.rank)
  bcast_S2_S1x1x2_2 : S2.BroadcastsInDim S1x1x2 (![2] : Fin 1 → Fin S1x1x2.rank)
  bcast_S_S1x1x2 : S_.BroadcastsInDim S1x1x2 (![] : Fin 0 → Fin S1x1x2.rank)
  bcast_S1x1x2_S8192x9x2_0_1_2 : S1x1x2.BroadcastsInDim S8192x9x2 (![0, 1, 2] : Fin 3 → Fin S8192x9x2.rank)
  bcast_S_S8192x9x2 : S_.BroadcastsInDim S8192x9x2 (![] : Fin 0 → Fin S8192x9x2.rank)
  shapeCasts_S8192x9x2_S73728x2 : S8192x9x2.ShapeCasts S73728x2
  bcast_S2048x2_S2048x1x2_0_2 : S2048x2.BroadcastsInDim S2048x1x2 (![0, 2] : Fin 2 → Fin S2048x1x2.rank)
  bcast_S2048x1x2_S2048x9x2_0_1_2 : S2048x1x2.BroadcastsInDim S2048x9x2 (![0, 1, 2] : Fin 3 → Fin S2048x9x2.rank)
  bcast_S1x9x2_S2048x9x2_0_1_2 : S1x9x2.BroadcastsInDim S2048x9x2 (![0, 1, 2] : Fin 3 → Fin S2048x9x2.rank)
  bcast_S1x1x2_S2048x9x2_0_1_2 : S1x1x2.BroadcastsInDim S2048x9x2 (![0, 1, 2] : Fin 3 → Fin S2048x9x2.rank)
  bcast_S_S2048x9x2 : S_.BroadcastsInDim S2048x9x2 (![] : Fin 0 → Fin S2048x9x2.rank)
  shapeCasts_S2048x9x2_S18432x2 : S2048x9x2.ShapeCasts S18432x2
  inb_S512x2_S512x1_0_0 : ∀ a, (![0, 0] : Fin 2 → Nat) a + S512x1.size a ≤ S512x2.size a
  h_S512x1 : 0 < S512x1.numel
  shapeCasts_S512x1_S512x1 : S512x1.ShapeCasts S512x1
  inb_S512x2_S512x1_0_1 : ∀ a, (![0, 1] : Fin 2 → Nat) a + S512x1.size a ≤ S512x2.size a
  inb_S2x2048_S1x2048_0_0 : ∀ a, (![0, 0] : Fin 2 → Nat) a + S1x2048.size a ≤ S2x2048.size a
  h_S1x2048 : 0 < S1x2048.numel
  shapeCasts_S1x2048_S1x2048 : S1x2048.ShapeCasts S1x2048
  inb_S2x2048_S1x2048_1_0 : ∀ a, (![1, 0] : Fin 2 → Nat) a + S1x2048.size a ≤ S2x2048.size a
  broadcasts_S512x1_S512x2048 : S512x1.Broadcasts S512x2048
  broadcasts_S1x2048_S512x2048 : S1x2048.Broadcasts S512x2048
  inb_S1x2048_S1x2048_0_0 : ∀ a, (![0, 0] : Fin 2 → Nat) a + S1x2048.size a ≤ S1x2048.size a
  reduces_S512x2048_S512 : S512x2048.Reduces [1] S512
  inb_S512_S512_0 : ∀ a, (![0] : Fin 1 → Nat) a + S512.size a ≤ S512.size a
  h_S512 : 0 < S512.numel
  natLt_1_32 : 1 < 32
  reducesTo_S2048_S_d0 : S2048.ReducesTo [0] S_
  h_S_ : 0 < S_.numel
  bcast_S_S73728 : S_.BroadcastsInDim S73728 (![] : Fin 0 → Fin S73728.rank)
  shapeCasts_S73728_S8192x9 : S73728.ShapeCasts S8192x9
  bcast_S_S18432 : S_.BroadcastsInDim S18432 (![] : Fin 0 → Fin S18432.rank)
  shapeCasts_S18432_S2048x9 : S18432.ShapeCasts S2048x9
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S73728x2.size a
  hwx0_0 : ∀ i : grid0.Coords, EltTy.bits .f32 = 32 ∨ (Rect.block (s := S73728x2) S512x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x2048.size a
  hwx0_1 : ∀ i : grid0.Coords, EltTy.bits .f32 = 32 ∨ (Rect.block (s := S2x2048) S2x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S73728.size a
  hwx0_3 : ∀ i : grid0.Coords, EltTy.bits .f32 = 32 ∨ (Rect.block (s := S73728) S512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2.size a ≤ S18432x2.size a
  hwx1_0 : ∀ i : grid1.Coords, EltTy.bits .f32 = 32 ∨ (Rect.block (s := S18432x2) S512x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x2048.size a ≤ S2x2048.size a
  hwx1_1 : ∀ i : grid1.Coords, EltTy.bits .f32 = 32 ∨ (Rect.block (s := S2x2048) S2x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S18432.size a
  hwx1_3 : ∀ i : grid1.Coords, EltTy.bits .f32 = 32 ∨ (Rect.block (s := S18432) S512.size (cc1_transform_3 i) (hinb1_3 i)).WholeWords (EltTy.packing .f32)

variable [Facts₀]

abbrev win0_0 : Pipeline.Window sig grid0 :=
  Pipeline.Window.ofSpec (Memref.whole main_v29) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S512x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2 : Shape := ⟨2, ![8192, 2]⟩
abbrev S2048x2 : Shape := ⟨2, ![2048, 2]⟩
abbrev S2048x5 : Shape := ⟨2, ![2048, 5]⟩
abbrev S2048x3 : Shape := ⟨2, ![2048, 3]⟩
abbrev S9x2 : Shape := ⟨2, ![9, 2]⟩
abbrev S2 : Shape := ⟨1, ![2]⟩
abbrev S2048x1 : Shape := ⟨2, ![2048, 1]⟩
abbrev S2048 : Shape := ⟨1, ![2048]⟩
abbrev S_ : Shape := ⟨0, ![]⟩
abbrev S8192x1x2 : Shape := ⟨3, ![8192, 1, 2]⟩
abbrev S1x9x2 : Shape := ⟨3, ![1, 9, 2]⟩
abbrev S8192x9x2 : Shape := ⟨3, ![8192, 9, 2]⟩
abbrev S1x1x2 : Shape := ⟨3, ![1, 1, 2]⟩
abbrev S2048x1x2 : Shape := ⟨3, ![2048, 1, 2]⟩
abbrev S2048x9x2 : Shape := ⟨3, ![2048, 9, 2]⟩
abbrev S73728x2 : Shape := ⟨2, ![73728, 2]⟩
abbrev S73728 : Shape := ⟨1, ![73728]⟩
abbrev S73728x1 : Shape := ⟨2, ![73728, 1]⟩
abbrev S1x2048 : Shape := ⟨2, ![1, 2048]⟩
abbrev S73728x2048 : Shape := ⟨2, ![73728, 2048]⟩
abbrev S2x2048 : Shape := ⟨2, ![2, 2048]⟩
abbrev S8192x9 : Shape := ⟨2, ![8192, 9]⟩
abbrev S18432x2 : Shape := ⟨2, ![18432, 2]⟩
abbrev S18432 : Shape := ⟨1, ![18432]⟩
abbrev S18432x1 : Shape := ⟨2, ![18432, 1]⟩
abbrev S18432x2048 : Shape := ⟨2, ![18432, 2048]⟩
abbrev S2048x9 : Shape := ⟨2, ![2048, 9]⟩

abbrev nBuf : Space → Nat
  | .hbm => 155
  | .vmem => 0
  | .smem => 0
  | _ => 0

abbrev hbmTy0_0 (i : Nat) : BufTy := match i % 128 with
  | 0 => ⟨S8192x2, .i32⟩
  | 1 => ⟨S2048x2, .i32⟩
  | 2 => ⟨S2048x5, .f32⟩
  | 3 => ⟨S2048x3, .i32⟩
  | 4 => ⟨S9x2, .i32⟩
  | 5 => ⟨S2, .i32⟩
  | 6 => ⟨S2048x1, .f32⟩
  | 7 => ⟨S2048, .f32⟩
  | 8 => ⟨S2048, .f32⟩
  | 9 => ⟨S_, .f32⟩
  | 10 => ⟨S2048, .f32⟩
  | 11 => ⟨S2048, .i1⟩
  | 12 => ⟨S2048x2, .i32⟩
  | 13 => ⟨S2048x2, .f32⟩
  | 14 => ⟨S8192x1x2, .i32⟩
  | 15 => ⟨S1x9x2, .i32⟩
  | 16 => ⟨S8192x9x2, .i32⟩
  | 17 => ⟨S8192x9x2, .i32⟩
  | 18 => ⟨S8192x9x2, .i32⟩
  | 19 => ⟨S1x1x2, .i32⟩
  | 20 => ⟨S_, .i32⟩
  | 21 => ⟨S1x1x2, .i32⟩
  | 22 => ⟨S1x1x2, .i1⟩
  | 23 => ⟨S_, .i32⟩
  | 24 => ⟨S1x1x2, .i32⟩
  | 25 => ⟨S1x1x2, .i32⟩
  | 26 => ⟨S8192x9x2, .i32⟩
  | 27 => ⟨S8192x9x2, .i32⟩
  | 28 => ⟨S_, .i32⟩
  | 29 => ⟨S8192x9x2, .i32⟩
  | 30 => ⟨S8192x9x2, .i1⟩
  | 31 => ⟨S_, .i32⟩
  | 32 => ⟨S8192x9x2, .i32⟩
  | 33 => ⟨S8192x9x2, .i1⟩
  | 34 => ⟨S_, .i32⟩
  | 35 => ⟨S1x1x2, .i32⟩
  | 36 => ⟨S1x1x2, .i1⟩
  | 37 => ⟨S8192x9x2, .i1⟩
  | 38 => ⟨S8192x9x2, .i1⟩
  | 39 => ⟨S8192x9x2, .i1⟩
  | 40 => ⟨S8192x9x2, .i32⟩
  | 41 => ⟨S8192x9x2, .i32⟩
  | 42 => ⟨S8192x9x2, .i32⟩
  | 43 => ⟨S2048x1x2, .i32⟩
  | 44 => ⟨S1x9x2, .i32⟩
  | 45 => ⟨S2048x9x2, .i32⟩
  | 46 => ⟨S2048x9x2, .i32⟩
  | 47 => ⟨S2048x9x2, .i32⟩
  | 48 => ⟨S1x1x2, .i32⟩
  | 49 => ⟨S_, .i32⟩
  | 50 => ⟨S1x1x2, .i32⟩
  | 51 => ⟨S1x1x2, .i1⟩
  | 52 => ⟨S_, .i32⟩
  | 53 => ⟨S1x1x2, .i32⟩
  | 54 => ⟨S1x1x2, .i32⟩
  | 55 => ⟨S2048x9x2, .i32⟩
  | 56 => ⟨S2048x9x2, .i32⟩
  | 57 => ⟨S_, .i32⟩
  | 58 => ⟨S2048x9x2, .i32⟩
  | 59 => ⟨S2048x9x2, .i1⟩
  | 60 => ⟨S_, .i32⟩
  | 61 => ⟨S2048x9x2, .i32⟩
  | 62 => ⟨S2048x9x2, .i1⟩
  | 63 => ⟨S_, .i32⟩
  | 64 => ⟨S1x1x2, .i32⟩
  | 65 => ⟨S1x1x2, .i1⟩
  | 66 => ⟨S2048x9x2, .i1⟩
  | 67 => ⟨S2048x9x2, .i1⟩
  | 68 => ⟨S2048x9x2, .i1⟩
  | 69 => ⟨S2048x9x2, .i32⟩
  | 70 => ⟨S2048x9x2, .i32⟩
  | 71 => ⟨S2048x9x2, .i32⟩
  | 72 => ⟨S2048, .i32⟩
  | 73 => ⟨S_, .i32⟩
  | 74 => ⟨S_, .i32⟩
  | 75 => ⟨S_, .i32⟩
  | 76 => ⟨S_, .i1⟩
  | 77 => ⟨S73728x2, .i32⟩
  | 78 => ⟨S73728x2, .f32⟩
  | 79 => ⟨S73728x2, .f32⟩
  | 80 => ⟨S_, .f32⟩
  | 81 => ⟨S73728, .f32⟩
  | 82 => ⟨S2048x2, .f32⟩
  | 83 => ⟨S_, .f32⟩
  | 84 => ⟨S2048, .f32⟩
  | 85 => ⟨S73728x1, .f32⟩
  | 86 => ⟨S1x2048, .f32⟩
  | 87 => ⟨S73728x2048, .f32⟩
  | 88 => ⟨S73728x2048, .f32⟩
  | 89 => ⟨S73728x2048, .f32⟩
  | 90 => ⟨S2x2048, .f32⟩
  | 91 => ⟨S73728x2048, .f32⟩
  | 92 => ⟨S_, .f32⟩
  | 93 => ⟨S73728x2048, .f32⟩
  | 94 => ⟨S73728x2048, .f32⟩
  | 95 => ⟨S73728x2048, .f32⟩
  | 96 => ⟨S1x2048, .i1⟩
  | 97 => ⟨S_, .f32⟩
  | 98 => ⟨S_, .f32⟩
  | 99 => ⟨S73728x2048, .i1⟩
  | 100 => ⟨S73728x2048, .f32⟩
  | 101 => ⟨S73728x2048, .f32⟩
  | 102 => ⟨S_, .f32⟩
  | 103 => ⟨S73728, .f32⟩
  | 104 => ⟨S_, .f32⟩
  | 105 => ⟨S73728, .f32⟩
  | 106 => ⟨S73728, .f32⟩
  | 107 => ⟨S73728, .f32⟩
  | 108 => ⟨S_, .f32⟩
  | 109 => ⟨S73728, .f32⟩
  | 110 => ⟨S73728, .f32⟩
  | 111 => ⟨S8192x9, .f32⟩
  | 112 => ⟨S_, .f32⟩
  | 113 => ⟨S_, .f32⟩
  | 114 => ⟨S8192x9, .f32⟩
  | 115 => ⟨S8192x9, .f32⟩
  | 116 => ⟨S18432x2, .i32⟩
  | 117 => ⟨S18432x2, .f32⟩
  | 118 => ⟨S18432x2, .f32⟩
  | 119 => ⟨S_, .f32⟩
  | 120 => ⟨S18432, .f32⟩
  | 121 => ⟨S2048x2, .f32⟩
  | 122 => ⟨S_, .f32⟩
  | 123 => ⟨S2048, .f32⟩
  | 124 => ⟨S18432x1, .f32⟩
  | 125 => ⟨S1x2048, .f32⟩
  | 126 => ⟨S18432x2048, .f32⟩
  | 127 => ⟨S18432x2048, .f32⟩
  | _ => ⟨S8192x2, .i32⟩

abbrev hbmTy0_1 (i : Nat) : BufTy := match i % 128 with
  | 0 => ⟨S18432x2048, .f32⟩
  | 1 => ⟨S2x2048, .f32⟩
  | 2 => ⟨S18432x2048, .f32⟩
  | 3 => ⟨S_, .f32⟩
  | 4 => ⟨S18432x2048, .f32⟩
  | 5 => ⟨S18432x2048, .f32⟩
  | 6 => ⟨S18432x2048, .f32⟩
  | 7 => ⟨S1x2048, .i1⟩
  | 8 => ⟨S_, .f32⟩
  | 9 => ⟨S_, .f32⟩
  | 10 => ⟨S18432x2048, .i1⟩
  | 11 => ⟨S18432x2048, .f32⟩
  | 12 => ⟨S18432x2048, .f32⟩
  | 13 => ⟨S_, .f32⟩
  | 14 => ⟨S18432, .f32⟩
  | 15 => ⟨S_, .f32⟩
  | 16 => ⟨S18432, .f32⟩
  | 17 => ⟨S18432, .f32⟩
  | 18 => ⟨S18432, .f32⟩
  | 19 => ⟨S_, .f32⟩
  | 20 => ⟨S18432, .f32⟩
  | 21 => ⟨S18432, .f32⟩
  | 22 => ⟨S2048x9, .f32⟩
  | 23 => ⟨S_, .f32⟩
  | 24 => ⟨S_, .f32⟩
  | 25 => ⟨S2048x9, .f32⟩
  | 26 => ⟨S2048x9, .f32⟩
  | _ => ⟨S8192x2, .i32⟩

abbrev hbmTy (i : Nat) : BufTy := match i / 128 with
  | 0 => hbmTy0_0 i
  | 1 => hbmTy0_1 i
  | _ => ⟨S8192x2, .i32⟩

abbrev bufTy : (tb : Table) → Fin (tcTables nBuf tb) → BufTy
  | .hbm, ⟨i, _⟩ => hbmTy i
  | _, _ => ⟨S8192x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_c_0 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_c_1 : Ref sig .tc := ⟨.hbm, 28, rfl⟩
abbrev main_call0_v7 : Ref sig .tc := ⟨.hbm, 29, rfl⟩
abbrev main_call0_v8 : Ref sig .tc := ⟨.hbm, 30, rfl⟩
abbrev main_call0_c_2 : Ref sig .tc := ⟨.hbm, 31, rfl⟩
abbrev main_call0_v9 : Ref sig .tc := ⟨.hbm, 32, rfl⟩
abbrev main_call0_v10 : Ref sig .tc := ⟨.hbm, 33, rfl⟩
abbrev main_call0_c_3 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_c_0 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_c_1 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_call1_v17 : Ref sig .tc := ⟨.hbm, 70, rfl⟩
abbrev main_v18 : Ref sig .tc := ⟨.hbm, 71, rfl⟩
abbrev main_v19 : Ref sig .tc := ⟨.hbm, 72, rfl⟩
abbrev main_c_1 : Ref sig .tc := ⟨.hbm, 73, rfl⟩
abbrev main_v20 : Ref sig .tc := ⟨.hbm, 74, rfl⟩
abbrev main_c_2 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_cst_3 : Ref sig .tc := ⟨.hbm, 80, rfl⟩
abbrev main_v25 : Ref sig .tc := ⟨.hbm, 81, rfl⟩
abbrev main_v26 : Ref sig .tc := ⟨.hbm, 82, rfl⟩
abbrev main_cst_4 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_5 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_cst_6 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v39 : Ref sig .tc := ⟨.hbm, 101, rfl⟩
abbrev main_cst_7 : Ref sig .tc := ⟨.hbm, 102, rfl⟩
abbrev main_v40 : Ref sig .tc := ⟨.hbm, 103, rfl⟩
abbrev main_cst_8 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_9 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_cst_10 : Ref sig .tc := ⟨.hbm, 112, rfl⟩
abbrev main_call3_v0 : Ref sig .tc := ⟨.hbm, 113, rfl⟩
abbrev main_call3_v1 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_cst_11 : Ref sig .tc := ⟨.hbm, 119, rfl⟩
abbrev main_v51 : Ref sig .tc := ⟨.hbm, 120, rfl⟩
abbrev main_v52 : Ref sig .tc := ⟨.hbm, 121, rfl⟩
abbrev main_cst_12 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_13 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_cst_14 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v65 : Ref sig .tc := ⟨.hbm, 140, rfl⟩
abbrev main_cst_15 : Ref sig .tc := ⟨.hbm, 141, rfl⟩
abbrev main_v66 : Ref sig .tc := ⟨.hbm, 142, rfl⟩
abbrev main_cst_16 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_cst_17 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_cst_18 : Ref sig .tc := ⟨.hbm, 151, rfl⟩
abbrev main_call5_v0 : Ref sig .tc := ⟨.hbm, 152, rfl⟩
abbrev main_call5_v1 : Ref sig .tc := ⟨.hbm, 153, rfl⟩
abbrev main_v73 : Ref sig .tc := ⟨.hbm, 154, rfl⟩

abbrev nD : Nat := 1
abbrev τ : Topo := Topo.v7x

variable {F : FTy → Type} [FloatOps F]

class Facts₀ : Prop where
  slices_S2048x5_S2048x1_0_4 : S2048x5.Slices ![0, 4] S2048x1
  shapeCasts_S2048x1_S2048 : S2048x1.ShapeCasts S2048
  bcast_S_S2048 : S_.BroadcastsInDim S2048 (![] : Fin 0 → Fin S2048.rank)
  slices_S2048x3_S2048x2_0_1 : S2048x3.Slices ![0, 1] S2048x2
  bcast_S8192x2_S8192x1x2_0_2 : S8192x2.BroadcastsInDim S8192x1x2 (![0, 2] : Fin 2 → Fin S8192x1x2.rank)
  bcast_S9x2_S1x9x2_1_2 : S9x2.BroadcastsInDim S1x9x2 (![1, 2] : Fin 2 → Fin S1x9x2.rank)
  bcast_S8192x1x2_S8192x9x2_0_1_2 : S8192x1x2.BroadcastsInDim S8192x9x2 (![0, 1, 2] : Fin 3 → Fin S8192x9x2.rank)
  bcast_S1x9x2_S8192x9x2_0_1_2 : S1x9x2.BroadcastsInDim S8192x9x2 (![0, 1, 2] : Fin 3 → Fin S8192x9x2.rank)
  bcast_S2_S1x1x2_2 : S2.BroadcastsInDim S1x1x2 (![2] : Fin 1 → Fin S1x1x2.rank)
  bcast_S_S1x1x2 : S_.BroadcastsInDim S1x1x2 (![] : Fin 0 → Fin S1x1x2.rank)
  bcast_S1x1x2_S8192x9x2_0_1_2 : S1x1x2.BroadcastsInDim S8192x9x2 (![0, 1, 2] : Fin 3 → Fin S8192x9x2.rank)
  bcast_S_S8192x9x2 : S_.BroadcastsInDim S8192x9x2 (![] : Fin 0 → Fin S8192x9x2.rank)
  bcast_S2048x2_S2048x1x2_0_2 : S2048x2.BroadcastsInDim S2048x1x2 (![0, 2] : Fin 2 → Fin S2048x1x2.rank)
  bcast_S2048x1x2_S2048x9x2_0_1_2 : S2048x1x2.BroadcastsInDim S2048x9x2 (![0, 1, 2] : Fin 3 → Fin S2048x9x2.rank)
  bcast_S1x9x2_S2048x9x2_0_1_2 : S1x9x2.BroadcastsInDim S2048x9x2 (![0, 1, 2] : Fin 3 → Fin S2048x9x2.rank)
  bcast_S1x1x2_S2048x9x2_0_1_2 : S1x1x2.BroadcastsInDim S2048x9x2 (![0, 1, 2] : Fin 3 → Fin S2048x9x2.rank)
  bcast_S_S2048x9x2 : S_.BroadcastsInDim S2048x9x2 (![] : Fin 0 → Fin S2048x9x2.rank)
  natLt_1_32 : 1 < 32
  reducesTo_S2048_S_d0 : S2048.ReducesTo [0] S_
  h_S_ : 0 < S_.numel
  shapeCasts_S8192x9x2_S73728x2 : S8192x9x2.ShapeCasts S73728x2
  reducesTo_S73728x2_S73728_d1 : S73728x2.ReducesTo [1] S73728
  reducesTo_S2048x2_S2048_d1 : S2048x2.ReducesTo [1] S2048
  bcast_S73728_S73728x1_0 : S73728.BroadcastsInDim S73728x1 (![0] : Fin 1 → Fin S73728x1.rank)
  bcast_S2048_S1x2048_1 : S2048.BroadcastsInDim S1x2048 (![1] : Fin 1 → Fin S1x2048.rank)
  bcast_S73728x1_S73728x2048_0_1 : S73728x1.BroadcastsInDim S73728x2048 (![0, 1] : Fin 2 → Fin S73728x2048.rank)
  bcast_S1x2048_S73728x2048_0_1 : S1x2048.BroadcastsInDim S73728x2048 (![0, 1] : Fin 2 → Fin S73728x2048.rank)
  transposes_S2048x2_S2x2048_1_0 : S2048x2.Transposes [1, 0] S2x2048
  bcast_S_S73728x2048 : S_.BroadcastsInDim S73728x2048 (![] : Fin 0 → Fin S73728x2048.rank)
  reducesTo_S73728x2048_S73728_d1 : S73728x2048.ReducesTo [1] S73728
  bcast_S_S73728 : S_.BroadcastsInDim S73728 (![] : Fin 0 → Fin S73728.rank)
  shapeCasts_S73728_S8192x9 : S73728.ShapeCasts S8192x9
  bcast_S_S8192x9 : S_.BroadcastsInDim S8192x9 (![] : Fin 0 → Fin S8192x9.rank)
  shapeCasts_S2048x9x2_S18432x2 : S2048x9x2.ShapeCasts S18432x2
  reducesTo_S18432x2_S18432_d1 : S18432x2.ReducesTo [1] S18432
  bcast_S18432_S18432x1_0 : S18432.BroadcastsInDim S18432x1 (![0] : Fin 1 → Fin S18432x1.rank)
  bcast_S18432x1_S18432x2048_0_1 : S18432x1.BroadcastsInDim S18432x2048 (![0, 1] : Fin 2 → Fin S18432x2048.rank)
  bcast_S1x2048_S18432x2048_0_1 : S1x2048.BroadcastsInDim S18432x2048 (![0, 1] : Fin 2 → Fin S18432x2048.rank)
  bcast_S_S18432x2048 : S_.BroadcastsInDim S18432x2048 (![] : Fin 0 → Fin S18432x2048.rank)
  reducesTo_S18432x2048_S18432_d1 : S18432x2048.ReducesTo [1] S18432
  bcast_S_S18432 : S_.BroadcastsInDim S18432 (![] : Fin 0 → Fin S18432.rank)
  shapeCasts_S18432_S2048x9 : S18432.ShapeCasts S2048x9
  bcast_S_S2048x9 : S_.BroadcastsInDim S2048x9 (![] : Fin 0 → Fin S2048x9.rank)
  dot_S73728x2_S2x2048_S73728x2048_1_0_0_1_n_n_wf : DotDims.WF S73728x2 S2x2048 S73728x2048 [1] [0] [0] [1] [] []
  dot_S18432x2_S2x2048_S18432x2048_1_0_0_1_n_n_wf : DotDims.WF S18432x2 S2x2048 S18432x2048 [1] [0] [0] [1] [] []

variable [Facts₀]

def dot_S73728x2_S2x2048_S73728x2048_1_0_0_1_n_n : DotDims S73728x2 S2x2048 S73728x2048 where
  lhsContracting := [1]
  rhsContracting := [0]
  lhsNonContracting := [0]
  rhsNonContracting := [1]
  lhsBatch := []
  rhsBatch := []
  wf := dot_S73728x2_S2x2048_S73728x2048_1_0_0_1_n_n_wf
def dot_S18432x2_S2x2048_S18432x2048_1_0_0_1_n_n : DotDims S18432x2 S2x2048 S18432x2048 where
  lhsContracting := [1]
  rhsContracting := [0]
  lhsNonContracting := [0]
  rhsNonContracting := [1]
  lhsBatch := []
  rhsBatch := []
  wf := dot_S18432x2_S2x2048_S18432x2048_1_0_0_1_n_n_wf

class Facts : Prop extends Facts₀ where

variable [Facts]
-- ==== Proof.LibExtremum.lean ====
/-
  Extremes through reductions, on the extended reals.

  A minimum-reduction over some axes of an array, started from +∞, leaves at each reduced index the
  minimum of the entries that drop to it. Taking the infimum of THAT over every reduced index gives
  the infimum of every entry of the source: each entry drops to exactly one reduced index. A shape
  cast only renames indices along a bijection, so it keeps the infimum of all entries as well. A chain
  of reductions and shape casts that ends in an array with a single index therefore holds, at that
  index, the infimum of every entry of the array the chain began with — whatever the order in which
  the axes were reduced. The same holds with maximum, −∞ and supremum.

  For a reduction over ONE axis by the host the reduced entry is read directly as the infimum (or
  supremum) over that axis's coordinates.
-/
import Idealize.ShloMosaic.PureOps.Ideal.Laws

noncomputable section

namespace Cert.Extremum

open Idealize.ShloMosaic

variable {φ : FTy}

/-! ## Folds of `min` and `max` as infimum and supremum -/

/-- Folding `min` from +∞ over a finite set of indices gives the infimum over the set. -/
theorem fold_min_top {ι : Type} (S : Finset ι) (f : ι → EReal) : S.fold min (⊤ : EReal) f = ⨅ k ∈ S, f k :=
  eq_of_forall_le_iff fun z => by
    rw [Finset.le_fold_min]
    simp only [le_top, true_and, le_iInf_iff]

/-- Folding `max` from −∞ over a finite set of indices gives the supremum over the set. -/
theorem fold_max_bot {ι : Type} (S : Finset ι) (f : ι → EReal) : S.fold max (⊥ : EReal) f = ⨆ k ∈ S, f k :=
  eq_of_forall_ge_iff fun z => by
    rw [Finset.fold_max_le]
    simp only [bot_le, true_and, iSup_le_iff]

/-- Over every index of a finite type: the fold of `min` from +∞ is the infimum. -/
theorem fold_min_top_univ {ι : Type} [Fintype ι] (f : ι → EReal) : Finset.univ.fold min (⊤ : EReal) f = ⨅ k, f k := by
  rw [fold_min_top]; simp only [Finset.mem_univ, iInf_pos]

/-- Over every index of a finite type: the fold of `max` from −∞ is the supremum. -/
theorem fold_max_bot_univ {ι : Type} [Fintype ι] (f : ι → EReal) : Finset.univ.fold max (⊥ : EReal) f = ⨆ k, f k := by
  rw [fold_max_bot]; simp only [Finset.mem_univ, iSup_pos]

/-! ## An index type with one element -/

/-- Over an index type with at most one element the infimum is the value at any index. -/
theorem iInf_of_subsingleton {ι : Type} [Subsingleton ι] (g : ι → EReal) (j : ι) : (⨅ j', g j') = g j :=
  le_antisymm (iInf_le _ j) (le_iInf fun j' => by rw [Subsingleton.elim j' j])

/-- Over an index type with at most one element the supremum is the value at any index. -/
theorem iSup_of_subsingleton {ι : Type} [Subsingleton ι] (g : ι → EReal) (j : ι) : (⨆ j', g j') = g j :=
  le_antisymm (iSup_le fun j' => by rw [Subsingleton.elim j' j]) (le_iSup _ j)

/-! ## A shape cast keeps the extremes of all entries -/

/-- A shape cast reads its operand along a bijection of indices: the infimum of all entries is unchanged. -/
theorem iInf_shapeCast {s t : Shape} (v : s.Idx → EReal) (h : s.ShapeCasts t) :
    (⨅ j : t.Idx, shapeCast t v h j) = ⨅ i : s.Idx, v i :=
  (Shape.reshapeEquiv h).iInf_comp (g := v)

/-- And so is the supremum. -/
theorem iSup_shapeCast {s t : Shape} (v : s.Idx → EReal) (h : s.ShapeCasts t) :
    (⨆ j : t.Idx, shapeCast t v h j) = ⨆ i : s.Idx, v i :=
  (Shape.reshapeEquiv h).iSup_comp (g := v)

/-! ## A reduction, then the extreme over what is left -/

/-- A minimum-reduction from +∞ over any axes, followed by the infimum over the reduced indices, is the infimum of
    every entry of the source: the entry at `i` is among those folded at the index `i` drops to, and every entry folded
    at a reduced index is an entry of the source. -/
theorem iInf_multiReduction_min {s t : Shape} {axes : List (Fin s.rank)} (src : FVec Ideal s φ) (acc : BitVec φ.bits)
    (h : s.Reduces axes t) (hφ : FKind.Formats φ) (hacc : acc = FKind.minimumf.neutral φ hφ)
    (htop : (FloatOps.ofBits φ acc : Ideal φ) = (⊤ : EReal)) :
    (⨅ j : t.Idx, (multiReduction .minimumf axes t src acc h hφ hacc j : EReal)) = ⨅ i : s.Idx, (src i : EReal) := by
  have hf : ∀ j : t.Idx, (multiReduction .minimumf axes t src acc h hφ hacc j : EReal)
      = (Finset.univ.filter fun i => h.drop i = j).fold min (⊤ : EReal) src := fun j => by
    rw [multiReduction_minimumf_eq_fold, htop]; rfl
  apply le_antisymm
  · refine le_iInf fun i => (iInf_le _ (h.drop i)).trans ?_
    rw [hf]
    exact (Finset.fold_min_le _).2 (Or.inr ⟨i, Finset.mem_filter.2 ⟨Finset.mem_univ _, rfl⟩, le_rfl⟩)
  · refine le_iInf fun j => ?_
    rw [hf, Finset.le_fold_min]
    exact ⟨le_top, fun i _ => iInf_le _ i⟩

/-- A maximum-reduction from −∞ over any axes, followed by the supremum over the reduced indices, is the supremum of
    every entry of the source. -/
theorem iSup_multiReduction_max {s t : Shape} {axes : List (Fin s.rank)} (src : FVec Ideal s φ) (acc : BitVec φ.bits)
    (h : s.Reduces axes t) (hφ : FKind.Formats φ) (hacc : acc = FKind.maximumf.neutral φ hφ)
    (hbot : (FloatOps.ofBits φ acc : Ideal φ) = (⊥ : EReal)) :
    (⨆ j : t.Idx, (multiReduction .maximumf axes t src acc h hφ hacc j : EReal)) = ⨆ i : s.Idx, (src i : EReal) := by
  have hf : ∀ j : t.Idx, (multiReduction .maximumf axes t src acc h hφ hacc j : EReal)
      = (Finset.univ.filter fun i => h.drop i = j).fold max (⊥ : EReal) src := fun j => by
    rw [multiReduction_maximumf_eq_fold, hbot]; rfl
  apply le_antisymm
  · refine iSup_le fun j => ?_
    rw [hf, Finset.fold_max_le]
    exact ⟨bot_le, fun i _ => le_iSup _ i⟩
  · refine iSup_le fun i => le_trans ?_ (le_iSup _ (h.drop i))
    rw [hf]
    exact (Finset.le_fold_max _).2 (Or.inr ⟨i, Finset.mem_filter.2 ⟨Finset.mem_univ _, rfl⟩, le_rfl⟩)

/-! ## The host's reduction over one axis -/

/-- The host's reduce with a minimum body over ONE axis, from an initial value that is +∞: at a reduced index, the
    infimum of the operand over that axis's coordinates (the reduced index with the coordinate put back). -/
theorem hostReduce_min_single {s t u : Shape} {a : Fin s.rank} (x : s.Idx → Ideal φ) (init : u.Idx → Ideal φ)
    (h' : s.ReducesTo [a] t) (h : s.Reduces [a] t) (hu : 0 < u.numel) (hinit : init (Shape.Idx.first hu) = (⊤ : EReal))
    (j : t.Idx) :
    (Host.reduce (FloatOps.minimumf (F := Ideal) (φ := φ)) x init h' hu j : EReal) = ⨅ k : Fin (s.size a), (x (h.lift j k) : EReal) := by
  rw [Host.reduce_eq_fold_single (FloatOps.minimumf (F := Ideal) (φ := φ)) x init h' h hu j, hinit]
  exact fold_min_top_univ (fun k => x (h.lift j k))

/-- The same with a maximum body from −∞: the supremum over that axis's coordinates. -/
theorem hostReduce_max_single {s t u : Shape} {a : Fin s.rank} (x : s.Idx → Ideal φ) (init : u.Idx → Ideal φ)
    (h' : s.ReducesTo [a] t) (h : s.Reduces [a] t) (hu : 0 < u.numel) (hinit : init (Shape.Idx.first hu) = (⊥ : EReal))
    (j : t.Idx) :
    (Host.reduce (FloatOps.maximumf (F := Ideal) (φ := φ)) x init h' hu j : EReal) = ⨆ k : Fin (s.size a), (x (h.lift j k) : EReal) := by
  rw [Host.reduce_eq_fold_single (FloatOps.maximumf (F := Ideal) (φ := φ)) x init h' h hu j, hinit]
  exact fold_max_bot_univ (fun k => x (h.lift j k))

/-! ## The two infinite words -/

/-- The f32 word of +∞ is the top of the extended reals. -/
theorem ofBits_posInf_f32 : (FloatOps.ofBits (F := Ideal) .f32 0x7F800000#32 : EReal) = ⊤ := by
  show Ideal.ofBits .f32 0x7F800000#32 = ⊤
  simp [Ideal.ofBits, Ideal.ieee]

/-- The f32 word of −∞ is the bottom of the extended reals. -/
theorem ofBits_negInf_f32 : (FloatOps.ofBits (F := Ideal) .f32 0xFF800000#32 : EReal) = ⊥ := by
  show Ideal.ofBits .f32 0xFF800000#32 = ⊥
  simp [Ideal.ofBits, Ideal.ieee]

end Cert.Extremum

end
-- ==== Proof.KernelTile.lean ====
/-
  What each of the kernel's two regions leaves in its output array, entry by entry, at the ideal values and for
  any contents `V` of the buffers when the region is entered.

  The body of either region takes a [512, 2] block of points, the two resident coordinate rows [2, 2048] and the
  resident bias row [1, 2048], and stores for each of its 512 rows

      sqrt (max (min over the 2048 lanes q of ((a0² + a1²) + bias q − 2 (a0 · x q + a1 · y q))) 0) · 0.01

  (`entryK`): the squared norm of the row's point and the bias broadcast against each other, twice the two
  products subtracted, the minimum along the lanes started from +∞ — so the infimum over the lanes —, then the
  clamp at zero, the square root and the scale. `pay_apply` reads the body's arithmetic at a row; `out0_apply`
  puts the loads in: column 0 and column 1 of the points' block, row 0 and row 1 of the coordinate rows, the bias
  row whole.

  The points' window and the output's window move with the grid point (block `t` is rows `512 t … 512 t + 511`),
  the two resident windows stay at block zero. So what point `t` writes back is block `t` of ONE function of the
  arrays (`flushed0_eq`), row `r` lies in the block of point `r / 512` (`cover0`), and the output array ends
  holding that function (`final0`). The second region is the same over 36 points and 18432 rows.
-/
import proofs.«161537_j24713241822141_1_alg».proof.Proof.Gen.KernelIdeal.Frame
import proofs.«161537_j24713241822141_1_alg».proof.Proof.LibExtremum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Idealize.ShloMosaic Idealize.ShloMosaic.ValueIdx Cert.KernelIdeal
open Idealize.ShloMosaic.TcCoe Idealize.SL.Sem
open Idealize.ShloMosaic.Pipeline (Dat)

/-- One output entry from a point's two coordinates, the two coordinate rows and the bias row. -/
def entryK (a0 a1 : Ideal .f32) (bx by_ bias : Fin 2048 → Ideal .f32) : Ideal .f32 :=
  FloatOps.mulf (FloatOps.sqrt (FloatOps.maximumf ((⨅ q : Fin 2048, (FloatOps.subf (FloatOps.addf (FloatOps.addf (FloatOps.mulf a0 a0) (FloatOps.mulf a1 a1)) (bias q)) (FloatOps.mulf (FloatOps.ofBits .f32 0x40000000#32) (FloatOps.addf (FloatOps.mulf a0 (bx q)) (FloatOps.mulf a1 (by_ q)))) : EReal)) : Ideal .f32) (FloatOps.ofBits .f32 0x00000000#32))) (FloatOps.ofBits .f32 0x3C23D70A#32)

/-- `entryK` depends on its arguments entry by entry. -/
theorem entryK_congr {a0 a0' a1 a1' : Ideal .f32} {bx bx' by_ by' bias bias' : Fin 2048 → Ideal .f32}
    (h0 : a0 = a0') (h1 : a1 = a1') (hx : ∀ q, bx q = bx' q) (hy : ∀ q, by_ q = by' q) (hb : ∀ q, bias q = bias' q) :
    entryK a0 a1 bx by_ bias = entryK a0' a1' bx' by' bias' := by
  rw [h0, h1, funext hx, funext hy, funext hb]

/-! ## Layout operations and the lane minimum, read at an index -/

/-- A row's index with the lane put back is the pair (row, lane). -/
theorem lift_eq (h : S512x2048.Reduces [1] S512) (p : Fin 512) (q : Fin 2048) :
    h.lift (ix1 p) q = (ix2 p q : S512x2048.Idx) := by
  funext a; apply Fin.ext
  match a with
  | ⟨0, _⟩ => rfl
  | ⟨1, _⟩ => rfl

/-- A column broadcast along the lanes reads the column at the row. -/
theorem bcol_apply (h : S512x1.Broadcasts S512x2048) (v : FVec Ideal S512x1 .f32) (p : Fin 512) (q : Fin 2048) :
    broadcastTo S512x2048 v h (ix2 p q) = v (ix2 p 0) :=
  broadcastTo_apply v h (ix2 p q) (ix2 p 0) (fun a => by
    match a with
    | ⟨0, _⟩ => rfl
    | ⟨1, _⟩ => rfl)

/-- A row broadcast along the rows reads the row at the lane. -/
theorem brow_apply (h : S1x2048.Broadcasts S512x2048) (v : FVec Ideal S1x2048 .f32) (p : Fin 512) (q : Fin 2048) :
    broadcastTo S512x2048 v h (ix2 p q) = v (ix2 0 q) :=
  broadcastTo_apply v h (ix2 p q) (ix2 0 q) (fun a => by
    match a with
    | ⟨0, _⟩ => rfl
    | ⟨1, _⟩ => rfl)

/-- A minimum-reduction along the lanes from +∞, at a row: the infimum over the row's lanes. -/
theorem rowMin_apply (src : FVec Ideal S512x2048 .f32) (h : S512x2048.Reduces [1] S512) (hφ : FKind.Formats .f32)
    (hacc : (0x7F800000#32 : BitVec 32) = 0x7F800000#32) (p : Fin 512) :
    (multiReduction (F := Ideal) .minimumf [1] S512 src 0x7F800000#32 h hφ hacc (ix1 p) : EReal) = ⨅ q : Fin 2048, (src (ix2 p q) : EReal) := by
  refine (multiReduction_minimumf_eq_fold src 0x7F800000#32 h hφ hacc (ix1 p)).trans ?_
  refine (h.fold_filter_drop_single _ _ src (ix1 p)).trans ?_
  rw [Cert.Extremum.ofBits_posInf_f32]
  refine (Cert.Extremum.fold_min_top_univ (fun q : Fin 2048 => (src (h.lift (ix1 p) q) : EReal))).trans ?_
  exact iInf_congr fun q => by rw [lift_eq]

/-! ## The body's arithmetic at a row -/

section Pointwise
variable {s : Shape} {φ : FTy}
theorem vmul_apply (a b : FVec Ideal s φ) (i : s.Idx) : mulf a b i = FloatOps.mulf (a i) (b i) := rfl
theorem vadd_apply (a b : FVec Ideal s φ) (i : s.Idx) : addf a b i = FloatOps.addf (a i) (b i) := rfl
theorem vsub_apply (a b : FVec Ideal s φ) (i : s.Idx) : subf a b i = FloatOps.subf (a i) (b i) := rfl
theorem vmax_apply (a b : FVec Ideal s φ) (i : s.Idx) : maximumf a b i = FloatOps.maximumf (a i) (b i) := rfl
theorem vsqrt_apply (a : FVec Ideal s φ) (i : s.Idx) : sqrt a i = FloatOps.sqrt (a i) := rfl
end Pointwise

/-- THE BODY'S ARITHMETIC at row `p`: from the two loaded columns at the row and the three loaded rows. -/
theorem pay_apply (v0 v2 : Vec Ideal S512x1 .f32) (v7 v9 v18 : Vec Ideal S1x2048 .f32) (p : Fin 512) :
    Gen.k0_pay1 (F := Ideal) v0 v2 v7 v9 v18 (ix1 p)
      = entryK (v0 (ix2 p 0)) (v2 (ix2 p 0)) (fun q => v7 (ix2 0 q)) (fun q => v9 (ix2 0 q)) (fun q => v18 (ix2 0 q)) := by
  unfold Gen.k0_pay1 entryK
  simp only [shapeCast_self]
  rw [vmul_apply, vsqrt_apply, vmax_apply, broadcast_apply, broadcast_apply]
  rw [rowMin_apply]
  simp only [vsub_apply, vadd_apply, vmul_apply, broadcast_apply, bcol_apply, brow_apply]

/-! ## The body's loads, read at an index -/

/-- The load of column `k` of a [512, 2] block, at row `p`. -/
theorem ld_col (x0 : Vec Ideal S512x2 .f32) (k : Fin 2) (off : Fin 2 → Nat) (hoff : off = ![0, k.val])
    (inb : ∀ a, off a + S512x1.size a ≤ S512x2.size a) (p : Fin 512) :
    (View.ld x0 (Rect.unit (s := S512x2) off S512x1.size inb) : Vec Ideal S512x1 .f32) (ix2 p 0) = x0 (ix2 p k) := by
  subst hoff
  show x0 ((Rect.unit (s := S512x2) ![0, k.val] S512x1.size inb).emb (ix2 p 0)) = x0 (ix2 p k)
  refine congrArg x0 (funext fun a => Fin.ext ?_)
  rw [Rect.emb_apply, Rect.off_unit, Rect.stride_unit]
  match a with
  | ⟨0, _⟩ => show 0 + 1 * p.val = p.val; omega
  | ⟨1, _⟩ => show k.val + 1 * 0 = k.val; omega

/-- The load of row `k` of a [2, 2048] block, at lane `q`. -/
theorem ld_row (x1 : Vec Ideal S2x2048 .f32) (k : Fin 2) (off : Fin 2 → Nat) (hoff : off = ![k.val, 0])
    (inb : ∀ a, off a + S1x2048.size a ≤ S2x2048.size a) (q : Fin 2048) :
    (View.ld x1 (Rect.unit (s := S2x2048) off S1x2048.size inb) : Vec Ideal S1x2048 .f32) (ix2 0 q) = x1 (ix2 k q) := by
  subst hoff
  show x1 ((Rect.unit (s := S2x2048) ![k.val, 0] S1x2048.size inb).emb (ix2 0 q)) = x1 (ix2 k q)
  refine congrArg x1 (funext fun a => Fin.ext ?_)
  rw [Rect.emb_apply, Rect.off_unit, Rect.stride_unit]
  match a with
  | ⟨0, _⟩ => show k.val + 1 * 0 = k.val; omega
  | ⟨1, _⟩ => show 0 + 1 * q.val = q.val; omega

theorem hz1 : (![0] : Fin 1 → Nat) = fun _ => 0 := funext fun a => by fin_cases a; rfl
theorem hz2 : (![0, 0] : Fin 2 → Nat) = fun _ => 0 := funext fun a => by fin_cases a <;> rfl

/-- WHAT THE BODY LEAVES in its output block, row by row, from the three input blocks. -/
theorem out0_apply (x0 : Vec Ideal S512x2 .f32) (x1 : Vec Ideal S2x2048 .f32) (x2 : Vec Ideal S1x2048 .f32) (p : Fin 512) :
    Gen.out0_3 (F := Ideal) x0 x1 x2 (ix1 p)
      = entryK (x0 (ix2 p 0)) (x0 (ix2 p 1)) (fun q => x1 (ix2 0 q)) (fun q => x1 (ix2 1 q)) (fun q => x2 (ix2 0 q)) := by
  unfold Gen.out0_3
  rw [View.canon_unit_zero hz1]
  refine (pay_apply _ _ _ _ _ p).trans ?_
  refine entryK_congr (ld_col x0 0 _ rfl _ p) (ld_col x0 1 _ rfl _ p) (fun q => ld_row x1 0 _ rfl _ q) (fun q => ld_row x1 1 _ rfl _ q) (fun q => ?_)
  rw [View.ld_unit_zero (S := S1x2048) hz2]

/-- The second region's body is the same arithmetic as the first's. -/
theorem pay1_eq (v0 v2 : Vec Ideal S512x1 .f32) (v7 v9 v18 : Vec Ideal S1x2048 .f32) :
    Gen.k1_pay1 (F := Ideal) v0 v2 v7 v9 v18 = Gen.k0_pay1 (F := Ideal) v0 v2 v7 v9 v18 := rfl

/-- So it leaves the same rows in its output block. -/
theorem out1_apply (x0 : Vec Ideal S512x2 .f32) (x1 : Vec Ideal S2x2048 .f32) (x2 : Vec Ideal S1x2048 .f32) (p : Fin 512) :
    Gen.out1_3 (F := Ideal) x0 x1 x2 (ix1 p)
      = entryK (x0 (ix2 p 0)) (x0 (ix2 p 1)) (fun q => x1 (ix2 0 q)) (fun q => x1 (ix2 1 q)) (fun q => x2 (ix2 0 q)) := by
  unfold Gen.out1_3
  rw [pay1_eq]
  exact out0_apply x0 x1 x2 p

/-! ## From the blocks to the arrays -/

section Arrays

variable (V : (c : Dev nD) → (b : Ref sig .tc) → Buf (Elt Ideal) ((c : Thread nD τ).loc b))

/-- Two [512] blocks that agree row by row are equal. -/
theorem ext512 (X Y : S512.Idx → Ideal .f32) (h : ∀ p : Fin 512, X (ix1 p) = Y (ix1 p)) : X = Y :=
  funext fun j => by rw [eq_ix1 j]; exact h _

/-! ### The first region: 144 row tiles of the 73728 points -/

/-- Row `r` of the first array of points, against the resident rows. -/
def rowEntry0 (c : Dev nD) (r : Fin 73728) : Ideal .f32 :=
  entryK (V c main_v29 (ix2 r 0)) (V c main_v29 (ix2 r 1)) (fun q => V c main_v22 (ix2 0 q)) (fun q => V c main_v22 (ix2 1 q)) (fun q => V c main_v19 (ix2 0 q))

/-- What the first region's output array ends holding. -/
abbrev G0 (c : Dev nD) : S73728.Idx → Ideal .f32 := fun i => rowEntry0 V c (i 0)

/-- The printed index maps over the grid: the points' window and the output's move with the grid point, the resident
    windows stay at block zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-- Row `p` of the output's block at point `t` is row `512 t + p` of the array. -/
theorem blk0_3_emb (t : Fin cfg0.N) (p : Fin 512) (r : Fin 73728) (hr : r.val = 512 * t.val + p.val) :
    ((cfg0.win 3).blk t).view.emb (ix1 p) = (ix1 r : S73728.Idx) := by
  obtain ⟨e00, e01, e10, e11, e20, e21, e30⟩ := idx_facts0 t
  funext a; apply Fin.ext
  match a with
  | ⟨0, _⟩ => show win0_3.index t (0 : Fin 1) * 512 + 1 * p.val = r.val; rw [e30, hr]; omega

/-- Row `p` of the points' block at point `t` is row `512 t + p` of the points. -/
theorem iblk0_0_apply (c : Dev nD) (t : Fin cfg0.N) (p : Fin 512) (k : Fin 2) (r : Fin 73728) (hr : r.val = 512 * t.val + p.val) :
    (Gen.iblk0 V c 0 t : Vec Ideal S512x2 .f32) (ix2 p k) = V c main_v29 (ix2 r k) := by
  obtain ⟨e00, e01, e10, e11, e20, e21, e30⟩ := idx_facts0 t
  show V c main_v29 (((cfg0.win 0).blk t).view.emb (ix2 p k)) = V c main_v29 (ix2 r k)
  refine congrArg (V c main_v29) (funext fun a => Fin.ext ?_)
  match a with
  | ⟨0, _⟩ => show win0_0.index t (0 : Fin 2) * 512 + 1 * p.val = r.val; rw [e00, hr]; omega
  | ⟨1, _⟩ => show win0_0.index t (1 : Fin 2) * 2 + 1 * k.val = k.val; rw [e01]; omega

/-- The block of the two coordinate rows is the whole array at every point. -/
theorem iblk0_1_apply (c : Dev nD) (t : Fin cfg0.N) (a : Fin 2) (q : Fin 2048) :
    (Gen.iblk0 V c 1 t : Vec Ideal S2x2048 .f32) (ix2 a q) = V c main_v22 (ix2 a q) := by
  obtain ⟨e00, e01, e10, e11, e20, e21, e30⟩ := idx_facts0 t
  show V c main_v22 (((cfg0.win 1).blk t).view.emb (ix2 a q)) = V c main_v22 (ix2 a q)
  refine congrArg (V c main_v22) (funext fun b => Fin.ext ?_)
  match b with
  | ⟨0, _⟩ => show win0_1.index t (0 : Fin 2) * 2 + 1 * a.val = a.val; rw [e10]; omega
  | ⟨1, _⟩ => show win0_1.index t (1 : Fin 2) * 2048 + 1 * q.val = q.val; rw [e11]; omega

/-- The block of the bias row is the whole array at every point. -/
theorem iblk0_2_apply (c : Dev nD) (t : Fin cfg0.N) (a : Fin 1) (q : Fin 2048) :
    (Gen.iblk0 V c 2 t : Vec Ideal S1x2048 .f32) (ix2 a q) = V c main_v19 (ix2 a q) := by
  obtain ⟨e00, e01, e10, e11, e20, e21, e30⟩ := idx_facts0 t
  show V c main_v19 (((cfg0.win 2).blk t).view.emb (ix2 a q)) = V c main_v19 (ix2 a q)
  refine congrArg (V c main_v19) (funext fun b => Fin.ext ?_)
  match b with
  | ⟨0, _⟩ => show win0_2.index t (0 : Fin 2) * 1 + 1 * a.val = a.val; rw [e20]; omega
  | ⟨1, _⟩ => show win0_2.index t (1 : Fin 2) * 2048 + 1 * q.val = q.val; rw [e21]; omega

/-- WHAT POINT `t` WRITES BACK is block `t` of `G0`. -/
theorem flushed0_eq (c : Dev nD) (t : Fin cfg0.N) :
    (Gen.dat0 (F := Ideal) V c).flushed 3 t = ((cfg0.win 3).blk t).view.read (Elt Ideal) (G0 V c) := by
  show (cfg0.win 3).cut (grid0.coords t) ((Gen.dat0 (F := Ideal) V c).after 3 t) = _
  rw [Gen.after0_3]
  have ht : t.val < 144 := lt_of_lt_of_eq t.isLt (Gen.N_0 : cfg0.N = 144)
  refine ext512 _ _ fun p => ?_
  have hp : p.val < 512 := p.isLt
  show Gen.out0_3 (F := Ideal) (Gen.iblk0 V c 0 t) (Gen.iblk0 V c 1 t) (Gen.iblk0 V c 2 t) (ix1 p) = G0 V c (((cfg0.win 3).blk t).view.emb (ix1 p))
  refine (out0_apply _ _ _ p).trans ?_
  rw [blk0_3_emb t p ⟨512 * t.val + p.val, by omega⟩ rfl]
  exact entryK_congr (iblk0_0_apply V c t p 0 _ rfl) (iblk0_0_apply V c t p 1 _ rfl) (fun q => iblk0_1_apply V c t 0 q)
    (fun q => iblk0_1_apply V c t 1 q) (fun q => iblk0_2_apply V c t 0 q)

/-- An index of the output array is in point `t`'s block iff its row is in the block's range. -/
theorem mem_blk0 (t : Fin cfg0.N) (i : S73728.Idx) :
    i ∈ ((cfg0.win 3).blk t).view.set ↔ ∀ a : Fin 1, win0_3.index t a * S512.size a ≤ (i a).val ∧ (i a).val < win0_3.index t a * S512.size a + S512.size a := by
  show i ∈ ((View.whole main_v37).slice (win0_3.rect t)).set ↔ _
  rw [View.set_slice_whole, Rect.mem_set_unit]
  exact Iff.rfl

/-- Row `r` is in the block of point `r / 512`. -/
theorem cover0 (i : S73728.Idx) : ∃ t : Fin cfg0.N, (cfg0.win 3).flush t = true ∧ i ∈ ((cfg0.win 3).blk t).view.set := by
  have hi : (i 0).val < 73728 := (i 0).isLt
  have hN : cfg0.N = 144 := Gen.N_0
  refine ⟨⟨(i 0).val / 512, by rw [hN]; omega⟩, Gen.flush0_3 _, ?_⟩
  rw [mem_blk0]
  obtain ⟨e00, e01, e10, e11, e20, e21, e30⟩ := idx_facts0 ⟨(i 0).val / 512, by rw [hN]; omega⟩
  intro a
  match a with
  | ⟨0, _⟩ =>
    show win0_3.index ⟨(i 0).val / 512, _⟩ (0 : Fin 1) * 512 ≤ (i 0).val ∧ (i 0).val < win0_3.index ⟨(i 0).val / 512, _⟩ (0 : Fin 1) * 512 + 512
    rw [e30]
    show (i 0).val / 512 * 512 ≤ (i 0).val ∧ (i 0).val < (i 0).val / 512 * 512 + 512
    omega

/-- THE ARRAY after the first region, entry by entry. -/
theorem final0 (c : Dev nD) (r : Fin 73728) :
    (Gen.dat0 (F := Ideal) V c).arrAt 3 cfg0.N (ix1 r) = entryK (V c main_v29 (ix2 r 0)) (V c main_v29 (ix2 r 1)) (fun q => V c main_v22 (ix2 0 q)) (fun q => V c main_v22 (ix2 1 q)) (fun q => V c main_v19 (ix2 0 q)) :=
  congrFun ((Gen.dat0 (F := Ideal) V c).arrAt_eq_of_cover 3 (G0 V c) (fun t _ => flushed0_eq V c t) cover0) (ix1 r)

/-! ### The second region: 36 row tiles of the 18432 points -/

/-- Row `r` of the second array of points, against the resident rows. -/
def rowEntry1 (c : Dev nD) (r : Fin 18432) : Ideal .f32 :=
  entryK (V c main_v36 (ix2 r 0)) (V c main_v36 (ix2 r 1)) (fun q => V c main_v22 (ix2 0 q)) (fun q => V c main_v22 (ix2 1 q)) (fun q => V c main_v19 (ix2 0 q))

/-- What the second region's output array ends holding. -/
abbrev G1 (c : Dev nD) : S18432.Idx → Ideal .f32 := fun i => rowEntry1 V c (i 0)

/-- The printed index maps over the grid: the points' window and the output's move with the grid point, the resident
    windows stay at block zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = t.val :=
  (by decide +kernel : ∀ t : Fin grid1.N, _)

/-- Row `p` of the output's block at point `t` is row `512 t + p` of the array. -/
theorem blk1_3_emb (t : Fin cfg1.N) (p : Fin 512) (r : Fin 18432) (hr : r.val = 512 * t.val + p.val) :
    ((cfg1.win 3).blk t).view.emb (ix1 p) = (ix1 r : S18432.Idx) := by
  obtain ⟨e00, e01, e10, e11, e20, e21, e30⟩ := idx_facts1 t
  funext a; apply Fin.ext
  match a with
  | ⟨0, _⟩ => show win1_3.index t (0 : Fin 1) * 512 + 1 * p.val = r.val; rw [e30, hr]; omega

/-- Row `p` of the points' block at point `t` is row `512 t + p` of the points. -/
theorem iblk1_0_apply (c : Dev nD) (t : Fin cfg1.N) (p : Fin 512) (k : Fin 2) (r : Fin 18432) (hr : r.val = 512 * t.val + p.val) :
    (Gen.iblk1 V c 0 t : Vec Ideal S512x2 .f32) (ix2 p k) = V c main_v36 (ix2 r k) := by
  obtain ⟨e00, e01, e10, e11, e20, e21, e30⟩ := idx_facts1 t
  show V c main_v36 (((cfg1.win 0).blk t).view.emb (ix2 p k)) = V c main_v36 (ix2 r k)
  refine congrArg (V c main_v36) (funext fun a => Fin.ext ?_)
  match a with
  | ⟨0, _⟩ => show win1_0.index t (0 : Fin 2) * 512 + 1 * p.val = r.val; rw [e00, hr]; omega
  | ⟨1, _⟩ => show win1_0.index t (1 : Fin 2) * 2 + 1 * k.val = k.val; rw [e01]; omega

/-- The block of the two coordinate rows is the whole array at every point. -/
theorem iblk1_1_apply (c : Dev nD) (t : Fin cfg1.N) (a : Fin 2) (q : Fin 2048) :
    (Gen.iblk1 V c 1 t : Vec Ideal S2x2048 .f32) (ix2 a q) = V c main_v22 (ix2 a q) := by
  obtain ⟨e00, e01, e10, e11, e20, e21, e30⟩ := idx_facts1 t
  show V c main_v22 (((cfg1.win 1).blk t).view.emb (ix2 a q)) = V c main_v22 (ix2 a q)
  refine congrArg (V c main_v22) (funext fun b => Fin.ext ?_)
  match b with
  | ⟨0, _⟩ => show win1_1.index t (0 : Fin 2) * 2 + 1 * a.val = a.val; rw [e10]; omega
  | ⟨1, _⟩ => show win1_1.index t (1 : Fin 2) * 2048 + 1 * q.val = q.val; rw [e11]; omega

/-- The block of the bias row is the whole array at every point. -/
theorem iblk1_2_apply (c : Dev nD) (t : Fin cfg1.N) (a : Fin 1) (q : Fin 2048) :
    (Gen.iblk1 V c 2 t : Vec Ideal S1x2048 .f32) (ix2 a q) = V c main_v19 (ix2 a q) := by
  obtain ⟨e00, e01, e10, e11, e20, e21, e30⟩ := idx_facts1 t
  show V c main_v19 (((cfg1.win 2).blk t).view.emb (ix2 a q)) = V c main_v19 (ix2 a q)
  refine congrArg (V c main_v19) (funext fun b => Fin.ext ?_)
  match b with
  | ⟨0, _⟩ => show win1_2.index t (0 : Fin 2) * 1 + 1 * a.val = a.val; rw [e20]; omega
  | ⟨1, _⟩ => show win1_2.index t (1 : Fin 2) * 2048 + 1 * q.val = q.val; rw [e21]; omega

/-- WHAT POINT `t` WRITES BACK is block `t` of `G1`. -/
theorem flushed1_eq (c : Dev nD) (t : Fin cfg1.N) :
    (Gen.dat1 (F := Ideal) V c).flushed 3 t = ((cfg1.win 3).blk t).view.read (Elt Ideal) (G1 V c) := by
  show (cfg1.win 3).cut (grid1.coords t) ((Gen.dat1 (F := Ideal) V c).after 3 t) = _
  rw [Gen.after1_3]
  have ht : t.val < 36 := lt_of_lt_of_eq t.isLt (Gen.N_1 : cfg1.N = 36)
  refine ext512 _ _ fun p => ?_
  have hp : p.val < 512 := p.isLt
  show Gen.out1_3 (F := Ideal) (Gen.iblk1 V c 0 t) (Gen.iblk1 V c 1 t) (Gen.iblk1 V c 2 t) (ix1 p) = G1 V c (((cfg1.win 3).blk t).view.emb (ix1 p))
  refine (out1_apply _ _ _ p).trans ?_
  rw [blk1_3_emb t p ⟨512 * t.val + p.val, by omega⟩ rfl]
  exact entryK_congr (iblk1_0_apply V c t p 0 _ rfl) (iblk1_0_apply V c t p 1 _ rfl) (fun q => iblk1_1_apply V c t 0 q)
    (fun q => iblk1_1_apply V c t 1 q) (fun q => iblk1_2_apply V c t 0 q)

/-- An index of the output array is in point `t`'s block iff its row is in the block's range. -/
theorem mem_blk1 (t : Fin cfg1.N) (i : S18432.Idx) :
    i ∈ ((cfg1.win 3).blk t).view.set ↔ ∀ a : Fin 1, win1_3.index t a * S512.size a ≤ (i a).val ∧ (i a).val < win1_3.index t a * S512.size a + S512.size a := by
  show i ∈ ((View.whole main_v38).slice (win1_3.rect t)).set ↔ _
  rw [View.set_slice_whole, Rect.mem_set_unit]
  exact Iff.rfl

/-- Row `r` is in the block of point `r / 512`. -/
theorem cover1 (i : S18432.Idx) : ∃ t : Fin cfg1.N, (cfg1.win 3).flush t = true ∧ i ∈ ((cfg1.win 3).blk t).view.set := by
  have hi : (i 0).val < 18432 := (i 0).isLt
  have hN : cfg1.N = 36 := Gen.N_1
  refine ⟨⟨(i 0).val / 512, by rw [hN]; omega⟩, Gen.flush1_3 _, ?_⟩
  rw [mem_blk1]
  obtain ⟨e00, e01, e10, e11, e20, e21, e30⟩ := idx_facts1 ⟨(i 0).val / 512, by rw [hN]; omega⟩
  intro a
  match a with
  | ⟨0, _⟩ =>
    show win1_3.index ⟨(i 0).val / 512, _⟩ (0 : Fin 1) * 512 ≤ (i 0).val ∧ (i 0).val < win1_3.index ⟨(i 0).val / 512, _⟩ (0 : Fin 1) * 512 + 512
    rw [e30]
    show (i 0).val / 512 * 512 ≤ (i 0).val ∧ (i 0).val < (i 0).val / 512 * 512 + 512
    omega

/-- THE ARRAY after the second region, entry by entry. -/
theorem final1 (c : Dev nD) (r : Fin 18432) :
    (Gen.dat1 (F := Ideal) V c).arrAt 3 cfg1.N (ix1 r) = entryK (V c main_v36 (ix2 r 0)) (V c main_v36 (ix2 r 1)) (fun q => V c main_v22 (ix2 0 q)) (fun q => V c main_v22 (ix2 1 q)) (fun q => V c main_v19 (ix2 0 q)) :=
  congrFun ((Gen.dat1 (F := Ideal) V c).arrAt_eq_of_cover 3 (G1 V c) (fun t _ => flushed1_eq V c t) cover1) (ix1 r)

end Arrays

end Cert.KernelIdeal.Tile

end
-- ==== Proof.Rows.lean ====
/-
  The flat index of a neighbour point. The host flattens the [n, 9, 2] array of wrapped neighbour coordinates to
  [9·n, 2] row-major, and the [9·n] distances back to [n, 9]: point (i, j) is row 9·i + j.
-/

namespace Cert.Nearest

/-- Row of the flattened 8192 × 9 points. -/
def rowLi (i : Fin 8192) (j : Fin 9) : Fin 73728 := ⟨9 * i.val + j.val, by have := i.isLt; have := j.isLt; omega⟩

/-- Row of the flattened 2048 × 9 points. -/
def rowRa (i : Fin 2048) (j : Fin 9) : Fin 18432 := ⟨9 * i.val + j.val, by have := i.isLt; have := j.isLt; omega⟩

@[simp] theorem rowLi_val (i : Fin 8192) (j : Fin 9) : (rowLi i j).val = 9 * i.val + j.val := rfl
@[simp] theorem rowRa_val (i : Fin 2048) (j : Fin 9) : (rowRa i j).val = 9 * i.val + j.val := rfl

end Cert.Nearest
-- ==== Proof.KernelHostDefs.lean ====
/-
  The chains the host computes from the four argument arrays before the two regions, and the one it computes after
  them, as functions of the arrays: the mask bit of a voxel (|column 4| > 0.1), the two integer coordinate columns of
  the voxels, the nine wrapped neighbours of each point of the two point sets (the point plus each of nine shifts,
  each coordinate reduced modulo 513 with the divisor's sign, flattened row-major), and "more than one mask bit is
  set". Each is the composition of the host's own operations, in its order.
-/
import proofs.«161537_j24713241822141_1_alg».proof.Proof.Gen.KernelIdeal

noncomputable section

namespace Cert.KernelIdeal.HostVal

open Idealize.ShloMosaic Cert.KernelIdeal Cert.KernelIdeal.Gen

variable {F : FTy → Type} [FloatOps F]

/-- The mask bit of each voxel: |column 4| > 0.1. -/
def maskK (a2 : FVec F S2048x5 .f32) : IVec S2048 1 :=
  cmpf .ogt
    (Host.absf (shapeCast S2048 (extractStridedSlice S2048x1 ![0, 4] a2 slices_S2048x5_S2048x1_0_4) shapeCasts_S2048x1_S2048))
    (broadcastInDim S2048 ![] bcast_S_S2048 (constant S_ .f32 0x3DCCCCCD#32))

/-- The two integer coordinate columns of the voxels: columns 1 and 2. -/
def dyK (a3 : IVec S2048x3 32) : IVec S2048x2 32 :=
  extractStridedSlice S2048x2 ![0, 1] a3 slices_S2048x3_S2048x2_0_1

/-- The nine neighbours of each of the 8192 points, each coordinate reduced modulo 513 with the divisor's sign
    (the truncated remainder, plus the divisor where the remainder is non-zero and of the other sign), row-major
    as [73728, 2]. -/
def nbLiK (a0 : IVec S8192x2 32) : IVec S73728x2 32 :=
  shapeCast S73728x2
    (select (andi (cmpi CmpIPredicate.ne (cmpi CmpIPredicate.slt (Host.remsi (addi (broadcastInDim S8192x9x2 ![0, 1, 2] bcast_S8192x1x2_S8192x9x2_0_1_2 (broadcastInDim S8192x1x2 ![0, 2] bcast_S8192x2_S8192x1x2_0_2 a0)) (broadcastInDim S8192x9x2 ![0, 1, 2] bcast_S1x9x2_S8192x9x2_0_1_2 (broadcastInDim S1x9x2 ![1, 2] bcast_S9x2_S1x9x2_1_2 fun i => lit0 (S9x2.rowMajor i)))) (broadcastInDim S8192x9x2 ![0, 1, 2] bcast_S1x1x2_S8192x9x2_0_1_2 (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))))) (broadcastInDim S8192x9x2 ![] bcast_S_S8192x9x2 (constantI S_ 32 0#32))) (broadcastInDim S8192x9x2 ![0, 1, 2] bcast_S1x1x2_S8192x9x2_0_1_2 (cmpi CmpIPredicate.slt (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))) (broadcastInDim S1x1x2 ![] bcast_S_S1x1x2 (constantI S_ 32 0#32))))) (cmpi CmpIPredicate.ne (Host.remsi (addi (broadcastInDim S8192x9x2 ![0, 1, 2] bcast_S8192x1x2_S8192x9x2_0_1_2 (broadcastInDim S8192x1x2 ![0, 2] bcast_S8192x2_S8192x1x2_0_2 a0)) (broadcastInDim S8192x9x2 ![0, 1, 2] bcast_S1x9x2_S8192x9x2_0_1_2 (broadcastInDim S1x9x2 ![1, 2] bcast_S9x2_S1x9x2_1_2 fun i => lit0 (S9x2.rowMajor i)))) (broadcastInDim S8192x9x2 ![0, 1, 2] bcast_S1x1x2_S8192x9x2_0_1_2 (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))))) (broadcastInDim S8192x9x2 ![] bcast_S_S8192x9x2 (constantI S_ 32 0#32)))) (addi (Host.remsi (addi (broadcastInDim S8192x9x2 ![0, 1, 2] bcast_S8192x1x2_S8192x9x2_0_1_2 (broadcastInDim S8192x1x2 ![0, 2] bcast_S8192x2_S8192x1x2_0_2 a0)) (broadcastInDim S8192x9x2 ![0, 1, 2] bcast_S1x9x2_S8192x9x2_0_1_2 (broadcastInDim S1x9x2 ![1, 2] bcast_S9x2_S1x9x2_1_2 fun i => lit0 (S9x2.rowMajor i)))) (broadcastInDim S8192x9x2 ![0, 1, 2] bcast_S1x1x2_S8192x9x2_0_1_2 (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))))) (broadcastInDim S8192x9x2 ![0, 1, 2] bcast_S1x1x2_S8192x9x2_0_1_2 (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))))) (Host.remsi (addi (broadcastInDim S8192x9x2 ![0, 1, 2] bcast_S8192x1x2_S8192x9x2_0_1_2 (broadcastInDim S8192x1x2 ![0, 2] bcast_S8192x2_S8192x1x2_0_2 a0)) (broadcastInDim S8192x9x2 ![0, 1, 2] bcast_S1x9x2_S8192x9x2_0_1_2 (broadcastInDim S1x9x2 ![1, 2] bcast_S9x2_S1x9x2_1_2 fun i => lit0 (S9x2.rowMajor i)))) (broadcastInDim S8192x9x2 ![0, 1, 2] bcast_S1x1x2_S8192x9x2_0_1_2 (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))))))
    shapeCasts_S8192x9x2_S73728x2

/-- The same for the 2048 points, as [18432, 2]. -/
def nbRaK (a1 : IVec S2048x2 32) : IVec S18432x2 32 :=
  shapeCast S18432x2
    (select (andi (cmpi CmpIPredicate.ne (cmpi CmpIPredicate.slt (Host.remsi (addi (broadcastInDim S2048x9x2 ![0, 1, 2] bcast_S2048x1x2_S2048x9x2_0_1_2 (broadcastInDim S2048x1x2 ![0, 2] bcast_S2048x2_S2048x1x2_0_2 a1)) (broadcastInDim S2048x9x2 ![0, 1, 2] bcast_S1x9x2_S2048x9x2_0_1_2 (broadcastInDim S1x9x2 ![1, 2] bcast_S9x2_S1x9x2_1_2 fun i => lit1 (S9x2.rowMajor i)))) (broadcastInDim S2048x9x2 ![0, 1, 2] bcast_S1x1x2_S2048x9x2_0_1_2 (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))))) (broadcastInDim S2048x9x2 ![] bcast_S_S2048x9x2 (constantI S_ 32 0#32))) (broadcastInDim S2048x9x2 ![0, 1, 2] bcast_S1x1x2_S2048x9x2_0_1_2 (cmpi CmpIPredicate.slt (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))) (broadcastInDim S1x1x2 ![] bcast_S_S1x1x2 (constantI S_ 32 0#32))))) (cmpi CmpIPredicate.ne (Host.remsi (addi (broadcastInDim S2048x9x2 ![0, 1, 2] bcast_S2048x1x2_S2048x9x2_0_1_2 (broadcastInDim S2048x1x2 ![0, 2] bcast_S2048x2_S2048x1x2_0_2 a1)) (broadcastInDim S2048x9x2 ![0, 1, 2] bcast_S1x9x2_S2048x9x2_0_1_2 (broadcastInDim S1x9x2 ![1, 2] bcast_S9x2_S1x9x2_1_2 fun i => lit1 (S9x2.rowMajor i)))) (broadcastInDim S2048x9x2 ![0, 1, 2] bcast_S1x1x2_S2048x9x2_0_1_2 (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))))) (broadcastInDim S2048x9x2 ![] bcast_S_S2048x9x2 (constantI S_ 32 0#32)))) (addi (Host.remsi (addi (broadcastInDim S2048x9x2 ![0, 1, 2] bcast_S2048x1x2_S2048x9x2_0_1_2 (broadcastInDim S2048x1x2 ![0, 2] bcast_S2048x2_S2048x1x2_0_2 a1)) (broadcastInDim S2048x9x2 ![0, 1, 2] bcast_S1x9x2_S2048x9x2_0_1_2 (broadcastInDim S1x9x2 ![1, 2] bcast_S9x2_S1x9x2_1_2 fun i => lit1 (S9x2.rowMajor i)))) (broadcastInDim S2048x9x2 ![0, 1, 2] bcast_S1x1x2_S2048x9x2_0_1_2 (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))))) (broadcastInDim S2048x9x2 ![0, 1, 2] bcast_S1x1x2_S2048x9x2_0_1_2 (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))))) (Host.remsi (addi (broadcastInDim S2048x9x2 ![0, 1, 2] bcast_S2048x1x2_S2048x9x2_0_1_2 (broadcastInDim S2048x1x2 ![0, 2] bcast_S2048x2_S2048x1x2_0_2 a1)) (broadcastInDim S2048x9x2 ![0, 1, 2] bcast_S1x9x2_S2048x9x2_0_1_2 (broadcastInDim S1x9x2 ![1, 2] bcast_S9x2_S1x9x2_1_2 fun i => lit1 (S9x2.rowMajor i)))) (broadcastInDim S2048x9x2 ![0, 1, 2] bcast_S1x1x2_S2048x9x2_0_1_2 (select (cmpi CmpIPredicate.eq (broadcastInDim S1x1x2 ![2] bcast_S2_S1x1x2_2 (constantI S2 32 513#32)) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 (constantI S2 32 513#32))))))
    shapeCasts_S2048x9x2_S18432x2

/-- "More than one mask bit is set". -/
def useK (mk : IVec S2048 1) : IVec S_ 1 :=
  cmpi .sgt (Host.reduce IntOp.addi (extui 32 mk natLt_1_32) (constantI S_ 32 0#32) reducesTo_S2048_S_d0 h_S_) (constantI S_ 32 1#32)

end Cert.KernelIdeal.HostVal

end
-- ==== Proof.KernelHost.lean ====
/-
  The host side of the kernel program, read back.

  Before the two regions the host prepares their input arrays from the four arguments: the mask bit of a
  voxel (|x₄| > 0.1 on column 4 of the third argument), the two integer coordinate columns of the voxels (columns 1
  and 2 of the fourth argument), their float conversions laid out as the rows of a [2, 2048] array, the bias row
  y₀² + y₁² + (0 where the mask bit is set, the finite penalty elsewhere), and for each of the two point sets its nine
  shifted neighbours, each coordinate reduced modulo 513 with the sign of the divisor, flattened row-major to
  [9·n, 2] and converted to float. After the regions the host multiplies each region's distances by the float of
  "more than one mask bit is set" and reshapes [9·n] to [n, 9].

  Every fact here is a read of a buffer through the fold of the host stretches; no arithmetic is done.
-/
import proofs.«161537_j24713241822141_1_alg».proof.Proof.Gen.KernelIdeal.Frame
import proofs.«161537_j24713241822141_1_alg».proof.Proof.Rows
import proofs.«161537_j24713241822141_1_alg».proof.Proof.KernelHostDefs
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.HostVal

open Idealize.ShloMosaic Idealize.ShloMosaic.ValueIdx Cert.KernelIdeal Cert.KernelIdeal.Gen Cert.Nearest
open Idealize.ShloMosaic.TcCoe

variable {F : FTy → Type} [FloatOps F]

/-! ## The pieces of the neighbour chains: the wrapped neighbours are these composed -/

/-- The shift table of the first point set, with a leading unit axis. -/
def shiftLi : IVec S1x9x2 32 := broadcastInDim S1x9x2 ![1, 2] bcast_S9x2_S1x9x2_1_2 fun i => lit0 (S9x2.rowMajor i)
/-- The shift table of the second point set. -/
def shiftRa : IVec S1x9x2 32 := broadcastInDim S1x9x2 ![1, 2] bcast_S9x2_S1x9x2_1_2 fun i => lit1 (S9x2.rowMajor i)
/-- Each point plus each shift. -/
def sumLi (a0 : IVec S8192x2 32) (sh : IVec S1x9x2 32) : IVec S8192x9x2 32 :=
  addi (broadcastInDim S8192x9x2 ![0, 1, 2] bcast_S8192x1x2_S8192x9x2_0_1_2 (broadcastInDim S8192x1x2 ![0, 2] bcast_S8192x2_S8192x1x2_0_2 a0))
    (broadcastInDim S8192x9x2 ![0, 1, 2] bcast_S1x9x2_S8192x9x2_0_1_2 sh)
def sumRa (a1 : IVec S2048x2 32) (sh : IVec S1x9x2 32) : IVec S2048x9x2 32 :=
  addi (broadcastInDim S2048x9x2 ![0, 1, 2] bcast_S2048x1x2_S2048x9x2_0_1_2 (broadcastInDim S2048x1x2 ![0, 2] bcast_S2048x2_S2048x1x2_0_2 a1))
    (broadcastInDim S2048x9x2 ![0, 1, 2] bcast_S1x9x2_S2048x9x2_0_1_2 sh)
/-- The remainder with the divisor's sign, of every entry by the divisor of its last coordinate. -/
def remLi (x : IVec S8192x9x2 32) (n : IVec S2 32) : IVec S8192x9x2 32 :=
  select (andi (cmpi CmpIPredicate.ne (cmpi CmpIPredicate.slt (Host.remsi x (broadcastInDim S8192x9x2 ![0, 1, 2] bcast_S1x1x2_S8192x9x2_0_1_2 (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n)))) (broadcastInDim S8192x9x2 ![] bcast_S_S8192x9x2 (constantI S_ 32 0#32))) (broadcastInDim S8192x9x2 ![0, 1, 2] bcast_S1x1x2_S8192x9x2_0_1_2 (cmpi CmpIPredicate.slt (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n)) (broadcastInDim S1x1x2 ![] bcast_S_S1x1x2 (constantI S_ 32 0#32))))) (cmpi CmpIPredicate.ne (Host.remsi x (broadcastInDim S8192x9x2 ![0, 1, 2] bcast_S1x1x2_S8192x9x2_0_1_2 (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n)))) (broadcastInDim S8192x9x2 ![] bcast_S_S8192x9x2 (constantI S_ 32 0#32)))) (addi (Host.remsi x (broadcastInDim S8192x9x2 ![0, 1, 2] bcast_S1x1x2_S8192x9x2_0_1_2 (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n)))) (broadcastInDim S8192x9x2 ![0, 1, 2] bcast_S1x1x2_S8192x9x2_0_1_2 (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n)))) (Host.remsi x (broadcastInDim S8192x9x2 ![0, 1, 2] bcast_S1x1x2_S8192x9x2_0_1_2 (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n))))
def remRa (x : IVec S2048x9x2 32) (n : IVec S2 32) : IVec S2048x9x2 32 :=
  select (andi (cmpi CmpIPredicate.ne (cmpi CmpIPredicate.slt (Host.remsi x (broadcastInDim S2048x9x2 ![0, 1, 2] bcast_S1x1x2_S2048x9x2_0_1_2 (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n)))) (broadcastInDim S2048x9x2 ![] bcast_S_S2048x9x2 (constantI S_ 32 0#32))) (broadcastInDim S2048x9x2 ![0, 1, 2] bcast_S1x1x2_S2048x9x2_0_1_2 (cmpi CmpIPredicate.slt (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n)) (broadcastInDim S1x1x2 ![] bcast_S_S1x1x2 (constantI S_ 32 0#32))))) (cmpi CmpIPredicate.ne (Host.remsi x (broadcastInDim S2048x9x2 ![0, 1, 2] bcast_S1x1x2_S2048x9x2_0_1_2 (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n)))) (broadcastInDim S2048x9x2 ![] bcast_S_S2048x9x2 (constantI S_ 32 0#32)))) (addi (Host.remsi x (broadcastInDim S2048x9x2 ![0, 1, 2] bcast_S1x1x2_S2048x9x2_0_1_2 (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n)))) (broadcastInDim S2048x9x2 ![0, 1, 2] bcast_S1x1x2_S2048x9x2_0_1_2 (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n)))) (Host.remsi x (broadcastInDim S2048x9x2 ![0, 1, 2] bcast_S1x1x2_S2048x9x2_0_1_2 (select (cmpi CmpIPredicate.eq (broadcastInDim S1x1x2 ![2] bcast_S2_S1x1x2_2 n) (broadcastInDim S1x1x2 ![] bcast_S_S1x1x2 (constantI S_ 32 0#32))) (broadcastInDim S1x1x2 ![] bcast_S_S1x1x2 (constantI S_ 32 1#32)) (broadcastInDim S1x1x2 ![2] bcast_S2_S1x1x2_2 n))))

theorem nbLiK_eq (a0 : IVec S8192x2 32) :
    nbLiK a0 = shapeCast S73728x2 (remLi (sumLi a0 shiftLi) (constantI S2 32 513#32)) shapeCasts_S8192x9x2_S73728x2 := rfl
theorem nbRaK_eq (a1 : IVec S2048x2 32) :
    nbRaK a1 = shapeCast S18432x2 (remRa (sumRa a1 shiftRa) (constantI S2 32 513#32)) shapeCasts_S2048x9x2_S18432x2 := rfl

/-- Column 0 of the voxel coordinates as floats; column 1. -/
def col0 (d : IVec S2048x2 32) : FVec F S2048 .f32 :=
  shapeCast S2048 (extractStridedSlice S2048x1 ![0, 0] (sitofp .f32 d) slices_S2048x2_S2048x1_0_0) shapeCasts_S2048x1_S2048
def col1 (d : IVec S2048x2 32) : FVec F S2048 .f32 :=
  shapeCast S2048 (extractStridedSlice S2048x1 ![0, 1] (sitofp .f32 d) slices_S2048x2_S2048x1_0_1) shapeCasts_S2048x1_S2048
/-- The squared norm of each voxel. -/
def sqK (d : IVec S2048x2 32) : FVec F S2048 .f32 := addf (mulf (col0 d) (col0 d)) (mulf (col1 d) (col1 d))
/-- Zero where the mask bit is set, the finite penalty elsewhere. -/
def penK (mk : IVec S2048 1) : FVec F S2048 .f32 :=
  select mk (broadcastInDim S2048 ![] bcast_S_S2048 (constant S_ .f32 0x00000000#32)) (broadcastInDim S2048 ![] bcast_S_S2048 (constant S_ .f32 0x7149F2CA#32))
/-- The bias row. -/
def biasK (d : IVec S2048x2 32) (mk : IVec S2048 1) : FVec F S1x2048 .f32 :=
  shapeCast S1x2048 (addf (sqK d) (id (penK mk))) shapeCasts_S2048_S1x2048
/-- The voxel coordinates as the two rows of a [2, 2048] array. -/
def rowsK (d : IVec S2048x2 32) : FVec F S2x2048 .f32 :=
  concatenate S2x2048 0 [⟨S1x2048, broadcastInDim S1x2048 ![1] bcast_S2048_S1x2048_1 (col0 d)⟩,
    ⟨S1x2048, broadcastInDim S1x2048 ![1] bcast_S2048_S1x2048_1 (col1 d)⟩] concatenates_S1x2048_S1x2048_S2x2048_d0

/-! ## Reading one buffer through one stretch -/

/-- A buffer a stretch does not write keeps its contents. -/
local macro "not_written " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

section Stretches
variable (V : Valuation τ sig (Elt F))

theorem s0_v0 : StableHlo.after hostOps0 V (Proc.devRef .tc main_v0) = shiftLi := by
  dsimp only [hostOps0]; after_results <;> rfl
theorem s0_v1 : StableHlo.after hostOps0 V (Proc.devRef .tc main_v1) = shiftRa := by
  dsimp only [hostOps0]; after_results <;> rfl
theorem s0_c0 : StableHlo.after hostOps0 V (Proc.devRef .tc main_c_0) = constantI S2 32 513#32 := by
  dsimp only [hostOps0]; after_results <;> rfl
theorem s0_v6 : StableHlo.after hostOps0 V (Proc.devRef .tc main_v6) = maskK (V (Proc.devRef .tc main_arg2)) := by
  dsimp only [hostOps0]; after_results <;> rfl
theorem s0_v10 : StableHlo.after hostOps0 V (Proc.devRef .tc main_v10) = col0 (dyK (V (Proc.devRef .tc main_arg3))) := by
  dsimp only [hostOps0]; after_results <;> rfl
theorem s0_v12 : StableHlo.after hostOps0 V (Proc.devRef .tc main_v12) = col1 (dyK (V (Proc.devRef .tc main_arg3))) := by
  dsimp only [hostOps0]; after_results <;> rfl
theorem s0_v15 : StableHlo.after hostOps0 V (Proc.devRef .tc main_v15) = sqK (dyK (V (Proc.devRef .tc main_arg3))) := by
  dsimp only [hostOps0]; after_results <;> rfl
theorem s0_cst2 : StableHlo.after hostOps0 V (Proc.devRef .tc main_cst_2) = constant S_ .f32 0x00000000#32 := by
  dsimp only [hostOps0]; after_results <;> rfl
theorem s0_cst3 : StableHlo.after hostOps0 V (Proc.devRef .tc main_cst_3) = constant S_ .f32 0x7149F2CA#32 := by
  dsimp only [hostOps0]; after_results <;> rfl
theorem s1_v16 : StableHlo.after hostOps0_1 V (Proc.devRef .tc main_v16)
    = select (V (Proc.devRef .tc main_v6)) (broadcastInDim S2048 ![] bcast_S_S2048 (V (Proc.devRef .tc main_cst_2))) (broadcastInDim S2048 ![] bcast_S_S2048 (V (Proc.devRef .tc main_cst_3))) := by
  dsimp only [hostOps0_1]; after_results
  simp only [StableHlo.TRef.ofBuf, StableHlo.TRef.toBuf, cast_eq]
theorem s2_v19 : StableHlo.after hostOps0_2 V (Proc.devRef .tc main_v19)
    = shapeCast S1x2048 (addf (V (Proc.devRef .tc main_v15)) (id (V (Proc.devRef .tc main_v16)))) shapeCasts_S2048_S1x2048 := by
  dsimp only [hostOps0_2]; after_results <;> rfl
theorem s2_v22 : StableHlo.after hostOps0_2 V (Proc.devRef .tc main_v22)
    = concatenate S2x2048 0 [⟨S1x2048, broadcastInDim S1x2048 ![1] bcast_S2048_S1x2048_1 (V (Proc.devRef .tc main_v10))⟩,
        ⟨S1x2048, broadcastInDim S1x2048 ![1] bcast_S2048_S1x2048_1 (V (Proc.devRef .tc main_v12))⟩] concatenates_S1x2048_S1x2048_S2x2048_d0 := by
  dsimp only [hostOps0_2]; after_results <;> rfl
theorem s2_v26 : StableHlo.after hostOps0_2 V (Proc.devRef .tc main_v26) = sumLi (V (Proc.devRef .tc main_arg0)) (V (Proc.devRef .tc main_v0)) := by
  dsimp only [hostOps0_2]; after_results <;> rfl
set_option maxHeartbeats 1000000 in
theorem s3_v27 : StableHlo.after hostOps0_3 V (Proc.devRef .tc main_v27) = remLi (V (Proc.devRef .tc main_v26)) (V (Proc.devRef .tc main_c_0)) := by
  dsimp only [hostOps0_3]; after_results_simp
  simp only [StableHlo.TRef.ofBuf, StableHlo.TRef.toBuf, cast_eq]
  rfl
theorem s4_v29 : StableHlo.after hostOps0_4 V (Proc.devRef .tc main_v29)
    = sitofp .f32 (shapeCast S73728x2 (V (Proc.devRef .tc main_v27)) shapeCasts_S8192x9x2_S73728x2) := by
  dsimp only [hostOps0_4]; after_results <;> rfl
theorem s4_v33 : StableHlo.after hostOps0_4 V (Proc.devRef .tc main_v33) = sumRa (V (Proc.devRef .tc main_arg1)) (V (Proc.devRef .tc main_v1)) := by
  dsimp only [hostOps0_4]; after_results <;> rfl
set_option maxHeartbeats 1000000 in
theorem s5_v34 : StableHlo.after hostOps0_5 V (Proc.devRef .tc main_v34) = remRa (V (Proc.devRef .tc main_v33)) (V (Proc.devRef .tc main_c_0)) := by
  dsimp only [hostOps0_5]; after_results_simp
  simp only [StableHlo.TRef.ofBuf, StableHlo.TRef.toBuf, cast_eq]
  rfl
theorem s6_v36 : StableHlo.after hostOps0_6 V (Proc.devRef .tc main_v36)
    = sitofp .f32 (shapeCast S18432x2 (V (Proc.devRef .tc main_v34)) shapeCasts_S2048x9x2_S18432x2) := by
  dsimp only [hostOps0_6]; after_results <;> rfl
theorem s7_v45 : StableHlo.after hostOps2 V (Proc.devRef .tc main_v45)
    = shapeCast S8192x9 (mulf (V (Proc.devRef .tc main_v37)) (broadcastInDim S73728 ![] bcast_S_S73728 (uitofp .f32 (useK (V (Proc.devRef .tc main_v6))))))
        shapeCasts_S73728_S8192x9 := by
  dsimp only [hostOps2]; after_results <;> rfl
theorem s7_v48 : StableHlo.after hostOps2 V (Proc.devRef .tc main_v48)
    = shapeCast S2048x9 (mulf (V (Proc.devRef .tc main_v38)) (broadcastInDim S18432 ![] bcast_S_S18432 (uitofp .f32 (useK (V (Proc.devRef .tc main_v6))))))
        shapeCasts_S18432_S2048x9 := by
  dsimp only [hostOps2]; after_results <;> rfl

end Stretches

/-! ## The fold, level by level: each buffer the regions or a later stretch read, at every level it is read from -/

section Levels
variable (m : (ℓ : Loc nD τ sig) → Buf (Elt F) ℓ) (ρ : Dev nD → PrngReg)

theorem W0_arg0 (c : Dev nD) : W0 m ρ c (Proc.devRef .tc main_arg0) = (m ((c : Thread nD τ).loc main_arg0)) := rfl
theorem W0_arg1 (c : Dev nD) : W0 m ρ c (Proc.devRef .tc main_arg1) = (m ((c : Thread nD τ).loc main_arg1)) := rfl

-- level 1
theorem W1_arg0 (c : Dev nD) : W1 m ρ c (Proc.devRef .tc main_arg0) = (m ((c : Thread nD τ).loc main_arg0)) :=
  (show W1 m ρ c (Proc.devRef .tc main_arg0) = W0 m ρ c (Proc.devRef .tc main_arg0) by not_written hostOps0).trans (W0_arg0 m ρ c)
theorem W1_arg1 (c : Dev nD) : W1 m ρ c (Proc.devRef .tc main_arg1) = (m ((c : Thread nD τ).loc main_arg1)) :=
  (show W1 m ρ c (Proc.devRef .tc main_arg1) = W0 m ρ c (Proc.devRef .tc main_arg1) by not_written hostOps0).trans (W0_arg1 m ρ c)
theorem W1_v0 (c : Dev nD) : W1 m ρ c (Proc.devRef .tc main_v0) = shiftLi := s0_v0 _
theorem W1_v1 (c : Dev nD) : W1 m ρ c (Proc.devRef .tc main_v1) = shiftRa := s0_v1 _
theorem W1_c_0 (c : Dev nD) : W1 m ρ c (Proc.devRef .tc main_c_0) = (constantI S2 32 513#32 : IVec S2 32) := s0_c0 _
theorem W1_v6 (c : Dev nD) : W1 m ρ c (Proc.devRef .tc main_v6) = maskK (m ((c : Thread nD τ).loc main_arg2)) := s0_v6 _
theorem W1_v10 (c : Dev nD) : W1 m ρ c (Proc.devRef .tc main_v10) = (col0 (dyK (m ((c : Thread nD τ).loc main_arg3))) : FVec F S2048 .f32) := s0_v10 _
theorem W1_v12 (c : Dev nD) : W1 m ρ c (Proc.devRef .tc main_v12) = (col1 (dyK (m ((c : Thread nD τ).loc main_arg3))) : FVec F S2048 .f32) := s0_v12 _
theorem W1_v15 (c : Dev nD) : W1 m ρ c (Proc.devRef .tc main_v15) = (sqK (dyK (m ((c : Thread nD τ).loc main_arg3))) : FVec F S2048 .f32) := s0_v15 _
theorem W1_cst_2 (c : Dev nD) : W1 m ρ c (Proc.devRef .tc main_cst_2) = (constant S_ .f32 0x00000000#32 : FVec F S_ .f32) := s0_cst2 _
theorem W1_cst_3 (c : Dev nD) : W1 m ρ c (Proc.devRef .tc main_cst_3) = (constant S_ .f32 0x7149F2CA#32 : FVec F S_ .f32) := s0_cst3 _

-- level 2
theorem W2_arg0 (c : Dev nD) : W2 m ρ c (Proc.devRef .tc main_arg0) = (m ((c : Thread nD τ).loc main_arg0)) :=
  (show W2 m ρ c (Proc.devRef .tc main_arg0) = W1 m ρ c (Proc.devRef .tc main_arg0) by not_written hostOps0_1).trans (W1_arg0 m ρ c)
theorem W2_arg1 (c : Dev nD) : W2 m ρ c (Proc.devRef .tc main_arg1) = (m ((c : Thread nD τ).loc main_arg1)) :=
  (show W2 m ρ c (Proc.devRef .tc main_arg1) = W1 m ρ c (Proc.devRef .tc main_arg1) by not_written hostOps0_1).trans (W1_arg1 m ρ c)
theorem W2_v0 (c : Dev nD) : W2 m ρ c (Proc.devRef .tc main_v0) = shiftLi :=
  (show W2 m ρ c (Proc.devRef .tc main_v0) = W1 m ρ c (Proc.devRef .tc main_v0) by not_written hostOps0_1).trans (W1_v0 m ρ c)
theorem W2_v1 (c : Dev nD) : W2 m ρ c (Proc.devRef .tc main_v1) = shiftRa :=
  (show W2 m ρ c (Proc.devRef .tc main_v1) = W1 m ρ c (Proc.devRef .tc main_v1) by not_written hostOps0_1).trans (W1_v1 m ρ c)
theorem W2_c_0 (c : Dev nD) : W2 m ρ c (Proc.devRef .tc main_c_0) = (constantI S2 32 513#32 : IVec S2 32) :=
  (show W2 m ρ c (Proc.devRef .tc main_c_0) = W1 m ρ c (Proc.devRef .tc main_c_0) by not_written hostOps0_1).trans (W1_c_0 m ρ c)
theorem W2_v6 (c : Dev nD) : W2 m ρ c (Proc.devRef .tc main_v6) = maskK (m ((c : Thread nD τ).loc main_arg2)) :=
  (show W2 m ρ c (Proc.devRef .tc main_v6) = W1 m ρ c (Proc.devRef .tc main_v6) by not_written hostOps0_1).trans (W1_v6 m ρ c)
theorem W2_v10 (c : Dev nD) : W2 m ρ c (Proc.devRef .tc main_v10) = (col0 (dyK (m ((c : Thread nD τ).loc main_arg3))) : FVec F S2048 .f32) :=
  (show W2 m ρ c (Proc.devRef .tc main_v10) = W1 m ρ c (Proc.devRef .tc main_v10) by not_written hostOps0_1).trans (W1_v10 m ρ c)
theorem W2_v12 (c : Dev nD) : W2 m ρ c (Proc.devRef .tc main_v12) = (col1 (dyK (m ((c : Thread nD τ).loc main_arg3))) : FVec F S2048 .f32) :=
  (show W2 m ρ c (Proc.devRef .tc main_v12) = W1 m ρ c (Proc.devRef .tc main_v12) by not_written hostOps0_1).trans (W1_v12 m ρ c)
theorem W2_v15 (c : Dev nD) : W2 m ρ c (Proc.devRef .tc main_v15) = (sqK (dyK (m ((c : Thread nD τ).loc main_arg3))) : FVec F S2048 .f32) :=
  (show W2 m ρ c (Proc.devRef .tc main_v15) = W1 m ρ c (Proc.devRef .tc main_v15) by not_written hostOps0_1).trans (W1_v15 m ρ c)
theorem W2_v16 (c : Dev nD) : W2 m ρ c (Proc.devRef .tc main_v16) = (penK (maskK (m ((c : Thread nD τ).loc main_arg2))) : FVec F S2048 .f32) := by
  refine (s1_v16 _).trans ?_
  rw [W1_v6, W1_cst_2, W1_cst_3]; rfl

-- level 3
theorem W3_arg1 (c : Dev nD) : W3 m ρ c (Proc.devRef .tc main_arg1) = (m ((c : Thread nD τ).loc main_arg1)) :=
  (show W3 m ρ c (Proc.devRef .tc main_arg1) = W2 m ρ c (Proc.devRef .tc main_arg1) by not_written hostOps0_2).trans (W2_arg1 m ρ c)
theorem W3_v1 (c : Dev nD) : W3 m ρ c (Proc.devRef .tc main_v1) = shiftRa :=
  (show W3 m ρ c (Proc.devRef .tc main_v1) = W2 m ρ c (Proc.devRef .tc main_v1) by not_written hostOps0_2).trans (W2_v1 m ρ c)
theorem W3_c_0 (c : Dev nD) : W3 m ρ c (Proc.devRef .tc main_c_0) = (constantI S2 32 513#32 : IVec S2 32) :=
  (show W3 m ρ c (Proc.devRef .tc main_c_0) = W2 m ρ c (Proc.devRef .tc main_c_0) by not_written hostOps0_2).trans (W2_c_0 m ρ c)
theorem W3_v6 (c : Dev nD) : W3 m ρ c (Proc.devRef .tc main_v6) = maskK (m ((c : Thread nD τ).loc main_arg2)) :=
  (show W3 m ρ c (Proc.devRef .tc main_v6) = W2 m ρ c (Proc.devRef .tc main_v6) by not_written hostOps0_2).trans (W2_v6 m ρ c)
theorem W3_v19 (c : Dev nD) : W3 m ρ c (Proc.devRef .tc main_v19) = (biasK (dyK (m ((c : Thread nD τ).loc main_arg3))) (maskK (m ((c : Thread nD τ).loc main_arg2))) : FVec F S1x2048 .f32) := by
  refine (s2_v19 _).trans ?_
  rw [W2_v15, W2_v16]; rfl
theorem W3_v22 (c : Dev nD) : W3 m ρ c (Proc.devRef .tc main_v22) = (rowsK (dyK (m ((c : Thread nD τ).loc main_arg3))) : FVec F S2x2048 .f32) := by
  refine (s2_v22 _).trans ?_
  rw [W2_v10, W2_v12]; rfl
theorem W3_v26 (c : Dev nD) : W3 m ρ c (Proc.devRef .tc main_v26) = sumLi (m ((c : Thread nD τ).loc main_arg0)) shiftLi := by
  refine (s2_v26 _).trans ?_
  rw [W2_arg0, W2_v0]

-- level 4
theorem W4_arg1 (c : Dev nD) : W4 m ρ c (Proc.devRef .tc main_arg1) = (m ((c : Thread nD τ).loc main_arg1)) :=
  (show W4 m ρ c (Proc.devRef .tc main_arg1) = W3 m ρ c (Proc.devRef .tc main_arg1) by not_written hostOps0_3).trans (W3_arg1 m ρ c)
theorem W4_v1 (c : Dev nD) : W4 m ρ c (Proc.devRef .tc main_v1) = shiftRa :=
  (show W4 m ρ c (Proc.devRef .tc main_v1) = W3 m ρ c (Proc.devRef .tc main_v1) by not_written hostOps0_3).trans (W3_v1 m ρ c)
theorem W4_c_0 (c : Dev nD) : W4 m ρ c (Proc.devRef .tc main_c_0) = (constantI S2 32 513#32 : IVec S2 32) :=
  (show W4 m ρ c (Proc.devRef .tc main_c_0) = W3 m ρ c (Proc.devRef .tc main_c_0) by not_written hostOps0_3).trans (W3_c_0 m ρ c)
theorem W4_v6 (c : Dev nD) : W4 m ρ c (Proc.devRef .tc main_v6) = maskK (m ((c : Thread nD τ).loc main_arg2)) :=
  (show W4 m ρ c (Proc.devRef .tc main_v6) = W3 m ρ c (Proc.devRef .tc main_v6) by not_written hostOps0_3).trans (W3_v6 m ρ c)
theorem W4_v19 (c : Dev nD) : W4 m ρ c (Proc.devRef .tc main_v19) = (biasK (dyK (m ((c : Thread nD τ).loc main_arg3))) (maskK (m ((c : Thread nD τ).loc main_arg2))) : FVec F S1x2048 .f32) :=
  (show W4 m ρ c (Proc.devRef .tc main_v19) = W3 m ρ c (Proc.devRef .tc main_v19) by not_written hostOps0_3).trans (W3_v19 m ρ c)
theorem W4_v22 (c : Dev nD) : W4 m ρ c (Proc.devRef .tc main_v22) = (rowsK (dyK (m ((c : Thread nD τ).loc main_arg3))) : FVec F S2x2048 .f32) :=
  (show W4 m ρ c (Proc.devRef .tc main_v22) = W3 m ρ c (Proc.devRef .tc main_v22) by not_written hostOps0_3).trans (W3_v22 m ρ c)
theorem W4_v27 (c : Dev nD) : W4 m ρ c (Proc.devRef .tc main_v27) = remLi (sumLi (m ((c : Thread nD τ).loc main_arg0)) shiftLi) (constantI S2 32 513#32) := by
  refine (s3_v27 _).trans ?_
  rw [W3_v26, W3_c_0]

-- level 5
theorem W5_c_0 (c : Dev nD) : W5 m ρ c (Proc.devRef .tc main_c_0) = (constantI S2 32 513#32 : IVec S2 32) :=
  (show W5 m ρ c (Proc.devRef .tc main_c_0) = W4 m ρ c (Proc.devRef .tc main_c_0) by not_written hostOps0_4).trans (W4_c_0 m ρ c)
theorem W5_v6 (c : Dev nD) : W5 m ρ c (Proc.devRef .tc main_v6) = maskK (m ((c : Thread nD τ).loc main_arg2)) :=
  (show W5 m ρ c (Proc.devRef .tc main_v6) = W4 m ρ c (Proc.devRef .tc main_v6) by not_written hostOps0_4).trans (W4_v6 m ρ c)
theorem W5_v19 (c : Dev nD) : W5 m ρ c (Proc.devRef .tc main_v19) = (biasK (dyK (m ((c : Thread nD τ).loc main_arg3))) (maskK (m ((c : Thread nD τ).loc main_arg2))) : FVec F S1x2048 .f32) :=
  (show W5 m ρ c (Proc.devRef .tc main_v19) = W4 m ρ c (Proc.devRef .tc main_v19) by not_written hostOps0_4).trans (W4_v19 m ρ c)
theorem W5_v22 (c : Dev nD) : W5 m ρ c (Proc.devRef .tc main_v22) = (rowsK (dyK (m ((c : Thread nD τ).loc main_arg3))) : FVec F S2x2048 .f32) :=
  (show W5 m ρ c (Proc.devRef .tc main_v22) = W4 m ρ c (Proc.devRef .tc main_v22) by not_written hostOps0_4).trans (W4_v22 m ρ c)
theorem W5_v29 (c : Dev nD) : W5 m ρ c (Proc.devRef .tc main_v29) = (sitofp .f32 (nbLiK (m ((c : Thread nD τ).loc main_arg0))) : FVec F S73728x2 .f32) := by
  refine (s4_v29 _).trans ?_
  rw [W4_v27, nbLiK_eq]
theorem W5_v33 (c : Dev nD) : W5 m ρ c (Proc.devRef .tc main_v33) = sumRa (m ((c : Thread nD τ).loc main_arg1)) shiftRa := by
  refine (s4_v33 _).trans ?_
  rw [W4_arg1, W4_v1]

-- level 6
theorem W6_v6 (c : Dev nD) : W6 m ρ c (Proc.devRef .tc main_v6) = maskK (m ((c : Thread nD τ).loc main_arg2)) :=
  (show W6 m ρ c (Proc.devRef .tc main_v6) = W5 m ρ c (Proc.devRef .tc main_v6) by not_written hostOps0_5).trans (W5_v6 m ρ c)
theorem W6_v19 (c : Dev nD) : W6 m ρ c (Proc.devRef .tc main_v19) = (biasK (dyK (m ((c : Thread nD τ).loc main_arg3))) (maskK (m ((c : Thread nD τ).loc main_arg2))) : FVec F S1x2048 .f32) :=
  (show W6 m ρ c (Proc.devRef .tc main_v19) = W5 m ρ c (Proc.devRef .tc main_v19) by not_written hostOps0_5).trans (W5_v19 m ρ c)
theorem W6_v22 (c : Dev nD) : W6 m ρ c (Proc.devRef .tc main_v22) = (rowsK (dyK (m ((c : Thread nD τ).loc main_arg3))) : FVec F S2x2048 .f32) :=
  (show W6 m ρ c (Proc.devRef .tc main_v22) = W5 m ρ c (Proc.devRef .tc main_v22) by not_written hostOps0_5).trans (W5_v22 m ρ c)
theorem W6_v29 (c : Dev nD) : W6 m ρ c (Proc.devRef .tc main_v29) = (sitofp .f32 (nbLiK (m ((c : Thread nD τ).loc main_arg0))) : FVec F S73728x2 .f32) :=
  (show W6 m ρ c (Proc.devRef .tc main_v29) = W5 m ρ c (Proc.devRef .tc main_v29) by not_written hostOps0_5).trans (W5_v29 m ρ c)
theorem W6_v34 (c : Dev nD) : W6 m ρ c (Proc.devRef .tc main_v34) = remRa (sumRa (m ((c : Thread nD τ).loc main_arg1)) shiftRa) (constantI S2 32 513#32) := by
  refine (s5_v34 _).trans ?_
  rw [W5_v33, W5_c_0]

-- level 7
theorem W7_v6 (c : Dev nD) : W7 m ρ c (Proc.devRef .tc main_v6) = maskK (m ((c : Thread nD τ).loc main_arg2)) :=
  (show W7 m ρ c (Proc.devRef .tc main_v6) = W6 m ρ c (Proc.devRef .tc main_v6) by not_written hostOps0_6).trans (W6_v6 m ρ c)
theorem W7_v19 (c : Dev nD) : W7 m ρ c (Proc.devRef .tc main_v19) = (biasK (dyK (m ((c : Thread nD τ).loc main_arg3))) (maskK (m ((c : Thread nD τ).loc main_arg2))) : FVec F S1x2048 .f32) :=
  (show W7 m ρ c (Proc.devRef .tc main_v19) = W6 m ρ c (Proc.devRef .tc main_v19) by not_written hostOps0_6).trans (W6_v19 m ρ c)
theorem W7_v22 (c : Dev nD) : W7 m ρ c (Proc.devRef .tc main_v22) = (rowsK (dyK (m ((c : Thread nD τ).loc main_arg3))) : FVec F S2x2048 .f32) :=
  (show W7 m ρ c (Proc.devRef .tc main_v22) = W6 m ρ c (Proc.devRef .tc main_v22) by not_written hostOps0_6).trans (W6_v22 m ρ c)
theorem W7_v29 (c : Dev nD) : W7 m ρ c (Proc.devRef .tc main_v29) = (sitofp .f32 (nbLiK (m ((c : Thread nD τ).loc main_arg0))) : FVec F S73728x2 .f32) :=
  (show W7 m ρ c (Proc.devRef .tc main_v29) = W6 m ρ c (Proc.devRef .tc main_v29) by not_written hostOps0_6).trans (W6_v29 m ρ c)
theorem W7_v36 (c : Dev nD) : W7 m ρ c (Proc.devRef .tc main_v36) = (sitofp .f32 (nbRaK (m ((c : Thread nD τ).loc main_arg1))) : FVec F S18432x2 .f32) := by
  refine (s6_v36 _).trans ?_
  rw [W6_v34, nbRaK_eq]

end Levels

/-! ## What the regions find, and what the last stretch makes of what they leave -/

section Host
variable (m : (ℓ : Loc nD τ sig) → Buf (Elt F) ℓ) (ρ : Dev nD → PrngReg)

/-- Region 0's point array: the first point set's wrapped neighbours as floats. -/
theorem V7_v29 (c : Dev nD) : V7 m ρ c main_v29 = sitofp .f32 (nbLiK (m ((c : Thread nD τ).loc main_arg0))) :=
  W7_v29 m ρ c

/-- Region 1's point array: the second point set's wrapped neighbours as floats (region 0 does not touch it). -/
theorem V8_v36 (c : Dev nD) : V8 m ρ c main_v36 = sitofp .f32 (nbRaK (m ((c : Thread nD τ).loc main_arg1))) :=
  (W8_of_ne m ρ c main_v36 (by decide)).trans (W7_v36 m ρ c)

/-- The mask bits are still there after the two regions. -/
theorem W9_v6 (c : Dev nD) : W9 m ρ c (Proc.devRef .tc main_v6) = maskK (m ((c : Thread nD τ).loc main_arg2)) :=
  (W9_of_ne m ρ c main_v6 (by decide)).trans ((W8_of_ne m ρ c main_v6 (by decide)).trans (W7_v6 m ρ c))

/-- Region 0's distances after region 1: as region 0 left them. -/
theorem W9_v37 (c : Dev nD) : W9 m ρ c (Proc.devRef .tc main_v37) = (dat0 (V7 m ρ) c).arrAt 3 cfg0.N :=
  (W9_of_ne m ρ c main_v37 (by decide)).trans (W8_arr m ρ c 3)

/-- Region 1's distances. -/
theorem W9_v38 (c : Dev nD) : W9 m ρ c (Proc.devRef .tc main_v38) = (dat1 (V8 m ρ) c).arrAt 3 cfg1.N :=
  W9_arr m ρ c 3

/-- The first result at (i, j): the distance of point 9 i + j, times the float of "more than one mask bit is set". -/
theorem W10_v45 (c : Dev nD) (i : Fin 8192) (j : Fin 9) :
    W10 m ρ c (Proc.devRef .tc main_v45) (ix2 i j)
      = FloatOps.mulf ((dat0 (V7 m ρ) c).arrAt 3 cfg0.N (ix1 (rowLi i j)))
          (FloatOps.uitofp .f32 (useK (maskK (m ((c : Thread nD τ).loc main_arg2))) ix0)) := by
  refine (congrFun (s7_v45 (W9 m ρ c)) (ix2 i j)).trans ?_
  rw [W9_v6, W9_v37]
  refine (shapeCast_apply _ _ (ix2 i j) (ix1 (rowLi i j)) (by
    rw [Shape.rowMajor_val_one, Shape.rowMajor_val_two]
    show (rowLi i j).val = i.val * 9 + j.val
    rw [rowLi_val]; omega)).trans ?_
  rfl

/-- The second result at (i, j). -/
theorem W10_v48 (c : Dev nD) (i : Fin 2048) (j : Fin 9) :
    W10 m ρ c (Proc.devRef .tc main_v48) (ix2 i j)
      = FloatOps.mulf ((dat1 (V8 m ρ) c).arrAt 3 cfg1.N (ix1 (rowRa i j)))
          (FloatOps.uitofp .f32 (useK (maskK (m ((c : Thread nD τ).loc main_arg2))) ix0)) := by
  refine (congrFun (s7_v48 (W9 m ρ c)) (ix2 i j)).trans ?_
  rw [W9_v6, W9_v38]
  refine (shapeCast_apply _ _ (ix2 i j) (ix1 (rowRa i j)) (by
    rw [Shape.rowMajor_val_one, Shape.rowMajor_val_two]
    show (rowRa i j).val = i.val * 9 + j.val
    rw [rowRa_val]; omega)).trans ?_
  rfl

end Host

end Cert.KernelIdeal.HostVal

end
-- ==== Proof.KernelHostIn.lean ====
/-
  What the host puts into the two arrays that stay resident through both regions, read at an index.

  The coordinate array [2, 2048] holds, in row 0 and row 1, the float conversions of the voxels' two integer coordinate
  columns (columns 1 and 2 of the fourth argument): entry (k, q) is coordinate k of voxel q. The bias row [1, 2048]
  holds, at column q, y₀² + y₁² plus 0 where the voxel's mask bit (|column 4 of the third argument| > 0.1) is set and
  the finite penalty 10³⁰ elsewhere. Both are written by the host before the first region; no later host operation
  writes them, and both regions only read them, so they hold the same at either region's entry.

  The whole arrays are known as compositions of layout operations over the coordinate columns; here each layout
  operation is read at an index. No arithmetic is done.
-/
import proofs.«161537_j24713241822141_1_alg».proof.Proof.Gen.KernelIdeal.Frame
import proofs.«161537_j24713241822141_1_alg».proof.Proof.KernelHostDefs
import proofs.«161537_j24713241822141_1_alg».proof.Proof.KernelHost
import Idealize.ShloMosaic.Lib.ValueIdx
import Idealize.ShloMosaic.Lib.Pipeline.Value
import Idealize.ShloMosaic.Lib.ValueLayout

set_option maxRecDepth 16384

noncomputable section

namespace Cert.KernelIdeal.HostVal

open Idealize.ShloMosaic Idealize.ShloMosaic.ValueIdx Cert.KernelIdeal Cert.KernelIdeal.Gen
open Idealize.ShloMosaic.TcCoe

variable {F : FTy → Type} [FloatOps F]

namespace Resident

/-! ## Both regions only read the two arrays -/

section Keep
variable (m : (ℓ : Loc nD τ sig) → Buf (Elt F) ℓ) (ρ : Dev nD → PrngReg)

/-- At the second region's entry the coordinate array holds what it held at the first's. -/
theorem W8_v22 (c : Dev nD) : W8 m ρ c (Proc.devRef .tc main_v22) = W7 m ρ c (Proc.devRef .tc main_v22) :=
  (W8_arr m ρ c 1).trans (((dat0 (V7 m ρ) c).arrAt_in 1 rfl cfg0.N).trans (A_eq0 (V7 m ρ) c 1))
/-- And so does the bias row. -/
theorem W8_v19 (c : Dev nD) : W8 m ρ c (Proc.devRef .tc main_v19) = W7 m ρ c (Proc.devRef .tc main_v19) :=
  (W8_arr m ρ c 2).trans (((dat0 (V7 m ρ) c).arrAt_in 2 rfl cfg0.N).trans (A_eq0 (V7 m ρ) c 2))

end Keep

/-! ## The pieces read at an index -/

section Reads
variable {α : Type}

/-- A vector made a row reads, at `(0, q)`, its entry `q`. -/
theorem bcast_row (x : S2048.Idx → α) (z : Fin 1) (q : Fin 2048) :
    broadcastInDim S1x2048 ![1] bcast_S2048_S1x2048_1 x (ix2 z q) = x (ix1 q) :=
  broadcastInDim_apply _ _ x _ _ fun a => by
    match a with
    | ⟨0, _⟩ => exact (if_neg (show ¬(2048 : Nat) = 1 by decide)).symm

/-- A scalar broadcast to the 2048 columns reads the scalar everywhere. -/
theorem bcast0 (x : S_.Idx → α) (q : Fin 2048) : broadcastInDim S2048 ![] bcast_S_S2048 x (ix1 q) = x ix0 :=
  broadcastInDim_apply _ _ x _ _ fun a => a.elim0

/-- A [2048, 1] column read as a flat [2048] vector: entry `q` is entry `(q, 0)`. -/
theorem flat_col (x : S2048x1.Idx → α) (q : Fin 2048) :
    shapeCast S2048 x shapeCasts_S2048x1_S2048 (ix1 q) = x (ix2 q 0) :=
  shapeCast_apply x _ _ _ (by
    rw [Shape.rowMajor_val_two, Shape.rowMajor_val_one]
    show q.val * 1 + 0 = q.val
    omega)

/-- A flat [2048] vector read as a [1, 2048] row: entry `(0, q)` is entry `q`. -/
theorem row_flat (x : S2048.Idx → α) (z : Fin 1) (q : Fin 2048) :
    shapeCast S1x2048 x shapeCasts_S2048_S1x2048 (ix2 z q) = x (ix1 q) :=
  shapeCast_apply x _ _ _ (by
    rw [Shape.rowMajor_val_one, Shape.rowMajor_val_two]
    show q.val = z.val * 2048 + q.val
    have := z.isLt
    omega)

theorem col0_apply (d : IVec S2048x2 32) (q : Fin 2048) : (col0 d : FVec F S2048 .f32) (ix1 q) = FloatOps.sitofp .f32 (d (ix2 q 0)) := by
  unfold col0
  rw [flat_col, slice2_axis1_apply 0 _ _ q 0 0 rfl]
  rfl

theorem col1_apply (d : IVec S2048x2 32) (q : Fin 2048) : (col1 d : FVec F S2048 .f32) (ix1 q) = FloatOps.sitofp .f32 (d (ix2 q 1)) := by
  unfold col1
  rw [flat_col, slice2_axis1_apply 1 _ _ q 0 1 rfl]
  rfl

theorem rowsK_apply_0 (d : IVec S2048x2 32) (q : Fin 2048) : (rowsK d : FVec F S2x2048 .f32) (ix2 0 q) = FloatOps.sitofp .f32 (d (ix2 q 0)) := by
  unfold rowsK
  refine (concatenate_pair_apply_left (t := S2x2048) (s₁ := S1x2048) (s₂ := S1x2048) 0 _ _ _ (ix2 (0 : Fin 2) q) rfl
    (ix2 (0 : Fin 1) q) (fun b => by
      match b with
      | ⟨0, _⟩ => rfl
      | ⟨1, _⟩ => rfl)).trans ?_
  rw [bcast_row, col0_apply]

theorem rowsK_apply_1 (d : IVec S2048x2 32) (q : Fin 2048) : (rowsK d : FVec F S2x2048 .f32) (ix2 1 q) = FloatOps.sitofp .f32 (d (ix2 q 1)) := by
  unfold rowsK
  refine (concatenate_pair_apply_right (t := S2x2048) (s₁ := S1x2048) (s₂ := S1x2048) 0 _ _ _ (ix2 (1 : Fin 2) q) rfl rfl
    (ix2 (0 : Fin 1) q) (fun b hb => by
      match b with
      | ⟨0, _⟩ => exact absurd rfl hb
      | ⟨1, _⟩ => rfl) rfl).trans ?_
  rw [bcast_row, col1_apply]

theorem biasK_apply (d : IVec S2048x2 32) (mk : IVec S2048 1) (q : Fin 2048) :
    (biasK d mk : FVec F S1x2048 .f32) (ix2 0 q)
      = FloatOps.addf (FloatOps.addf (FloatOps.mulf (FloatOps.sitofp .f32 (d (ix2 q 0))) (FloatOps.sitofp .f32 (d (ix2 q 0))))
          (FloatOps.mulf (FloatOps.sitofp .f32 (d (ix2 q 1))) (FloatOps.sitofp .f32 (d (ix2 q 1)))))
        (Scalar.select (mk (ix1 q)) (FloatOps.ofBits .f32 0x00000000#32) (FloatOps.ofBits .f32 0x7149F2CA#32)) := by
  unfold biasK
  rw [row_flat]
  show FloatOps.addf (FloatOps.addf (FloatOps.mulf ((col0 d : FVec F S2048 .f32) (ix1 q)) ((col0 d : FVec F S2048 .f32) (ix1 q)))
      (FloatOps.mulf ((col1 d : FVec F S2048 .f32) (ix1 q)) ((col1 d : FVec F S2048 .f32) (ix1 q))))
    (Scalar.select (mk (ix1 q)) (broadcastInDim S2048 ![] bcast_S_S2048 (constant (F := F) S_ .f32 0x00000000#32) (ix1 q))
      (broadcastInDim S2048 ![] bcast_S_S2048 (constant (F := F) S_ .f32 0x7149F2CA#32) (ix1 q))) = _
  rw [col0_apply, col1_apply, bcast0, bcast0]
  rfl

end Reads

end Resident

/-! ## The two resident arrays at either region's entry -/

section Entry
variable (m : (ℓ : Loc nD τ sig) → Buf (Elt F) ℓ) (ρ : Dev nD → PrngReg)

theorem V7_v22 (c : Dev nD) (q : Fin 2048) :
    V7 m ρ c main_v22 (ix2 0 q) = FloatOps.sitofp .f32 (dyK (m ((c : Thread nD τ).loc main_arg3)) (ix2 q 0))
    ∧ V7 m ρ c main_v22 (ix2 1 q) = FloatOps.sitofp .f32 (dyK (m ((c : Thread nD τ).loc main_arg3)) (ix2 q 1)) := by
  show W7 m ρ c (Proc.devRef .tc main_v22) (ix2 0 q) = _ ∧ W7 m ρ c (Proc.devRef .tc main_v22) (ix2 1 q) = _
  rw [W7_v22]
  exact ⟨Resident.rowsK_apply_0 _ q, Resident.rowsK_apply_1 _ q⟩

theorem V7_v19 (c : Dev nD) (q : Fin 2048) :
    V7 m ρ c main_v19 (ix2 0 q)
      = FloatOps.addf (FloatOps.addf
          (FloatOps.mulf (FloatOps.sitofp .f32 (dyK (m ((c : Thread nD τ).loc main_arg3)) (ix2 q 0))) (FloatOps.sitofp .f32 (dyK (m ((c : Thread nD τ).loc main_arg3)) (ix2 q 0))))
          (FloatOps.mulf (FloatOps.sitofp .f32 (dyK (m ((c : Thread nD τ).loc main_arg3)) (ix2 q 1))) (FloatOps.sitofp .f32 (dyK (m ((c : Thread nD τ).loc main_arg3)) (ix2 q 1)))))
        (Scalar.select (maskK (m ((c : Thread nD τ).loc main_arg2)) (ix1 q)) (FloatOps.ofBits .f32 0x00000000#32) (FloatOps.ofBits .f32 0x7149F2CA#32)) := by
  show W7 m ρ c (Proc.devRef .tc main_v19) (ix2 0 q) = _
  rw [W7_v19]
  exact Resident.biasK_apply _ _ q

theorem V8_v22 (c : Dev nD) (q : Fin 2048) :
    V8 m ρ c main_v22 (ix2 0 q) = FloatOps.sitofp .f32 (dyK (m ((c : Thread nD τ).loc main_arg3)) (ix2 q 0))
    ∧ V8 m ρ c main_v22 (ix2 1 q) = FloatOps.sitofp .f32 (dyK (m ((c : Thread nD τ).loc main_arg3)) (ix2 q 1)) := by
  show W8 m ρ c (Proc.devRef .tc main_v22) (ix2 0 q) = _ ∧ W8 m ρ c (Proc.devRef .tc main_v22) (ix2 1 q) = _
  rw [Resident.W8_v22]
  exact V7_v22 m ρ c q

theorem V8_v19 (c : Dev nD) (q : Fin 2048) :
    V8 m ρ c main_v19 (ix2 0 q)
      = FloatOps.addf (FloatOps.addf
          (FloatOps.mulf (FloatOps.sitofp .f32 (dyK (m ((c : Thread nD τ).loc main_arg3)) (ix2 q 0))) (FloatOps.sitofp .f32 (dyK (m ((c : Thread nD τ).loc main_arg3)) (ix2 q 0))))
          (FloatOps.mulf (FloatOps.sitofp .f32 (dyK (m ((c : Thread nD τ).loc main_arg3)) (ix2 q 1))) (FloatOps.sitofp .f32 (dyK (m ((c : Thread nD τ).loc main_arg3)) (ix2 q 1)))))
        (Scalar.select (maskK (m ((c : Thread nD τ).loc main_arg2)) (ix1 q)) (FloatOps.ofBits .f32 0x00000000#32) (FloatOps.ofBits .f32 0x7149F2CA#32)) := by
  show W8 m ρ c (Proc.devRef .tc main_v19) (ix2 0 q) = _
  rw [Resident.W8_v19]
  exact V7_v19 m ρ c q

end Entry

end Cert.KernelIdeal.HostVal

end
-- ==== Proof.RefStage.lean ====
/-
  The reference's floating-point stages as pure functions of the flattened neighbour coordinates, the dynamic voxel
  coordinates and the dynamic mask, read at an index.

  For a neighbour point a = (a0, a1) and the voxel points b_q = (y0 q, y1 q), the reference forms the table of squared
  distances  (a0² + a1²) + (y0 q² + y1 q²) − 2·(a0·y0 q + a1·y1 q), replaces the columns whose mask bit is clear by +∞,
  takes the minimum over q (an infimum over the 2048 columns), clamps it at 0 from below, takes the square root and
  scales by 0.01. The result is kept where more than one mask bit is set and replaced by 0 otherwise.

  The sums over the two coordinates are sums over a two-element axis starting from 0; the row-major reshape of the
  9·n distances to n × 9 sends entry (i, j) to row 9·i + j.
-/
import proofs.«161537_j24713241822141_1_alg».proof.ReferenceIdeal
import proofs.«161537_j24713241822141_1_alg».proof.Proof.Gen.ReferenceIdeal
import proofs.«161537_j24713241822141_1_alg».proof.Proof.LibExtremum
import proofs.«161537_j24713241822141_1_alg».proof.Proof.Rows
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Stage

open Idealize.ShloMosaic Idealize.ShloMosaic.ValueIdx Cert.ReferenceIdeal Cert.Nearest
open scoped BigOperators

variable [Cert.ReferenceIdeal.Facts]
open Cert.ReferenceIdeal.Facts₀ Cert.ReferenceIdeal.Facts

/-- The count test  Σ_q mk q > 1. -/
def useR (mk : IVec S2048 1) : IVec S_ 1 :=
  cmpi .sgt (Host.reduce IntOp.addi (extui 32 mk natLt_1_32) (constantI S_ 32 0#32) reducesTo_S2048_S_d0 h_S_) (constantI S_ 32 1#32)

section Generic
variable {F : FTy → Type} [FloatOps F]
/-- The 8192 × 9 result as one function of the flattened integer neighbour coordinates, the float voxel coordinates
    and the mask: the operations of the reference composed in their order. -/
def liOut (nb : IVec S73728x2 32) (dy : FVec F S2048x2 .f32) (mk : IVec S2048 1) : FVec F S8192x9 .f32 :=
  let v23 : FVec F S73728x2 .f32 := sitofp .f32 nb
  let v24 : FVec F S73728x2 .f32 := mulf v23 v23
  let cst3 : FVec F S_ .f32 := constant S_ .f32 0x00000000#32
  let v25 : FVec F S73728 .f32 := Host.reduceAdd v24 cst3 reducesTo_S73728x2_S73728_d1 h_S_
  let v26 : FVec F S2048x2 .f32 := mulf dy dy
  let cst4 : FVec F S_ .f32 := constant S_ .f32 0x00000000#32
  let v27 : FVec F S2048 .f32 := Host.reduceAdd v26 cst4 reducesTo_S2048x2_S2048_d1 h_S_
  let v28 : FVec F S73728x1 .f32 := broadcastInDim S73728x1 ![0] bcast_S73728_S73728x1_0 v25
  let v29 : FVec F S1x2048 .f32 := broadcastInDim S1x2048 ![1] bcast_S2048_S1x2048_1 v27
  let v30 : FVec F S73728x2048 .f32 := broadcastInDim S73728x2048 ![0, 1] bcast_S73728x1_S73728x2048_0_1 v28
  let v31 : FVec F S73728x2048 .f32 := broadcastInDim S73728x2048 ![0, 1] bcast_S1x2048_S73728x2048_0_1 v29
  let v32 : FVec F S73728x2048 .f32 := addf v30 v31
  let v33 : FVec F S2x2048 .f32 := transpose S2x2048 [1, 0] dy transposes_S2048x2_S2x2048_1_0
  let v34 : FVec F S73728x2048 .f32 := Host.dotGeneral dot_S73728x2_S2x2048_S73728x2048_1_0_0_1_n_n none v23 v33
  let cst5 : FVec F S_ .f32 := constant S_ .f32 0x40000000#32
  let v35 : FVec F S73728x2048 .f32 := broadcastInDim S73728x2048 ![] bcast_S_S73728x2048 cst5
  let v36 : FVec F S73728x2048 .f32 := mulf v35 v34
  let v37 : FVec F S73728x2048 .f32 := subf v32 v36
  let v38 : IVec S1x2048 1 := broadcastInDim S1x2048 ![1] bcast_S2048_S1x2048_1 mk
  let cst6 : FVec F S_ .f32 := constant S_ .f32 0x7F800000#32
  let w0 : FVec F S_ .f32 := id cst6
  let w1 : IVec S73728x2048 1 := broadcastInDim S73728x2048 ![0, 1] bcast_S1x2048_S73728x2048_0_1 v38
  let w2 : FVec F S73728x2048 .f32 := broadcastInDim S73728x2048 ![] bcast_S_S73728x2048 w0
  let v39 : FVec F S73728x2048 .f32 := select w1 v37 w2
  let cst7 : FVec F S_ .f32 := constant S_ .f32 0x7F800000#32
  let v40 : FVec F S73728 .f32 := Host.reduce FloatOps.minimumf v39 cst7 reducesTo_S73728x2048_S73728_d1 h_S_
  let cst8 : FVec F S_ .f32 := constant S_ .f32 0x00000000#32
  let v41 : FVec F S73728 .f32 := broadcastInDim S73728 ![] bcast_S_S73728 cst8
  let v42 : FVec F S73728 .f32 := maximumf v40 v41
  let v43 : FVec F S73728 .f32 := Host.sqrt v42
  let cst9 : FVec F S_ .f32 := constant S_ .f32 0x3C23D70A#32
  let v44 : FVec F S73728 .f32 := broadcastInDim S73728 ![] bcast_S_S73728 cst9
  let v45 : FVec F S73728 .f32 := mulf v43 v44
  let v46 : FVec F S8192x9 .f32 := shapeCast S8192x9 v45 shapeCasts_S73728_S8192x9
  let cst10 : FVec F S_ .f32 := constant S_ .f32 0x00000000#32
  let u0 : FVec F S_ .f32 := id cst10
  let u1 : FVec F S8192x9 .f32 := broadcastInDim S8192x9 ![] bcast_S_S8192x9 u0
  select (broadcastInDim S8192x9 ![] bcast_S_S8192x9 (useR mk)) v46 u1
/-- The 2048 × 9 result as one function of the flattened integer neighbour coordinates, the float voxel coordinates
    and the mask: the operations of the reference composed in their order. -/
def raOut (nb : IVec S18432x2 32) (dy : FVec F S2048x2 .f32) (mk : IVec S2048 1) : FVec F S2048x9 .f32 :=
  let v23 : FVec F S18432x2 .f32 := sitofp .f32 nb
  let v24 : FVec F S18432x2 .f32 := mulf v23 v23
  let cst3 : FVec F S_ .f32 := constant S_ .f32 0x00000000#32
  let v25 : FVec F S18432 .f32 := Host.reduceAdd v24 cst3 reducesTo_S18432x2_S18432_d1 h_S_
  let v26 : FVec F S2048x2 .f32 := mulf dy dy
  let cst4 : FVec F S_ .f32 := constant S_ .f32 0x00000000#32
  let v27 : FVec F S2048 .f32 := Host.reduceAdd v26 cst4 reducesTo_S2048x2_S2048_d1 h_S_
  let v28 : FVec F S18432x1 .f32 := broadcastInDim S18432x1 ![0] bcast_S18432_S18432x1_0 v25
  let v29 : FVec F S1x2048 .f32 := broadcastInDim S1x2048 ![1] bcast_S2048_S1x2048_1 v27
  let v30 : FVec F S18432x2048 .f32 := broadcastInDim S18432x2048 ![0, 1] bcast_S18432x1_S18432x2048_0_1 v28
  let v31 : FVec F S18432x2048 .f32 := broadcastInDim S18432x2048 ![0, 1] bcast_S1x2048_S18432x2048_0_1 v29
  let v32 : FVec F S18432x2048 .f32 := addf v30 v31
  let v33 : FVec F S2x2048 .f32 := transpose S2x2048 [1, 0] dy transposes_S2048x2_S2x2048_1_0
  let v34 : FVec F S18432x2048 .f32 := Host.dotGeneral dot_S18432x2_S2x2048_S18432x2048_1_0_0_1_n_n none v23 v33
  let cst5 : FVec F S_ .f32 := constant S_ .f32 0x40000000#32
  let v35 : FVec F S18432x2048 .f32 := broadcastInDim S18432x2048 ![] bcast_S_S18432x2048 cst5
  let v36 : FVec F S18432x2048 .f32 := mulf v35 v34
  let v37 : FVec F S18432x2048 .f32 := subf v32 v36
  let v38 : IVec S1x2048 1 := broadcastInDim S1x2048 ![1] bcast_S2048_S1x2048_1 mk
  let cst6 : FVec F S_ .f32 := constant S_ .f32 0x7F800000#32
  let w0 : FVec F S_ .f32 := id cst6
  let w1 : IVec S18432x2048 1 := broadcastInDim S18432x2048 ![0, 1] bcast_S1x2048_S18432x2048_0_1 v38
  let w2 : FVec F S18432x2048 .f32 := broadcastInDim S18432x2048 ![] bcast_S_S18432x2048 w0
  let v39 : FVec F S18432x2048 .f32 := select w1 v37 w2
  let cst7 : FVec F S_ .f32 := constant S_ .f32 0x7F800000#32
  let v40 : FVec F S18432 .f32 := Host.reduce FloatOps.minimumf v39 cst7 reducesTo_S18432x2048_S18432_d1 h_S_
  let cst8 : FVec F S_ .f32 := constant S_ .f32 0x00000000#32
  let v41 : FVec F S18432 .f32 := broadcastInDim S18432 ![] bcast_S_S18432 cst8
  let v42 : FVec F S18432 .f32 := maximumf v40 v41
  let v43 : FVec F S18432 .f32 := Host.sqrt v42
  let cst9 : FVec F S_ .f32 := constant S_ .f32 0x3C23D70A#32
  let v44 : FVec F S18432 .f32 := broadcastInDim S18432 ![] bcast_S_S18432 cst9
  let v45 : FVec F S18432 .f32 := mulf v43 v44
  let v46 : FVec F S2048x9 .f32 := shapeCast S2048x9 v45 shapeCasts_S18432_S2048x9
  let cst10 : FVec F S_ .f32 := constant S_ .f32 0x00000000#32
  let u0 : FVec F S_ .f32 := id cst10
  let u1 : FVec F S2048x9 .f32 := broadcastInDim S2048x9 ![] bcast_S_S2048x9 u0
  select (broadcastInDim S2048x9 ![] bcast_S_S2048x9 (useR mk)) v46 u1

end Generic

/-- One entry before the final select. -/
def entryR (a0 a1 : Ideal .f32) (y0 y1 : Fin 2048 → Ideal .f32) (mk : Fin 2048 → BitVec 1) : Ideal .f32 :=
  FloatOps.mulf (FloatOps.sqrt (FloatOps.maximumf ((⨅ q : Fin 2048, (Scalar.select (mk q) (FloatOps.subf (FloatOps.addf (FloatOps.addf (FloatOps.mulf a0 a0) (FloatOps.mulf a1 a1)) (FloatOps.addf (FloatOps.mulf (y0 q) (y0 q)) (FloatOps.mulf (y1 q) (y1 q)))) (FloatOps.mulf (FloatOps.ofBits .f32 0x40000000#32) (FloatOps.addf (FloatOps.mulf a0 (y0 q)) (FloatOps.mulf a1 (y1 q))))) (⊤ : EReal) : EReal)) : Ideal .f32) (FloatOps.ofBits .f32 0x00000000#32))) (FloatOps.ofBits .f32 0x3C23D70A#32)

/-! ## The operations of the stage read at an index -/

section Reads
variable {α : Type}

/-- The index over row `r` with coordinate `k` put back on the reduced second axis is `(r, k)`. -/
theorem lift_row {n m : Nat} (h : (⟨2, ![n, m]⟩ : Shape).Reduces [1] ⟨1, ![n]⟩) (r : Fin n) (k : Fin m) :
    h.lift (ix1 r) k = ix2 r k :=
  funext fun c => Fin.ext (by match c with | ⟨0, _⟩ => rfl | ⟨1, _⟩ => rfl)

/-- A sum over a second axis of two entries, started from the zero word, is the sum of the two entries. -/
theorem reduceAdd_pair {n : Nat} (x : FVec Ideal ⟨2, ![n, 2]⟩ .f32) (h' : (⟨2, ![n, 2]⟩ : Shape).ReducesTo [1] ⟨1, ![n]⟩)
    (h : (⟨2, ![n, 2]⟩ : Shape).Reduces [1] ⟨1, ![n]⟩) (hu : 0 < S_.numel) (r : Fin n) :
    Host.reduceAdd x (constant (F := Ideal) S_ .f32 0x00000000#32) h' hu (ix1 r) = x (ix2 r 0) + x (ix2 r 1) := by
  show Ideal.hostReduceAdd h' x (Ideal.ofBits .f32 0x00000000#32) (ix1 r) = _
  rw [Ideal.hostReduceAdd_single h' h, Ideal.ofBits_zero_f32, zero_add]
  show ∑ k : Fin 2, x (h.lift (ix1 r) k) = _
  rw [Fin.sum_univ_two, lift_row, lift_row]

/-- A minimum over the second axis started from the word of +∞ is the infimum over the columns. -/
theorem reduceMin_row {n m : Nat} (x : FVec Ideal ⟨2, ![n, m]⟩ .f32) (h' : (⟨2, ![n, m]⟩ : Shape).ReducesTo [1] ⟨1, ![n]⟩)
    (h : (⟨2, ![n, m]⟩ : Shape).Reduces [1] ⟨1, ![n]⟩) (hu : 0 < S_.numel) (r : Fin n) :
    (Host.reduce (FloatOps.minimumf (F := Ideal) (φ := .f32)) x (constant (F := Ideal) S_ .f32 0x7F800000#32) h' hu (ix1 r) : EReal)
      = ⨅ q : Fin m, (x (ix2 r q) : EReal) := by
  rw [Cert.Extremum.hostReduce_min_single x _ h' h hu Cert.Extremum.ofBits_posInf_f32]
  show (⨅ k : Fin m, (x (h.lift (ix1 r) k) : EReal)) = _
  simp only [lift_row]

/-- A scalar broadcast to a rank-1 shape reads the scalar everywhere. -/
theorem bcast0_1 {n : Nat} (h : S_.BroadcastsInDim ⟨1, ![n]⟩ (![] : Fin 0 → Fin 1)) (x : S_.Idx → α) (r : Fin n) :
    broadcastInDim ⟨1, ![n]⟩ ![] h x (ix1 r) = x ix0 :=
  broadcastInDim_apply _ h x _ _ fun a => a.elim0

/-- A scalar broadcast to a rank-2 shape reads the scalar everywhere. -/
theorem bcast0_2 {n m : Nat} (h : S_.BroadcastsInDim ⟨2, ![n, m]⟩ (![] : Fin 0 → Fin 2)) (x : S_.Idx → α) (r : Fin n) (q : Fin m) :
    broadcastInDim ⟨2, ![n, m]⟩ ![] h x (ix2 r q) = x ix0 :=
  broadcastInDim_apply _ h x _ _ fun a => a.elim0

end Reads

section Reads2
variable {α : Type}

/-- A vector made a column reads, at `(r, 0)`, its entry `r`. -/
theorem bcast_col {n : Nat} (hn : n ≠ 1) (h : (⟨1, ![n]⟩ : Shape).BroadcastsInDim ⟨2, ![n, 1]⟩ (![0] : Fin 1 → Fin 2))
    (x : (⟨1, ![n]⟩ : Shape).Idx → α) (r : Fin n) (z : Fin 1) :
    broadcastInDim ⟨2, ![n, 1]⟩ ![0] h x (ix2 r z) = x (ix1 r) :=
  broadcastInDim_apply _ h x _ _ fun a => by
    match a with
    | ⟨0, _⟩ => exact (if_neg hn).symm

/-- A vector made a row reads, at `(0, q)`, its entry `q`. -/
theorem bcast_row {m : Nat} (hm : m ≠ 1) (h : (⟨1, ![m]⟩ : Shape).BroadcastsInDim ⟨2, ![1, m]⟩ (![1] : Fin 1 → Fin 2))
    (x : (⟨1, ![m]⟩ : Shape).Idx → α) (z : Fin 1) (q : Fin m) :
    broadcastInDim ⟨2, ![1, m]⟩ ![1] h x (ix2 z q) = x (ix1 q) :=
  broadcastInDim_apply _ h x _ _ fun a => by
    match a with
    | ⟨0, _⟩ => exact (if_neg hm).symm

/-- A column repeated along the second axis reads, at `(r, q)`, the column's entry `r`. -/
theorem bcast_col_wide {n m : Nat} (hn : n ≠ 1) (h : (⟨2, ![n, 1]⟩ : Shape).BroadcastsInDim ⟨2, ![n, m]⟩ (![0, 1] : Fin 2 → Fin 2))
    (x : (⟨2, ![n, 1]⟩ : Shape).Idx → α) (r : Fin n) (q : Fin m) :
    broadcastInDim ⟨2, ![n, m]⟩ ![0, 1] h x (ix2 r q) = x (ix2 r 0) :=
  broadcastInDim_apply _ h x _ _ fun a => by
    match a with
    | ⟨0, _⟩ => exact (if_neg hn).symm
    | ⟨1, _⟩ => exact (if_pos rfl).symm

/-- A row repeated along the first axis reads, at `(r, q)`, the row's entry `q`. -/
theorem bcast_row_tall {n m : Nat} (hm : m ≠ 1) (h : (⟨2, ![1, m]⟩ : Shape).BroadcastsInDim ⟨2, ![n, m]⟩ (![0, 1] : Fin 2 → Fin 2))
    (x : (⟨2, ![1, m]⟩ : Shape).Idx → α) (r : Fin n) (q : Fin m) :
    broadcastInDim ⟨2, ![n, m]⟩ ![0, 1] h x (ix2 r q) = x (ix2 0 q) :=
  broadcastInDim_apply _ h x _ _ fun a => by
    match a with
    | ⟨0, _⟩ => exact (if_pos rfl).symm
    | ⟨1, _⟩ => exact (if_neg hm).symm

/-- A flat array of `9·n` entries read as `n × 9` has, at `(i, j)`, the flat entry `9·i + j`. -/
theorem shapeCast_rows9 {N n : Nat} (h : (⟨1, ![N]⟩ : Shape).ShapeCasts ⟨2, ![n, 9]⟩) (x : (⟨1, ![N]⟩ : Shape).Idx → α)
    (i : Fin n) (j : Fin 9) (r : Fin N) (hr : r.val = 9 * i.val + j.val) :
    shapeCast ⟨2, ![n, 9]⟩ x h (ix2 i j) = x (ix1 r) :=
  shapeCast_apply x h _ _ (by
    rw [Shape.rowMajor_val_one, Shape.rowMajor_val_two]
    show r.val = i.val * 9 + j.val
    omega)

end Reads2

/-! ## The pointwise operations at an index, keeping the scalar operation's name -/

section Pointwise
variable {s : Shape}

theorem mulf_at (a b : FVec Ideal s .f32) (i : s.Idx) : mulf a b i = FloatOps.mulf (a i) (b i) := rfl
theorem addf_at (a b : FVec Ideal s .f32) (i : s.Idx) : addf a b i = FloatOps.addf (a i) (b i) := rfl
theorem subf_at (a b : FVec Ideal s .f32) (i : s.Idx) : subf a b i = FloatOps.subf (a i) (b i) := rfl
theorem maximumf_at (a b : FVec Ideal s .f32) (i : s.Idx) : maximumf a b i = FloatOps.maximumf (a i) (b i) := rfl
theorem sqrt_at (a : FVec Ideal s .f32) (i : s.Idx) : Host.sqrt a i = FloatOps.sqrt (a i) := rfl
theorem constant_at (b : BitVec 32) (i : s.Idx) : constant (F := Ideal) s .f32 b i = FloatOps.ofBits .f32 b := rfl

end Pointwise

/-! ## The 73728 × 2 by 2 × 2048 product read at an index -/

theorem lhs_li_0 (i : S73728x2048.Idx) (q : dot_S73728x2_S2x2048_S73728x2048_1_0_0_1_n_n.contr.Idx) :
    (dot_S73728x2_S2x2048_S73728x2048_1_0_0_1_n_n.lhsIdx i q 0).val = (i 0).val := by
  unfold DotDims.lhsIdx
  rw [dif_neg (show ¬(0 : Fin S73728x2.rank) ∈ dot_S73728x2_S2x2048_S73728x2048_1_0_0_1_n_n.lhsBatch by decide), dif_pos (show (0 : Fin S73728x2.rank) ∈ dot_S73728x2_S2x2048_S73728x2048_1_0_0_1_n_n.lhsNonContracting by decide)]
  rfl

theorem lhs_li_1 (i : S73728x2048.Idx) (q : dot_S73728x2_S2x2048_S73728x2048_1_0_0_1_n_n.contr.Idx) :
    (dot_S73728x2_S2x2048_S73728x2048_1_0_0_1_n_n.lhsIdx i q 1).val = (q ⟨0, by decide⟩).val :=
  dot_S73728x2_S2x2048_S73728x2048_1_0_0_1_n_n.lhsIdx_val_of_single rfl i q

theorem rhs_li_0 (i : S73728x2048.Idx) (q : dot_S73728x2_S2x2048_S73728x2048_1_0_0_1_n_n.contr.Idx) :
    (dot_S73728x2_S2x2048_S73728x2048_1_0_0_1_n_n.rhsIdx i q 0).val = (q ⟨0, by decide⟩).val :=
  dot_S73728x2_S2x2048_S73728x2048_1_0_0_1_n_n.rhsIdx_val_of_single rfl i q

theorem rhs_li_1 (i : S73728x2048.Idx) (q : dot_S73728x2_S2x2048_S73728x2048_1_0_0_1_n_n.contr.Idx) :
    (dot_S73728x2_S2x2048_S73728x2048_1_0_0_1_n_n.rhsIdx i q 1).val = (i 1).val := by
  unfold DotDims.rhsIdx
  rw [dif_neg (show ¬(1 : Fin S2x2048.rank) ∈ dot_S73728x2_S2x2048_S73728x2048_1_0_0_1_n_n.rhsBatch by decide), dif_pos (show (1 : Fin S2x2048.rank) ∈ dot_S73728x2_S2x2048_S73728x2048_1_0_0_1_n_n.rhsNonContracting by decide)]
  rfl

/-- The product of an 73728 × 2 array with a 2 × 2048 array has, at `(r, q)`, the two-term inner product of row `r`
    with column `q`. -/
theorem dot_li_apply (a : FVec Ideal S73728x2 .f32) (b : FVec Ideal S2x2048 .f32) (r : Fin 73728) (q : Fin 2048) :
    Host.dotGeneral dot_S73728x2_S2x2048_S73728x2048_1_0_0_1_n_n none a b (ix2 r q) = a (ix2 r 0) * b (ix2 0 q) + a (ix2 r 1) * b (ix2 1 q) := by
  simp only [Host.dotGeneral]
  rw [Ideal.dotGeneral_apply, ← Equiv.sum_comp (contrEquiv1 dot_S73728x2_S2x2048_S73728x2048_1_0_0_1_n_n 2 rfl rfl).symm, Fin.sum_univ_two]
  have el : ∀ k : Fin 2, dot_S73728x2_S2x2048_S73728x2048_1_0_0_1_n_n.lhsIdx (ix2 r q) ((contrEquiv1 dot_S73728x2_S2x2048_S73728x2048_1_0_0_1_n_n 2 rfl rfl).symm k) = ix2 r k := fun k =>
    funext fun c => Fin.ext (by
      have hk := contrEquiv1_symm_val dot_S73728x2_S2x2048_S73728x2048_1_0_0_1_n_n 2 rfl rfl k
      match c with
      | ⟨0, _⟩ => exact lhs_li_0 _ _
      | ⟨1, _⟩ => exact (lhs_li_1 _ _).trans hk)
  have er : ∀ k : Fin 2, dot_S73728x2_S2x2048_S73728x2048_1_0_0_1_n_n.rhsIdx (ix2 r q) ((contrEquiv1 dot_S73728x2_S2x2048_S73728x2048_1_0_0_1_n_n 2 rfl rfl).symm k) = ix2 k q := fun k =>
    funext fun c => Fin.ext (by
      have hk := contrEquiv1_symm_val dot_S73728x2_S2x2048_S73728x2048_1_0_0_1_n_n 2 rfl rfl k
      match c with
      | ⟨0, _⟩ => exact (rhs_li_0 _ _).trans hk
      | ⟨1, _⟩ => exact rhs_li_1 _ _)
  rw [el, el, er, er]

/-! ## The 18432 × 2 by 2 × 2048 product read at an index -/

theorem lhs_ra_0 (i : S18432x2048.Idx) (q : dot_S18432x2_S2x2048_S18432x2048_1_0_0_1_n_n.contr.Idx) :
    (dot_S18432x2_S2x2048_S18432x2048_1_0_0_1_n_n.lhsIdx i q 0).val = (i 0).val := by
  unfold DotDims.lhsIdx
  rw [dif_neg (show ¬(0 : Fin S18432x2.rank) ∈ dot_S18432x2_S2x2048_S18432x2048_1_0_0_1_n_n.lhsBatch by decide), dif_pos (show (0 : Fin S18432x2.rank) ∈ dot_S18432x2_S2x2048_S18432x2048_1_0_0_1_n_n.lhsNonContracting by decide)]
  rfl

theorem lhs_ra_1 (i : S18432x2048.Idx) (q : dot_S18432x2_S2x2048_S18432x2048_1_0_0_1_n_n.contr.Idx) :
    (dot_S18432x2_S2x2048_S18432x2048_1_0_0_1_n_n.lhsIdx i q 1).val = (q ⟨0, by decide⟩).val :=
  dot_S18432x2_S2x2048_S18432x2048_1_0_0_1_n_n.lhsIdx_val_of_single rfl i q

theorem rhs_ra_0 (i : S18432x2048.Idx) (q : dot_S18432x2_S2x2048_S18432x2048_1_0_0_1_n_n.contr.Idx) :
    (dot_S18432x2_S2x2048_S18432x2048_1_0_0_1_n_n.rhsIdx i q 0).val = (q ⟨0, by decide⟩).val :=
  dot_S18432x2_S2x2048_S18432x2048_1_0_0_1_n_n.rhsIdx_val_of_single rfl i q

theorem rhs_ra_1 (i : S18432x2048.Idx) (q : dot_S18432x2_S2x2048_S18432x2048_1_0_0_1_n_n.contr.Idx) :
    (dot_S18432x2_S2x2048_S18432x2048_1_0_0_1_n_n.rhsIdx i q 1).val = (i 1).val := by
  unfold DotDims.rhsIdx
  rw [dif_neg (show ¬(1 : Fin S2x2048.rank) ∈ dot_S18432x2_S2x2048_S18432x2048_1_0_0_1_n_n.rhsBatch by decide), dif_pos (show (1 : Fin S2x2048.rank) ∈ dot_S18432x2_S2x2048_S18432x2048_1_0_0_1_n_n.rhsNonContracting by decide)]
  rfl

/-- The product of an 18432 × 2 array with a 2 × 2048 array has, at `(r, q)`, the two-term inner product of row `r`
    with column `q`. -/
theorem dot_ra_apply (a : FVec Ideal S18432x2 .f32) (b : FVec Ideal S2x2048 .f32) (r : Fin 18432) (q : Fin 2048) :
    Host.dotGeneral dot_S18432x2_S2x2048_S18432x2048_1_0_0_1_n_n none a b (ix2 r q) = a (ix2 r 0) * b (ix2 0 q) + a (ix2 r 1) * b (ix2 1 q) := by
  simp only [Host.dotGeneral]
  rw [Ideal.dotGeneral_apply, ← Equiv.sum_comp (contrEquiv1 dot_S18432x2_S2x2048_S18432x2048_1_0_0_1_n_n 2 rfl rfl).symm, Fin.sum_univ_two]
  have el : ∀ k : Fin 2, dot_S18432x2_S2x2048_S18432x2048_1_0_0_1_n_n.lhsIdx (ix2 r q) ((contrEquiv1 dot_S18432x2_S2x2048_S18432x2048_1_0_0_1_n_n 2 rfl rfl).symm k) = ix2 r k := fun k =>
    funext fun c => Fin.ext (by
      have hk := contrEquiv1_symm_val dot_S18432x2_S2x2048_S18432x2048_1_0_0_1_n_n 2 rfl rfl k
      match c with
      | ⟨0, _⟩ => exact lhs_ra_0 _ _
      | ⟨1, _⟩ => exact (lhs_ra_1 _ _).trans hk)
  have er : ∀ k : Fin 2, dot_S18432x2_S2x2048_S18432x2048_1_0_0_1_n_n.rhsIdx (ix2 r q) ((contrEquiv1 dot_S18432x2_S2x2048_S18432x2048_1_0_0_1_n_n 2 rfl rfl).symm k) = ix2 k q := fun k =>
    funext fun c => Fin.ext (by
      have hk := contrEquiv1_symm_val dot_S18432x2_S2x2048_S18432x2048_1_0_0_1_n_n 2 rfl rfl k
      match c with
      | ⟨0, _⟩ => exact (rhs_ra_0 _ _).trans hk
      | ⟨1, _⟩ => exact rhs_ra_1 _ _)
  rw [el, el, er, er]

/-! ## The two results read at an entry -/

theorem liOut_apply (nb : IVec S73728x2 32) (dy : FVec Ideal S2048x2 .f32) (mk : IVec S2048 1) (i : Fin 8192) (j : Fin 9) :
    liOut nb dy mk (ix2 i j) = Scalar.select (useR mk ix0) (entryR (FloatOps.sitofp .f32 (nb (ix2 (rowLi i j) 0))) (FloatOps.sitofp .f32 (nb (ix2 (rowLi i j) 1))) (fun q => dy (ix2 q 0)) (fun q => dy (ix2 q 1)) (fun q => mk (ix1 q))) (FloatOps.ofBits .f32 0x00000000#32) := by
  have hA : S73728x2.Reduces [1] S73728 := by decide
  have hB : S2048x2.Reduces [1] S2048 := by decide
  have hM : S73728x2048.Reduces [1] S73728 := by decide
  unfold liOut
  simp only []
  -- the final select, the scalar condition and the zero splat, and the reshape: entry (i, j) is flat entry 9·i + j
  rw [select_apply, bcast0_2, bcast0_2, shapeCast_rows9 _ _ i j (rowLi i j) rfl]
  refine congrArg₂ (Scalar.select (useR mk ix0)) ?_ rfl
  unfold entryR
  -- scale, square root, clamp at zero
  rw [mulf_at, sqrt_at, maximumf_at, bcast0_1, bcast0_1]
  refine congrArg₂ FloatOps.mulf (congrArg FloatOps.sqrt (congrArg₂ FloatOps.maximumf ?_ rfl)) rfl
  -- the minimum over the columns is the infimum of the masked squared distances
  refine (reduceMin_row _ _ hM _ _).trans (iInf_congr fun q => ?_)
  rw [select_apply, bcast_row_tall (by decide), bcast_row (by decide), bcast0_2]
  refine congrArg₂ (Scalar.select (mk (ix1 q))) ?_ Cert.Extremum.ofBits_posInf_f32
  rw [subf_at, addf_at, mulf_at, bcast0_2]
  refine congrArg₂ FloatOps.subf (congrArg₂ FloatOps.addf ?_ ?_) (congrArg₂ FloatOps.mulf rfl ?_)
  · rw [bcast_col_wide (by decide), bcast_col (by decide), reduceAdd_pair _ _ hA]; rfl
  · rw [bcast_row_tall (by decide), bcast_row (by decide), reduceAdd_pair _ _ hB]; rfl
  · rw [dot_li_apply, transpose_ix2_apply, transpose_ix2_apply]; rfl

theorem raOut_apply (nb : IVec S18432x2 32) (dy : FVec Ideal S2048x2 .f32) (mk : IVec S2048 1) (i : Fin 2048) (j : Fin 9) :
    raOut nb dy mk (ix2 i j) = Scalar.select (useR mk ix0) (entryR (FloatOps.sitofp .f32 (nb (ix2 (rowRa i j) 0))) (FloatOps.sitofp .f32 (nb (ix2 (rowRa i j) 1))) (fun q => dy (ix2 q 0)) (fun q => dy (ix2 q 1)) (fun q => mk (ix1 q))) (FloatOps.ofBits .f32 0x00000000#32) := by
  have hA : S18432x2.Reduces [1] S18432 := by decide
  have hB : S2048x2.Reduces [1] S2048 := by decide
  have hM : S18432x2048.Reduces [1] S18432 := by decide
  unfold raOut
  simp only []
  -- the final select, the scalar condition and the zero splat, and the reshape: entry (i, j) is flat entry 9·i + j
  rw [select_apply, bcast0_2, bcast0_2, shapeCast_rows9 _ _ i j (rowRa i j) rfl]
  refine congrArg₂ (Scalar.select (useR mk ix0)) ?_ rfl
  unfold entryR
  -- scale, square root, clamp at zero
  rw [mulf_at, sqrt_at, maximumf_at, bcast0_1, bcast0_1]
  refine congrArg₂ FloatOps.mulf (congrArg FloatOps.sqrt (congrArg₂ FloatOps.maximumf ?_ rfl)) rfl
  -- the minimum over the columns is the infimum of the masked squared distances
  refine (reduceMin_row _ _ hM _ _).trans (iInf_congr fun q => ?_)
  rw [select_apply, bcast_row_tall (by decide), bcast_row (by decide), bcast0_2]
  refine congrArg₂ (Scalar.select (mk (ix1 q))) ?_ Cert.Extremum.ofBits_posInf_f32
  rw [subf_at, addf_at, mulf_at, bcast0_2]
  refine congrArg₂ FloatOps.subf (congrArg₂ FloatOps.addf ?_ ?_) (congrArg₂ FloatOps.mulf rfl ?_)
  · rw [bcast_col_wide (by decide), bcast_col (by decide), reduceAdd_pair _ _ hA]; rfl
  · rw [bcast_row_tall (by decide), bcast_row (by decide), reduceAdd_pair _ _ hB]; rfl
  · rw [dot_ra_apply, transpose_ix2_apply, transpose_ix2_apply]; rfl

end Cert.ReferenceIdeal.Stage

end
-- ==== Proof.RefRun.lean ====
/- The reference program's @main as the LIST of its 151 host operations, the six outlined functions
   (the two floor-remainders, each with its inner select, and the four selects) written out at their call
   sites over the calls' buffer records, and its run read back: every weakly fair execution terminates with
   each buffer at the operations' composed pure term of the arguments' launch contents. -/
import proofs.«161537_j24713241822141_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's 151 operations, in order: the mask and the dynamic points' slice; the 9 neighbour offsets added to
    each point and reduced modulo 513 (sign following the divisor), for both point sets; the count of mask
    bits against 1; then per point set the squared norms, the cross product, the squared distances, the
    masked minimum over the dynamic points, its square root scaled, and the select against 0 by the count. -/
abbrev ops : List (HloOp τ sig (Elt F)) :=
  [
    nullary main_c (fun i => lit0 (S9x2.rowMajor i)),
    nullary main_c_0 (constantI S2 32 513#32),
    unary main_arg2 main_v0 ((extractStridedSlice S2048x1 ![0, 4] · slices_S2048x5_S2048x1_0_4) : (⟨S2048x5, .f32⟩ : BufTy).Contents (Elt F) → (⟨S2048x1, .f32⟩ : BufTy).Contents (Elt F)),
    reshape main_v0 main_v1 rfl shapeCasts_S2048x1_S2048,
    unary main_v1 main_v2 (Host.absf : (⟨S2048, .f32⟩ : BufTy).Contents (Elt F) → (⟨S2048, .f32⟩ : BufTy).Contents (Elt F)),
    nullary main_cst (constant S_ .f32 0x3DCCCCCD#32),
    unary main_cst main_v3 (broadcastInDim S2048 ![] bcast_S_S2048 : (⟨S_, .f32⟩ : BufTy).Contents (Elt F) → (⟨S2048, .f32⟩ : BufTy).Contents (Elt F)),
    binary main_v2 main_v3 main_v4 (cmpf .ogt : (⟨S2048, .f32⟩ : BufTy).Contents (Elt F) → (⟨S2048, .f32⟩ : BufTy).Contents (Elt F) → (⟨S2048, .i1⟩ : BufTy).Contents (Elt F)),
    unary main_arg3 main_v5 ((extractStridedSlice S2048x2 ![0, 1] · slices_S2048x3_S2048x2_0_1) : (⟨S2048x3, .i32⟩ : BufTy).Contents (Elt F) → (⟨S2048x2, .i32⟩ : BufTy).Contents (Elt F)),
    unary main_v5 main_v6 (sitofp .f32 : (⟨S2048x2, .i32⟩ : BufTy).Contents (Elt F) → (⟨S2048x2, .f32⟩ : BufTy).Contents (Elt F)),
    unary main_arg0 main_v7 (broadcastInDim S8192x1x2 ![0, 2] bcast_S8192x2_S8192x1x2_0_2 : (⟨S8192x2, .i32⟩ : BufTy).Contents (Elt F) → (⟨S8192x1x2, .i32⟩ : BufTy).Contents (Elt F)),
    unary main_c main_v8 (broadcastInDim S1x9x2 ![1, 2] bcast_S9x2_S1x9x2_1_2 : (⟨S9x2, .i32⟩ : BufTy).Contents (Elt F) → (⟨S1x9x2, .i32⟩ : BufTy).Contents (Elt F)),
    unary main_v7 main_v9 (broadcastInDim S8192x9x2 ![0, 1, 2] bcast_S8192x1x2_S8192x9x2_0_1_2 : (⟨S8192x1x2, .i32⟩ : BufTy).Contents (Elt F) → (⟨S8192x9x2, .i32⟩ : BufTy).Contents (Elt F)),
    unary main_v8 main_v10 (broadcastInDim S8192x9x2 ![0, 1, 2] bcast_S1x9x2_S8192x9x2_0_1_2 : (⟨S1x9x2, .i32⟩ : BufTy).Contents (Elt F) → (⟨S8192x9x2, .i32⟩ : BufTy).Contents (Elt F)),
    binary main_v9 main_v10 main_v11 (addi : (⟨S8192x9x2, .i32⟩ : BufTy).Contents (Elt F) → (⟨S8192x9x2, .i32⟩ : BufTy).Contents (Elt F) → (⟨S8192x9x2, .i32⟩ : BufTy).Contents (Elt F)),
    TRef.unary (TRef.of main_c_0 : TRef sig ⟨S2, .i32⟩) main_call0.v0 (broadcastInDim S1x1x2 ![2] bcast_S2_S1x1x2_2),
    TRef.nullary main_call0.c (constantI S_ 32 0#32),
    TRef.unary main_call0.c main_call0.v1 (broadcastInDim S1x1x2 ![] bcast_S_S1x1x2),
    TRef.binary main_call0.v0 main_call0.v1 main_call0.v2 (cmpi .eq),
    TRef.nullary main_call0.c_0 (constantI S_ 32 1#32),
    TRef.unary main_call0.c_0 main_call0.v3 (broadcastInDim S1x1x2 ![] bcast_S_S1x1x2),
    TRef.ternary main_call0.v2 main_call0.v3 main_call0.v0 main_call0.call0.v0 select,
    TRef.unary main_call0.call0.v0 main_call0.v5 (broadcastInDim S8192x9x2 ![0, 1, 2] bcast_S1x1x2_S8192x9x2_0_1_2),
    TRef.binary (TRef.of main_v11 : TRef sig ⟨S8192x9x2, .i32⟩) main_call0.v5 main_call0.v6 Host.remsi,
    TRef.nullary main_call0.c_1 (constantI S_ 32 0#32),
    TRef.unary main_call0.c_1 main_call0.v7 (broadcastInDim S8192x9x2 ![] bcast_S_S8192x9x2),
    TRef.binary main_call0.v6 main_call0.v7 main_call0.v8 (cmpi .ne),
    TRef.nullary main_call0.c_2 (constantI S_ 32 0#32),
    TRef.unary main_call0.c_2 main_call0.v9 (broadcastInDim S8192x9x2 ![] bcast_S_S8192x9x2),
    TRef.binary main_call0.v6 main_call0.v9 main_call0.v10 (cmpi .slt),
    TRef.nullary main_call0.c_3 (constantI S_ 32 0#32),
    TRef.unary main_call0.c_3 main_call0.v11 (broadcastInDim S1x1x2 ![] bcast_S_S1x1x2),
    TRef.binary main_call0.call0.v0 main_call0.v11 main_call0.v12 (cmpi .slt),
    TRef.unary main_call0.v12 main_call0.v13 (broadcastInDim S8192x9x2 ![0, 1, 2] bcast_S1x1x2_S8192x9x2_0_1_2),
    TRef.binary main_call0.v10 main_call0.v13 main_call0.v14 (cmpi .ne),
    TRef.binary main_call0.v14 main_call0.v8 main_call0.v15 andi,
    TRef.unary main_call0.call0.v0 main_call0.v16 (broadcastInDim S8192x9x2 ![0, 1, 2] bcast_S1x1x2_S8192x9x2_0_1_2),
    TRef.binary main_call0.v6 main_call0.v16 main_call0.v17 addi,
    TRef.ternary main_call0.v15 main_call0.v17 main_call0.v6 main_call0.v18 select,
    unary main_arg1 main_v13 (broadcastInDim S2048x1x2 ![0, 2] bcast_S2048x2_S2048x1x2_0_2 : (⟨S2048x2, .i32⟩ : BufTy).Contents (Elt F) → (⟨S2048x1x2, .i32⟩ : BufTy).Contents (Elt F)),
    unary main_c main_v14 (broadcastInDim S1x9x2 ![1, 2] bcast_S9x2_S1x9x2_1_2 : (⟨S9x2, .i32⟩ : BufTy).Contents (Elt F) → (⟨S1x9x2, .i32⟩ : BufTy).Contents (Elt F)),
    unary main_v13 main_v15 (broadcastInDim S2048x9x2 ![0, 1, 2] bcast_S2048x1x2_S2048x9x2_0_1_2 : (⟨S2048x1x2, .i32⟩ : BufTy).Contents (Elt F) → (⟨S2048x9x2, .i32⟩ : BufTy).Contents (Elt F)),
    unary main_v14 main_v16 (broadcastInDim S2048x9x2 ![0, 1, 2] bcast_S1x9x2_S2048x9x2_0_1_2 : (⟨S1x9x2, .i32⟩ : BufTy).Contents (Elt F) → (⟨S2048x9x2, .i32⟩ : BufTy).Contents (Elt F)),
    binary main_v15 main_v16 main_v17 (addi : (⟨S2048x9x2, .i32⟩ : BufTy).Contents (Elt F) → (⟨S2048x9x2, .i32⟩ : BufTy).Contents (Elt F) → (⟨S2048x9x2, .i32⟩ : BufTy).Contents (Elt F)),
    TRef.unary (TRef.of main_c_0 : TRef sig ⟨S2, .i32⟩) main_call1.v0 (broadcastInDim S1x1x2 ![2] bcast_S2_S1x1x2_2),
    TRef.nullary main_call1.c (constantI S_ 32 0#32),
    TRef.unary main_call1.c main_call1.v1 (broadcastInDim S1x1x2 ![] bcast_S_S1x1x2),
    TRef.binary main_call1.v0 main_call1.v1 main_call1.v2 (cmpi .eq),
    TRef.nullary main_call1.c_0 (constantI S_ 32 1#32),
    TRef.unary main_call1.c_0 main_call1.v3 (broadcastInDim S1x1x2 ![] bcast_S_S1x1x2),
    TRef.ternary main_call1.v2 main_call1.v3 main_call1.v0 main_call1.call0.v0 select,
    TRef.unary main_call1.call0.v0 main_call1.v5 (broadcastInDim S2048x9x2 ![0, 1, 2] bcast_S1x1x2_S2048x9x2_0_1_2),
    TRef.binary (TRef.of main_v17 : TRef sig ⟨S2048x9x2, .i32⟩) main_call1.v5 main_call1.v6 Host.remsi,
    TRef.nullary main_call1.c_1 (constantI S_ 32 0#32),
    TRef.unary main_call1.c_1 main_call1.v7 (broadcastInDim S2048x9x2 ![] bcast_S_S2048x9x2),
    TRef.binary main_call1.v6 main_call1.v7 main_call1.v8 (cmpi .ne),
    TRef.nullary main_call1.c_2 (constantI S_ 32 0#32),
    TRef.unary main_call1.c_2 main_call1.v9 (broadcastInDim S2048x9x2 ![] bcast_S_S2048x9x2),
    TRef.binary main_call1.v6 main_call1.v9 main_call1.v10 (cmpi .slt),
    TRef.nullary main_call1.c_3 (constantI S_ 32 0#32),
    TRef.unary main_call1.c_3 main_call1.v11 (broadcastInDim S1x1x2 ![] bcast_S_S1x1x2),
    TRef.binary main_call1.call0.v0 main_call1.v11 main_call1.v12 (cmpi .slt),
    TRef.unary main_call1.v12 main_call1.v13 (broadcastInDim S2048x9x2 ![0, 1, 2] bcast_S1x1x2_S2048x9x2_0_1_2),
    TRef.binary main_call1.v10 main_call1.v13 main_call1.v14 (cmpi .ne),
    TRef.binary main_call1.v14 main_call1.v8 main_call1.v15 andi,
    TRef.unary main_call1.call0.v0 main_call1.v16 (broadcastInDim S2048x9x2 ![0, 1, 2] bcast_S1x1x2_S2048x9x2_0_1_2),
    TRef.binary main_call1.v6 main_call1.v16 main_call1.v17 addi,
    TRef.ternary main_call1.v15 main_call1.v17 main_call1.v6 main_call1.v18 select,
    unary main_v4 main_v19 ((extui 32 · natLt_1_32) : (⟨S2048, .i1⟩ : BufTy).Contents (Elt F) → (⟨S2048, .i32⟩ : BufTy).Contents (Elt F)),
    nullary main_c_1 (constantI S_ 32 0#32),
    binary main_v19 main_c_1 main_v20 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    nullary main_c_2 (constantI S_ 32 1#32),
    binary main_v20 main_c_2 main_v21 (cmpi .sgt : (⟨S_, .i32⟩ : BufTy).Contents (Elt F) → (⟨S_, .i32⟩ : BufTy).Contents (Elt F) → (⟨S_, .i1⟩ : BufTy).Contents (Elt F)),
    reshape main_v12 main_v22 rfl shapeCasts_S8192x9x2_S73728x2,
    unary main_v22 main_v23 (sitofp .f32 : (⟨S73728x2, .i32⟩ : BufTy).Contents (Elt F) → (⟨S73728x2, .f32⟩ : BufTy).Contents (Elt F)),
    binary main_v23 main_v23 main_v24 (mulf : (⟨S73728x2, .f32⟩ : BufTy).Contents (Elt F) → (⟨S73728x2, .f32⟩ : BufTy).Contents (Elt F) → (⟨S73728x2, .f32⟩ : BufTy).Contents (Elt F)),
    nullary main_cst_3 (constant S_ .f32 0x00000000#32),
    binary main_v24 main_cst_3 main_v25 ((fun x v => Host.reduceAdd x v reducesTo_S73728x2_S73728_d1 h_S_) : (⟨S73728x2, .f32⟩ : BufTy).Contents (Elt F) → (⟨S_, .f32⟩ : BufTy).Contents (Elt F) → (⟨S73728, .f32⟩ : BufTy).Contents (Elt F)),
    binary main_v6 main_v6 main_v26 (mulf : (⟨S2048x2, .f32⟩ : BufTy).Contents (Elt F) → (⟨S2048x2, .f32⟩ : BufTy).Contents (Elt F) → (⟨S2048x2, .f32⟩ : BufTy).Contents (Elt F)),
    nullary main_cst_4 (constant S_ .f32 0x00000000#32),
    binary main_v26 main_cst_4 main_v27 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)),
    unary main_v25 main_v28 (broadcastInDim S73728x1 ![0] bcast_S73728_S73728x1_0 : (⟨S73728, .f32⟩ : BufTy).Contents (Elt F) → (⟨S73728x1, .f32⟩ : BufTy).Contents (Elt F)),
    unary main_v27 main_v29 (broadcastInDim S1x2048 ![1] bcast_S2048_S1x2048_1 : (⟨S2048, .f32⟩ : BufTy).Contents (Elt F) → (⟨S1x2048, .f32⟩ : BufTy).Contents (Elt F)),
    unary main_v28 main_v30 (broadcastInDim S73728x2048 ![0, 1] bcast_S73728x1_S73728x2048_0_1 : (⟨S73728x1, .f32⟩ : BufTy).Contents (Elt F) → (⟨S73728x2048, .f32⟩ : BufTy).Contents (Elt F)),
    unary main_v29 main_v31 (broadcastInDim S73728x2048 ![0, 1] bcast_S1x2048_S73728x2048_0_1 : (⟨S1x2048, .f32⟩ : BufTy).Contents (Elt F) → (⟨S73728x2048, .f32⟩ : BufTy).Contents (Elt F)),
    binary main_v30 main_v31 main_v32 (addf : (⟨S73728x2048, .f32⟩ : BufTy).Contents (Elt F) → (⟨S73728x2048, .f32⟩ : BufTy).Contents (Elt F) → (⟨S73728x2048, .f32⟩ : BufTy).Contents (Elt F)),
    unary main_v6 main_v33 ((transpose S2x2048 [1, 0] · transposes_S2048x2_S2x2048_1_0) : (⟨S2048x2, .f32⟩ : BufTy).Contents (Elt F) → (⟨S2x2048, .f32⟩ : BufTy).Contents (Elt F)),
    binary main_v23 main_v33 main_v34 ((fun l r => Host.dotGeneral dot_S73728x2_S2x2048_S73728x2048_1_0_0_1_n_n none l r) : (⟨S73728x2, .f32⟩ : BufTy).Contents (Elt F) → (⟨S2x2048, .f32⟩ : BufTy).Contents (Elt F) → (⟨S73728x2048, .f32⟩ : BufTy).Contents (Elt F)),
    nullary main_cst_5 (constant S_ .f32 0x40000000#32),
    unary main_cst_5 main_v35 (broadcastInDim S73728x2048 ![] bcast_S_S73728x2048 : (⟨S_, .f32⟩ : BufTy).Contents (Elt F) → (⟨S73728x2048, .f32⟩ : BufTy).Contents (Elt F)),
    binary main_v35 main_v34 main_v36 (mulf : (⟨S73728x2048, .f32⟩ : BufTy).Contents (Elt F) → (⟨S73728x2048, .f32⟩ : BufTy).Contents (Elt F) → (⟨S73728x2048, .f32⟩ : BufTy).Contents (Elt F)),
    binary main_v32 main_v36 main_v37 (subf : (⟨S73728x2048, .f32⟩ : BufTy).Contents (Elt F) → (⟨S73728x2048, .f32⟩ : BufTy).Contents (Elt F) → (⟨S73728x2048, .f32⟩ : BufTy).Contents (Elt F)),
    unary main_v4 main_v38 (broadcastInDim S1x2048 ![1] bcast_S2048_S1x2048_1 : (⟨S2048, .i1⟩ : BufTy).Contents (Elt F) → (⟨S1x2048, .i1⟩ : BufTy).Contents (Elt F)),
    nullary main_cst_6 (constant S_ .f32 0x7F800000#32),
    TRef.unary (TRef.of main_cst_6 : TRef sig ⟨S_, .f32⟩) main_call2.v0 id,
    TRef.unary (TRef.of main_v38 : TRef sig ⟨S1x2048, .i1⟩) main_call2.v1 (broadcastInDim S73728x2048 ![0, 1] bcast_S1x2048_S73728x2048_0_1),
    TRef.unary main_call2.v0 main_call2.v2 (broadcastInDim S73728x2048 ![] bcast_S_S73728x2048),
    TRef.ternary main_call2.v1 (TRef.of main_v37 : TRef sig ⟨S73728x2048, .f32⟩) main_call2.v2 main_call2.v3 select,
    nullary main_cst_7 (constant S_ .f32 0x7F800000#32),
    binary main_v39 main_cst_7 main_v40 ((fun x v => Host.reduce FloatOps.minimumf x v reducesTo_S73728x2048_S73728_d1 h_S_) : (⟨S73728x2048, .f32⟩ : BufTy).Contents (Elt F) → (⟨S_, .f32⟩ : BufTy).Contents (Elt F) → (⟨S73728, .f32⟩ : BufTy).Contents (Elt F)),
    nullary main_cst_8 (constant S_ .f32 0x00000000#32),
    unary main_cst_8 main_v41 (broadcastInDim S73728 ![] bcast_S_S73728 : (⟨S_, .f32⟩ : BufTy).Contents (Elt F) → (⟨S73728, .f32⟩ : BufTy).Contents (Elt F)),
    binary main_v40 main_v41 main_v42 (maximumf : (⟨S73728, .f32⟩ : BufTy).Contents (Elt F) → (⟨S73728, .f32⟩ : BufTy).Contents (Elt F) → (⟨S73728, .f32⟩ : BufTy).Contents (Elt F)),
    unary main_v42 main_v43 (Host.sqrt : (⟨S73728, .f32⟩ : BufTy).Contents (Elt F) → (⟨S73728, .f32⟩ : BufTy).Contents (Elt F)),
    nullary main_cst_9 (constant S_ .f32 0x3C23D70A#32),
    unary main_cst_9 main_v44 (broadcastInDim S73728 ![] bcast_S_S73728 : (⟨S_, .f32⟩ : BufTy).Contents (Elt F) → (⟨S73728, .f32⟩ : BufTy).Contents (Elt F)),
    binary main_v43 main_v44 main_v45 (mulf : (⟨S73728, .f32⟩ : BufTy).Contents (Elt F) → (⟨S73728, .f32⟩ : BufTy).Contents (Elt F) → (⟨S73728, .f32⟩ : BufTy).Contents (Elt F)),
    reshape main_v45 main_v46 rfl shapeCasts_S73728_S8192x9,
    nullary main_cst_10 (constant S_ .f32 0x00000000#32),
    TRef.unary (TRef.of main_cst_10 : TRef sig ⟨S_, .f32⟩) main_call3.v0 id,
    TRef.unary main_call3.v0 main_call3.v1 (broadcastInDim S8192x9 ![] bcast_S_S8192x9),
    TRef.ternary (TRef.of main_v21 : TRef sig ⟨S_, .i1⟩) (TRef.of main_v46 : TRef sig ⟨S8192x9, .f32⟩) main_call3.v1 main_call3.v2 (fun p a b => select (broadcastInDim S8192x9 ![] bcast_S_S8192x9 p) a b),
    reshape main_v18 main_v48 rfl shapeCasts_S2048x9x2_S18432x2,
    unary main_v48 main_v49 (sitofp .f32 : (⟨S18432x2, .i32⟩ : BufTy).Contents (Elt F) → (⟨S18432x2, .f32⟩ : BufTy).Contents (Elt F)),
    binary main_v49 main_v49 main_v50 (mulf : (⟨S18432x2, .f32⟩ : BufTy).Contents (Elt F) → (⟨S18432x2, .f32⟩ : BufTy).Contents (Elt F) → (⟨S18432x2, .f32⟩ : BufTy).Contents (Elt F)),
    nullary main_cst_11 (constant S_ .f32 0x00000000#32),
    binary main_v50 main_cst_11 main_v51 ((fun x v => Host.reduceAdd x v reducesTo_S18432x2_S18432_d1 h_S_) : (⟨S18432x2, .f32⟩ : BufTy).Contents (Elt F) → (⟨S_, .f32⟩ : BufTy).Contents (Elt F) → (⟨S18432, .f32⟩ : BufTy).Contents (Elt F)),
    binary main_v6 main_v6 main_v52 (mulf : (⟨S2048x2, .f32⟩ : BufTy).Contents (Elt F) → (⟨S2048x2, .f32⟩ : BufTy).Contents (Elt F) → (⟨S2048x2, .f32⟩ : BufTy).Contents (Elt F)),
    nullary main_cst_12 (constant S_ .f32 0x00000000#32),
    binary main_v52 main_cst_12 main_v53 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)),
    unary main_v51 main_v54 (broadcastInDim S18432x1 ![0] bcast_S18432_S18432x1_0 : (⟨S18432, .f32⟩ : BufTy).Contents (Elt F) → (⟨S18432x1, .f32⟩ : BufTy).Contents (Elt F)),
    unary main_v53 main_v55 (broadcastInDim S1x2048 ![1] bcast_S2048_S1x2048_1 : (⟨S2048, .f32⟩ : BufTy).Contents (Elt F) → (⟨S1x2048, .f32⟩ : BufTy).Contents (Elt F)),
    unary main_v54 main_v56 (broadcastInDim S18432x2048 ![0, 1] bcast_S18432x1_S18432x2048_0_1 : (⟨S18432x1, .f32⟩ : BufTy).Contents (Elt F) → (⟨S18432x2048, .f32⟩ : BufTy).Contents (Elt F)),
    unary main_v55 main_v57 (broadcastInDim S18432x2048 ![0, 1] bcast_S1x2048_S18432x2048_0_1 : (⟨S1x2048, .f32⟩ : BufTy).Contents (Elt F) → (⟨S18432x2048, .f32⟩ : BufTy).Contents (Elt F)),
    binary main_v56 main_v57 main_v58 (addf : (⟨S18432x2048, .f32⟩ : BufTy).Contents (Elt F) → (⟨S18432x2048, .f32⟩ : BufTy).Contents (Elt F) → (⟨S18432x2048, .f32⟩ : BufTy).Contents (Elt F)),
    unary main_v6 main_v59 ((transpose S2x2048 [1, 0] · transposes_S2048x2_S2x2048_1_0) : (⟨S2048x2, .f32⟩ : BufTy).Contents (Elt F) → (⟨S2x2048, .f32⟩ : BufTy).Contents (Elt F)),
    binary main_v49 main_v59 main_v60 ((fun l r => Host.dotGeneral dot_S18432x2_S2x2048_S18432x2048_1_0_0_1_n_n none l r) : (⟨S18432x2, .f32⟩ : BufTy).Contents (Elt F) → (⟨S2x2048, .f32⟩ : BufTy).Contents (Elt F) → (⟨S18432x2048, .f32⟩ : BufTy).Contents (Elt F)),
    nullary main_cst_13 (constant S_ .f32 0x40000000#32),
    unary main_cst_13 main_v61 (broadcastInDim S18432x2048 ![] bcast_S_S18432x2048 : (⟨S_, .f32⟩ : BufTy).Contents (Elt F) → (⟨S18432x2048, .f32⟩ : BufTy).Contents (Elt F)),
    binary main_v61 main_v60 main_v62 (mulf : (⟨S18432x2048, .f32⟩ : BufTy).Contents (Elt F) → (⟨S18432x2048, .f32⟩ : BufTy).Contents (Elt F) → (⟨S18432x2048, .f32⟩ : BufTy).Contents (Elt F)),
    binary main_v58 main_v62 main_v63 (subf : (⟨S18432x2048, .f32⟩ : BufTy).Contents (Elt F) → (⟨S18432x2048, .f32⟩ : BufTy).Contents (Elt F) → (⟨S18432x2048, .f32⟩ : BufTy).Contents (Elt F)),
    unary main_v4 main_v64 (broadcastInDim S1x2048 ![1] bcast_S2048_S1x2048_1 : (⟨S2048, .i1⟩ : BufTy).Contents (Elt F) → (⟨S1x2048, .i1⟩ : BufTy).Contents (Elt F)),
    nullary main_cst_14 (constant S_ .f32 0x7F800000#32),
    TRef.unary (TRef.of main_cst_14 : TRef sig ⟨S_, .f32⟩) main_call4.v0 id,
    TRef.unary (TRef.of main_v64 : TRef sig ⟨S1x2048, .i1⟩) main_call4.v1 (broadcastInDim S18432x2048 ![0, 1] bcast_S1x2048_S18432x2048_0_1),
    TRef.unary main_call4.v0 main_call4.v2 (broadcastInDim S18432x2048 ![] bcast_S_S18432x2048),
    TRef.ternary main_call4.v1 (TRef.of main_v63 : TRef sig ⟨S18432x2048, .f32⟩) main_call4.v2 main_call4.v3 select,
    nullary main_cst_15 (constant S_ .f32 0x7F800000#32),
    binary main_v65 main_cst_15 main_v66 ((fun x v => Host.reduce FloatOps.minimumf x v reducesTo_S18432x2048_S18432_d1 h_S_) : (⟨S18432x2048, .f32⟩ : BufTy).Contents (Elt F) → (⟨S_, .f32⟩ : BufTy).Contents (Elt F) → (⟨S18432, .f32⟩ : BufTy).Contents (Elt F)),
    nullary main_cst_16 (constant S_ .f32 0x00000000#32),
    unary main_cst_16 main_v67 (broadcastInDim S18432 ![] bcast_S_S18432 : (⟨S_, .f32⟩ : BufTy).Contents (Elt F) → (⟨S18432, .f32⟩ : BufTy).Contents (Elt F)),
    binary main_v66 main_v67 main_v68 (maximumf : (⟨S18432, .f32⟩ : BufTy).Contents (Elt F) → (⟨S18432, .f32⟩ : BufTy).Contents (Elt F) → (⟨S18432, .f32⟩ : BufTy).Contents (Elt F)),
    unary main_v68 main_v69 (Host.sqrt : (⟨S18432, .f32⟩ : BufTy).Contents (Elt F) → (⟨S18432, .f32⟩ : BufTy).Contents (Elt F)),
    nullary main_cst_17 (constant S_ .f32 0x3C23D70A#32),
    unary main_cst_17 main_v70 (broadcastInDim S18432 ![] bcast_S_S18432 : (⟨S_, .f32⟩ : BufTy).Contents (Elt F) → (⟨S18432, .f32⟩ : BufTy).Contents (Elt F)),
    binary main_v69 main_v70 main_v71 (mulf : (⟨S18432, .f32⟩ : BufTy).Contents (Elt F) → (⟨S18432, .f32⟩ : BufTy).Contents (Elt F) → (⟨S18432, .f32⟩ : BufTy).Contents (Elt F)),
    reshape main_v71 main_v72 rfl shapeCasts_S18432_S2048x9,
    nullary main_cst_18 (constant S_ .f32 0x00000000#32),
    TRef.unary (TRef.of main_cst_18 : TRef sig ⟨S_, .f32⟩) main_call5.v0 id,
    TRef.unary main_call5.v0 main_call5.v1 (broadcastInDim S2048x9 ![] bcast_S_S2048x9),
    TRef.ternary (TRef.of main_v21 : TRef sig ⟨S_, .i1⟩) (TRef.of main_v72 : TRef sig ⟨S2048x9, .f32⟩) main_call5.v1 main_call5.v2 (fun p a b => select (broadcastInDim S2048x9 ![] bcast_S_S2048x9 p) a b) ]

set_option maxRecDepth 8192 in
set_option maxHeartbeats 4000000 in
/-- @main is that straight line: its two windows and the outlined functions unfolded at their calls, both
    sides are one chain of single steps once sequencing is reassociated. -/
theorem main_eq (c : Dev nD) : main (F := F) c = seq ops := by
  simp only [main, main_part0, main_part1, fn_remainder.body, fn_remainder_0.body, fn_where.body, fn_where_1.body,
    fn_where_2.body, fn_where_3.body, fn_where_4.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., reshape_bufs_sub .., unary_bufs_sub .., nullary_bufs_sub ..,
    unary_bufs_sub .., binary_bufs_sub .., unary_bufs_sub .., unary_bufs_sub .., unary_bufs_sub .., unary_bufs_sub ..,
    unary_bufs_sub .., unary_bufs_sub .., binary_bufs_sub .., unary_bufs_sub .., nullary_bufs_sub .., unary_bufs_sub ..,
    binary_bufs_sub .., nullary_bufs_sub .., unary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., unary_bufs_sub .., binary_bufs_sub .., binary_bufs_sub ..,
    unary_bufs_sub .., binary_bufs_sub .., ternary_bufs_sub .., unary_bufs_sub .., unary_bufs_sub .., unary_bufs_sub ..,
    unary_bufs_sub .., binary_bufs_sub .., unary_bufs_sub .., nullary_bufs_sub .., unary_bufs_sub .., binary_bufs_sub ..,
    nullary_bufs_sub .., unary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., ternary_bufs_sub .., unary_bufs_sub .., nullary_bufs_sub .., binary_bufs_sub .., nullary_bufs_sub ..,
    binary_bufs_sub .., reshape_bufs_sub .., unary_bufs_sub .., binary_bufs_sub .., nullary_bufs_sub .., binary_bufs_sub ..,
    binary_bufs_sub .., nullary_bufs_sub .., binary_bufs_sub .., unary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., unary_bufs_sub .., nullary_bufs_sub .., unary_bufs_sub .., unary_bufs_sub ..,
    unary_bufs_sub .., ternary_bufs_sub .., nullary_bufs_sub .., binary_bufs_sub .., nullary_bufs_sub .., unary_bufs_sub ..,
    binary_bufs_sub .., unary_bufs_sub .., nullary_bufs_sub .., unary_bufs_sub .., binary_bufs_sub .., reshape_bufs_sub ..,
    nullary_bufs_sub .., unary_bufs_sub .., unary_bufs_sub .., ternary_bufs_sub .., reshape_bufs_sub .., unary_bufs_sub ..,
    binary_bufs_sub .., nullary_bufs_sub .., binary_bufs_sub .., binary_bufs_sub .., nullary_bufs_sub .., binary_bufs_sub ..,
    unary_bufs_sub .., unary_bufs_sub .., unary_bufs_sub .., unary_bufs_sub .., binary_bufs_sub .., unary_bufs_sub ..,
    binary_bufs_sub .., nullary_bufs_sub .., unary_bufs_sub .., binary_bufs_sub .., binary_bufs_sub .., unary_bufs_sub ..,
    nullary_bufs_sub .., unary_bufs_sub .., unary_bufs_sub .., unary_bufs_sub .., ternary_bufs_sub .., nullary_bufs_sub ..,
    binary_bufs_sub .., nullary_bufs_sub .., unary_bufs_sub .., binary_bufs_sub .., unary_bufs_sub .., nullary_bufs_sub ..,
    unary_bufs_sub .., binary_bufs_sub .., reshape_bufs_sub .., nullary_bufs_sub .., unary_bufs_sub .., unary_bufs_sub ..,
    ternary_bufs_sub ..⟩

/-- On every device, for any float values, from any memory with zero counters: every weakly fair execution of
    @main terminates, and every final state has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 4000000 in
theorem arg0_eq (V : Valuation τ sig (Elt F)) : after ops V (main_arg0 : DevRef τ sig) = V (main_arg0 : DevRef τ sig) := by
  after_results_simp

set_option maxRecDepth 8192 in
set_option maxHeartbeats 4000000 in
theorem arg1_eq (V : Valuation τ sig (Elt F)) : after ops V (main_arg1 : DevRef τ sig) = V (main_arg1 : DevRef τ sig) := by
  after_results_simp

set_option maxRecDepth 8192 in
set_option maxHeartbeats 4000000 in
theorem arg2_eq (V : Valuation τ sig (Elt F)) : after ops V (main_arg2 : DevRef τ sig) = V (main_arg2 : DevRef τ sig) := by
  after_results_simp

set_option maxRecDepth 8192 in
set_option maxHeartbeats 4000000 in
theorem arg3_eq (V : Valuation τ sig (Elt F)) : after ops V (main_arg3 : DevRef τ sig) = V (main_arg3 : DevRef τ sig) := by
  after_results_simp

/-- The dynamic mask: the bit  |x[q, 4]| > 0.1  per voxel point q. -/
def maskR (a2 : FVec F S2048x5 .f32) : IVec S2048 1 :=
  let v0 : FVec F S2048x1 .f32 := extractStridedSlice S2048x1 ![0, 4] a2 slices_S2048x5_S2048x1_0_4
  let v1 : FVec F S2048 .f32 := shapeCast S2048 v0 shapeCasts_S2048x1_S2048
  let v2 : FVec F S2048 .f32 := Host.absf v1
  let cst : FVec F S_ .f32 := constant S_ .f32 0x3DCCCCCD#32
  let v3 : FVec F S2048 .f32 := broadcastInDim S2048 ![] bcast_S_S2048 cst
  cmpf .ogt v2 v3

/-- The dynamic voxel points' two integer coordinates: columns 1 and 2 of the 2048 × 3 table. -/
def dyR (a3 : IVec S2048x3 32) : IVec S2048x2 32 :=
  extractStridedSlice S2048x2 ![0, 1] a3 slices_S2048x3_S2048x2_0_1

/-- The 9 neighbours of each of the 8192 points, both coordinates reduced modulo 513 with the sign of the
    divisor (the remainder r of the truncated division, moved by 513 where r ≠ 0 and its sign differs from the
    divisor's; a zero divisor is replaced by 1), flattened row-major to 73728 × 2. -/
def nbLiR (a0 : IVec S8192x2 32) : IVec S73728x2 32 :=
  let c : IVec S9x2 32 := fun i => lit0 (S9x2.rowMajor i)
  let c_0 : IVec S2 32 := constantI S2 32 513#32
  let v7 : IVec S8192x1x2 32 := broadcastInDim S8192x1x2 ![0, 2] bcast_S8192x2_S8192x1x2_0_2 a0
  let v8 : IVec S1x9x2 32 := broadcastInDim S1x9x2 ![1, 2] bcast_S9x2_S1x9x2_1_2 c
  let v9 : IVec S8192x9x2 32 := broadcastInDim S8192x9x2 ![0, 1, 2] bcast_S8192x1x2_S8192x9x2_0_1_2 v7
  let v10 : IVec S8192x9x2 32 := broadcastInDim S8192x9x2 ![0, 1, 2] bcast_S1x9x2_S8192x9x2_0_1_2 v8
  let v11 : IVec S8192x9x2 32 := addi v9 v10
  let r0 : IVec S1x1x2 32 := broadcastInDim S1x1x2 ![2] bcast_S2_S1x1x2_2 c_0
  let rc : IVec S_ 32 := constantI S_ 32 0#32
  let r1 : IVec S1x1x2 32 := broadcastInDim S1x1x2 ![] bcast_S_S1x1x2 rc
  let r2 : IVec S1x1x2 1 := cmpi .eq r0 r1
  let rc_0 : IVec S_ 32 := constantI S_ 32 1#32
  let r3 : IVec S1x1x2 32 := broadcastInDim S1x1x2 ![] bcast_S_S1x1x2 rc_0
  let r4 : IVec S1x1x2 32 := select r2 r3 r0
  let r5 : IVec S8192x9x2 32 := broadcastInDim S8192x9x2 ![0, 1, 2] bcast_S1x1x2_S8192x9x2_0_1_2 r4
  let r6 : IVec S8192x9x2 32 := Host.remsi v11 r5
  let rc_1 : IVec S_ 32 := constantI S_ 32 0#32
  let r7 : IVec S8192x9x2 32 := broadcastInDim S8192x9x2 ![] bcast_S_S8192x9x2 rc_1
  let r8 : IVec S8192x9x2 1 := cmpi .ne r6 r7
  let rc_2 : IVec S_ 32 := constantI S_ 32 0#32
  let r9 : IVec S8192x9x2 32 := broadcastInDim S8192x9x2 ![] bcast_S_S8192x9x2 rc_2
  let r10 : IVec S8192x9x2 1 := cmpi .slt r6 r9
  let rc_3 : IVec S_ 32 := constantI S_ 32 0#32
  let r11 : IVec S1x1x2 32 := broadcastInDim S1x1x2 ![] bcast_S_S1x1x2 rc_3
  let r12 : IVec S1x1x2 1 := cmpi .slt r4 r11
  let r13 : IVec S8192x9x2 1 := broadcastInDim S8192x9x2 ![0, 1, 2] bcast_S1x1x2_S8192x9x2_0_1_2 r12
  let r14 : IVec S8192x9x2 1 := cmpi .ne r10 r13
  let r15 : IVec S8192x9x2 1 := andi r14 r8
  let r16 : IVec S8192x9x2 32 := broadcastInDim S8192x9x2 ![0, 1, 2] bcast_S1x1x2_S8192x9x2_0_1_2 r4
  let r17 : IVec S8192x9x2 32 := addi r6 r16
  let r18 : IVec S8192x9x2 32 := select r15 r17 r6
  shapeCast S73728x2 r18 shapeCasts_S8192x9x2_S73728x2

/-- The 9 neighbours of each of the 2048 points, both coordinates reduced modulo 513 with the sign of the
    divisor (the remainder r of the truncated division, moved by 513 where r ≠ 0 and its sign differs from the
    divisor's; a zero divisor is replaced by 1), flattened row-major to 18432 × 2. -/
def nbRaR (a1 : IVec S2048x2 32) : IVec S18432x2 32 :=
  let c : IVec S9x2 32 := fun i => lit0 (S9x2.rowMajor i)
  let c_0 : IVec S2 32 := constantI S2 32 513#32
  let v7 : IVec S2048x1x2 32 := broadcastInDim S2048x1x2 ![0, 2] bcast_S2048x2_S2048x1x2_0_2 a1
  let v8 : IVec S1x9x2 32 := broadcastInDim S1x9x2 ![1, 2] bcast_S9x2_S1x9x2_1_2 c
  let v9 : IVec S2048x9x2 32 := broadcastInDim S2048x9x2 ![0, 1, 2] bcast_S2048x1x2_S2048x9x2_0_1_2 v7
  let v10 : IVec S2048x9x2 32 := broadcastInDim S2048x9x2 ![0, 1, 2] bcast_S1x9x2_S2048x9x2_0_1_2 v8
  let v11 : IVec S2048x9x2 32 := addi v9 v10
  let r0 : IVec S1x1x2 32 := broadcastInDim S1x1x2 ![2] bcast_S2_S1x1x2_2 c_0
  let rc : IVec S_ 32 := constantI S_ 32 0#32
  let r1 : IVec S1x1x2 32 := broadcastInDim S1x1x2 ![] bcast_S_S1x1x2 rc
  let r2 : IVec S1x1x2 1 := cmpi .eq r0 r1
  let rc_0 : IVec S_ 32 := constantI S_ 32 1#32
  let r3 : IVec S1x1x2 32 := broadcastInDim S1x1x2 ![] bcast_S_S1x1x2 rc_0
  let r4 : IVec S1x1x2 32 := select r2 r3 r0
  let r5 : IVec S2048x9x2 32 := broadcastInDim S2048x9x2 ![0, 1, 2] bcast_S1x1x2_S2048x9x2_0_1_2 r4
  let r6 : IVec S2048x9x2 32 := Host.remsi v11 r5
  let rc_1 : IVec S_ 32 := constantI S_ 32 0#32
  let r7 : IVec S2048x9x2 32 := broadcastInDim S2048x9x2 ![] bcast_S_S2048x9x2 rc_1
  let r8 : IVec S2048x9x2 1 := cmpi .ne r6 r7
  let rc_2 : IVec S_ 32 := constantI S_ 32 0#32
  let r9 : IVec S2048x9x2 32 := broadcastInDim S2048x9x2 ![] bcast_S_S2048x9x2 rc_2
  let r10 : IVec S2048x9x2 1 := cmpi .slt r6 r9
  let rc_3 : IVec S_ 32 := constantI S_ 32 0#32
  let r11 : IVec S1x1x2 32 := broadcastInDim S1x1x2 ![] bcast_S_S1x1x2 rc_3
  let r12 : IVec S1x1x2 1 := cmpi .slt r4 r11
  let r13 : IVec S2048x9x2 1 := broadcastInDim S2048x9x2 ![0, 1, 2] bcast_S1x1x2_S2048x9x2_0_1_2 r12
  let r14 : IVec S2048x9x2 1 := cmpi .ne r10 r13
  let r15 : IVec S2048x9x2 1 := andi r14 r8
  let r16 : IVec S2048x9x2 32 := broadcastInDim S2048x9x2 ![0, 1, 2] bcast_S1x1x2_S2048x9x2_0_1_2 r4
  let r17 : IVec S2048x9x2 32 := addi r6 r16
  let r18 : IVec S2048x9x2 32 := select r15 r17 r6
  shapeCast S18432x2 r18 shapeCasts_S2048x9x2_S18432x2

set_option maxRecDepth 8192 in
set_option maxHeartbeats 4000000 in
theorem v4_eq (V : Valuation τ sig (Elt F)) : after ops V (main_v4 : DevRef τ sig) = maskR (V (main_arg2 : DevRef τ sig)) := by
  after_results_simp
  rfl

set_option maxRecDepth 8192 in
set_option maxHeartbeats 4000000 in
theorem v5_eq (V : Valuation τ sig (Elt F)) : after ops V (main_v5 : DevRef τ sig) = dyR (V (main_arg3 : DevRef τ sig)) := by
  after_results_simp
  rfl

set_option maxRecDepth 8192 in
set_option maxHeartbeats 4000000 in
theorem v22_eq (V : Valuation τ sig (Elt F)) : after ops V (main_v22 : DevRef τ sig) = nbLiR (V (main_arg0 : DevRef τ sig)) := by
  after_results_simp
  rfl

set_option maxRecDepth 8192 in
set_option maxHeartbeats 4000000 in
theorem v48_eq (V : Valuation τ sig (Elt F)) : after ops V (main_v48 : DevRef τ sig) = nbRaR (V (main_arg1 : DevRef τ sig)) := by
  after_results_simp
  rfl

end Cert.ReferenceIdeal.Run

end
-- ==== Proof.Chains.lean ====
/-
  The integer chains both programs compute on the host before any float arithmetic — the mask of dynamic points, the
  dynamic points' two coordinates, the two neighbour tables (each point plus nine shifts, each coordinate reduced modulo
  513 with the divisor's sign, flattened row-major) — and the count test "more than one mask bit is set" are computed
  by the same operations in both programs, over shapes that are the same literals and side conditions that are proofs
  of the same propositions (the second shift table of one program has the same entries as the first). The terms are
  therefore equal by definition.
-/
import proofs.«161537_j24713241822141_1_alg».proof.Proof.KernelHostDefs
import proofs.«161537_j24713241822141_1_alg».proof.Proof.RefRun
import proofs.«161537_j24713241822141_1_alg».proof.Proof.RefStage

noncomputable section

namespace Cert.Nearest.Chains

open Idealize.ShloMosaic

variable {F : FTy → Type} [FloatOps F]

/-- The two programs' masks are one function. -/
theorem mask_eq (a2 : FVec F Cert.KernelIdeal.S2048x5 .f32) :
    Cert.KernelIdeal.HostVal.maskK a2 = Cert.ReferenceIdeal.Run.maskR a2 := rfl

/-- The two programs' dynamic coordinates are one function. -/
theorem dy_eq (a3 : IVec Cert.KernelIdeal.S2048x3 32) :
    Cert.KernelIdeal.HostVal.dyK a3 = Cert.ReferenceIdeal.Run.dyR a3 := rfl

/-- The two programs' first neighbour tables are one function. -/
theorem nbLi_eq (a0 : IVec Cert.KernelIdeal.S8192x2 32) :
    Cert.KernelIdeal.HostVal.nbLiK a0 = Cert.ReferenceIdeal.Run.nbLiR a0 := rfl

/-- The two programs' second neighbour tables are one function (the two shift tables have the same entries). -/
theorem nbRa_eq (a1 : IVec Cert.KernelIdeal.S2048x2 32) :
    Cert.KernelIdeal.HostVal.nbRaK a1 = Cert.ReferenceIdeal.Run.nbRaR a1 := rfl

/-- The two programs' count tests are one function. -/
theorem use_eq (mk : IVec Cert.KernelIdeal.S2048 1) :
    Cert.KernelIdeal.HostVal.useK mk = Cert.ReferenceIdeal.Stage.useR mk := rfl

end Cert.Nearest.Chains

end
-- ==== Proof.LibIdealReal.lean ====
/-
  General lemmas: the extended-real operations of the ideal float instance on REAL operands give the real result.
  A finite sum of real numbers embedded in the extended reals is the embedded sum; the ideal quotient of two reals with
  a nonzero divisor is the real quotient; the ideal logarithm of a positive real is the real logarithm; an ordered
  compare of two reals is the bit of the real order; a one-bit word widened to 32 bits and converted to a float is the
  real 1 or 0; a maximum over a nonempty finite family of reals starting from minus infinity is the real maximum.
-/
import Idealize.ShloMosaic.PureOps.Ideal
import Idealize.ShloMosaic.PureOps.Ideal.Laws

noncomputable section

namespace Idealize.ShloMosaic.IdealReal

open Idealize.ShloMosaic

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor nonzero, is the real quotient. -/
theorem div_coe_coe (x y : ℝ) (hy : y ≠ 0) : Ideal.div (x : EReal) (y : EReal) = ((x / y : ℝ) : EReal) := by
  rw [Ideal.div_coe hy, ← EReal.coe_mul]
  congr 1
  field_simp

/-- The ideal logarithm of a positive real is the real logarithm. -/
theorem log_coe_pos {x : ℝ} (hx : 0 < x) : Ideal.log (x : EReal) = ((Real.log x : ℝ) : EReal) := by
  rw [Ideal.log_coe, if_neg (not_le.mpr hx)]

/-- The ideal exponential of a real is the real exponential. -/
theorem exp_coe' (x : ℝ) : Ideal.exp (x : EReal) = ((Real.exp x : ℝ) : EReal) := Ideal.exp_coe x

theorem cmp_ogt_coe (x y : ℝ) : Ideal.cmp .ogt (x : EReal) (y : EReal) = if y < x then 1#1 else 0#1 := by
  unfold Ideal.cmp
  by_cases h : y < x
  · simp [h, EReal.coe_lt_coe_iff]
  · simp [h, EReal.coe_lt_coe_iff]

theorem cmp_oge_coe (x y : ℝ) : Ideal.cmp .oge (x : EReal) (y : EReal) = if y ≤ x then 1#1 else 0#1 := by
  unfold Ideal.cmp
  by_cases h : y ≤ x
  · simp [h, EReal.coe_le_coe_iff]
  · simp [h, EReal.coe_le_coe_iff]

/-- A one-bit word widened to 32 bits and converted (signed) to a float is the real 1 or 0. -/
theorem sitofp_setWidth_bit (b : BitVec 1) :
    (FloatOps.sitofp (F := Ideal) .f32 (b.setWidth 32) : EReal) = if b = 1#1 then ((1 : ℝ) : EReal) else ((0 : ℝ) : EReal) := by
  have hb : b = 0#1 ∨ b = 1#1 := by
    have := b.isLt
    rcases Nat.lt_or_ge b.toNat 1 with h | h
    · left; apply BitVec.eq_of_toNat_eq; simp; omega
    · right; apply BitVec.eq_of_toNat_eq; simp; omega
  rcases hb with rfl | rfl
  · show ((((0#1 : BitVec 1).setWidth 32).toInt : ℝ) : EReal) = _
    simp
  · show ((((1#1 : BitVec 1).setWidth 32).toInt : ℝ) : EReal) = _
    norm_num [BitVec.toInt]

/-- The maximum of embedded reals is the embedded maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A product with an embedded 1-or-0 selects. -/
theorem coe_ite {p : Prop} [Decidable p] (a b : ℝ) :
    (if p then ((a : ℝ) : EReal) else ((b : ℝ) : EReal)) = (((if p then a else b) : ℝ) : EReal) := by
  split <;> rfl

end Idealize.ShloMosaic.IdealReal

end
-- ==== Proof.Bounds.lean ====
/-
  Small facts about the extended-real float instance used by the nearest-point distance argument: a signed 32-bit word
  converts to the integer it denotes, whose absolute value is at most 2^31; a one-bit word converts (unsigned) to 1 or 0;
  the float words 2, 0, the large finite penalty and the scale factor denote real numbers (the penalty at least 2^70);
  and a positive count of widened mask bits exhibits a set bit.
-/
import Idealize.ShloMosaic.PureOps.Ideal
import Idealize.ShloMosaic.PureOps.Ideal.Laws
import Idealize.ShloMosaic.Lib.ValueIdx
import Idealize.ShloMosaic.Lib.ReduceAll
import proofs.«161537_j24713241822141_1_alg».proof.Proof.LibIdealReal

noncomputable section

namespace Cert.Nearest.Bounds

open Idealize.ShloMosaic Idealize.ShloMosaic.ValueIdx

/-- A signed 32-bit word converted to a float is, at Ideal, the integer itself. -/
theorem sitofp_coe (x : BitVec 32) :
    (FloatOps.sitofp (F := Ideal) .f32 x : EReal) = ((x.toInt : ℝ) : EReal) := rfl

/-- A signed 32-bit integer lies in [-2^31, 2^31). -/
theorem toInt_abs_le (x : BitVec 32) : |(x.toInt : ℝ)| ≤ 2 ^ 31 := by
  have hlt := x.isLt
  have h : -(2 : ℤ) ^ 31 ≤ x.toInt ∧ x.toInt ≤ 2 ^ 31 := by
    unfold BitVec.toInt
    split <;> constructor <;> omega
  rw [abs_le]
  constructor
  · have h1 : ((-(2 : ℤ) ^ 31 : ℤ) : ℝ) ≤ (x.toInt : ℝ) := by exact_mod_cast h.1
    push_cast at h1
    linarith
  · exact_mod_cast h.2

/-- A one-bit word is 0 or 1. -/
theorem bit_cases (b : BitVec 1) : b = 0#1 ∨ b = 1#1 := by
  have := b.isLt
  rcases Nat.lt_or_ge b.toNat 1 with h | h
  · left; apply BitVec.eq_of_toNat_eq; simp; omega
  · right; apply BitVec.eq_of_toNat_eq; simp; omega

/-- A one-bit word converted unsigned is 1 or 0. -/
theorem uitofp_bit (b : BitVec 1) :
    (FloatOps.uitofp (F := Ideal) .f32 b : EReal) = if b = 1#1 then ((1 : ℝ) : EReal) else ((0 : ℝ) : EReal) := by
  rcases bit_cases b with rfl | rfl
  · show ((((0#1 : BitVec 1)).toNat : ℝ) : EReal) = _
    simp
  · show ((((1#1 : BitVec 1)).toNat : ℝ) : EReal) = _
    simp

/-- The three float words of the computation. -/
theorem two_val : (FloatOps.ofBits (F := Ideal) .f32 0x40000000#32 : EReal) = ((2 : ℝ) : EReal) := by
  show Ideal.ofBits .f32 0x40000000#32 = _
  simp [Ideal.ofBits, Ideal.ieee, -EReal.coe_mul]
  norm_num

theorem zero_val : (FloatOps.ofBits (F := Ideal) .f32 0x00000000#32 : EReal) = ((0 : ℝ) : EReal) := by
  show Ideal.ofBits .f32 0x00000000#32 = _
  simp [Ideal.ofBits, Ideal.ieee]

/-- The large finite penalty: significand 13234890 at exponent 76, far above 2^70. -/
theorem big_val : ∃ B : ℝ, (FloatOps.ofBits (F := Ideal) .f32 0x7149F2CA#32 : EReal) = ((B : ℝ) : EReal) ∧ (2 : ℝ) ^ 70 ≤ B := by
  refine ⟨(13234890 : ℝ) * 2 ^ 76, ?_, ?_⟩
  · show Ideal.ofBits .f32 0x7149F2CA#32 = _
    simp [Ideal.ofBits, Ideal.ieee, -EReal.coe_mul]
  · norm_num

/-- The scale factor: significand 10737418 at exponent -30. -/
theorem hundredth_val : ∃ h : ℝ, (FloatOps.ofBits (F := Ideal) .f32 0x3C23D70A#32 : EReal) = ((h : ℝ) : EReal) := by
  refine ⟨(10737418 : ℝ) * 2 ^ (-30 : ℤ), ?_⟩
  show Ideal.ofBits .f32 0x3C23D70A#32 = _
  simp [Ideal.ofBits, Ideal.ieee, -EReal.coe_mul]

/-- The count test: if the sum of the widened mask bits exceeds 1 (signed, 32 bits, from 0), some mask bit is set. If
    every bit is clear the widened vector is all zeros, its sum from 0 is 0, and 0 > 1 is false. -/
theorem exists_of_count (h' : (⟨1, ![2048]⟩ : Shape).ReducesTo [0] ⟨0, ![]⟩) (hS : 0 < (⟨0, ![]⟩ : Shape).numel)
    (hlt : 1 < 32) (mk : IVec ⟨1, ![2048]⟩ 1)
    (hc : cmpi .sgt (Host.reduce IntOp.addi (extui 32 mk hlt) (constantI ⟨0, ![]⟩ 32 0#32) h' hS)
      (constantI ⟨0, ![]⟩ 32 1#32) ix0 = 1#1) : ∃ q : Fin 2048, mk (ix1 q) = 1#1 := by
  by_contra hne
  simp only [not_exists] at hne
  have hz : ∀ i : (⟨1, ![2048]⟩ : Shape).Idx, extui 32 mk hlt i = 0#32 := by
    intro i
    have hi : i = ix1 (i 0) := by
      funext d
      match d with
      | ⟨0, _⟩ => rfl
    have hb : mk i = 0#1 := by
      have h1 : mk i ≠ 1#1 := by
        rw [hi]
        exact hne (i 0)
      rcases bit_cases (mk i) with h0 | h0
      · exact h0
      · exact absurd h0 h1
    rw [extui_apply, hb]
    rfl
  have hfold : ∀ l : List (⟨1, ![2048]⟩ : Shape).Idx,
      l.foldl (fun r i => IntOp.addi r (extui 32 mk hlt i)) 0#32 = 0#32 := by
    intro l
    induction l with
    | nil => rfl
    | cons a l ih =>
      rw [List.foldl_cons, hz a]
      exact ih
  have hr : Host.reduce IntOp.addi (extui 32 mk hlt) (constantI ⟨0, ![]⟩ 32 0#32) h' hS ix0 = 0#32 := by
    rw [Host.reduce_eq_foldl]
    exact hfold _
  have hcmp : cmpi .sgt (Host.reduce IntOp.addi (extui 32 mk hlt) (constantI ⟨0, ![]⟩ 32 0#32) h' hS)
      (constantI ⟨0, ![]⟩ 32 1#32) ix0 = IntOp.cmpi .sgt (0#32) (1#32) := by
    show IntOp.cmpi .sgt (Host.reduce IntOp.addi (extui 32 mk hlt) (constantI ⟨0, ![]⟩ 32 0#32) h' hS ix0) (1#32) = _
    rw [hr]
  rw [hcmp] at hc
  exact absurd hc (by decide)

end Cert.Nearest.Bounds

end
-- ==== Proof.Nearest.lean ====
/-
  The mathematics of the two minima.

  A point a = (x0, x1) and points b_q = (y0 q, y1 q), all with real coordinates; a set of "dynamic" indices q. The
  squared distance D q = (x0 − y0 q)² + (x1 − y1 q)² is written by both programs in the expanded form
  (x0² + x1²) + (y0 q² + y1 q²) − 2·(x0·y0 q + x1·y1 q). One program takes the minimum of D over the dynamic indices by
  replacing every other entry by +∞; the other adds a finite penalty B to every non-dynamic entry and takes the
  minimum over all indices. When 0 ≤ D q ≤ B for every q and at least one index is dynamic the two minima agree:
  a penalised entry is at least B, which is at least every dynamic entry.
-/
import Mathlib.Data.EReal.Basic
import Mathlib.Data.EReal.Operations
import Mathlib.Order.ConditionallyCompleteLattice.Basic
import Mathlib.Tactic.Ring
import Mathlib.Tactic.Linarith
import Mathlib.Tactic.Positivity

noncomputable section

namespace Cert.Nearest

/-- Penalty against mask: over a family of reals within [0, B], with some index selected, the infimum of the entries
    with B added off the selection is the infimum over the selection alone. -/
theorem iInf_penalty {ι : Type} (D : ι → ℝ) (sel : ι → Prop) [DecidablePred sel] (B : ℝ)
    (h0 : ∀ q, 0 ≤ D q) (hB : ∀ q, D q ≤ B) (hex : ∃ q, sel q) :
    (⨅ q, ((D q + (if sel q then 0 else B) : ℝ) : EReal)) = ⨅ q, if sel q then ((D q : ℝ) : EReal) else ⊤ := by
  apply le_antisymm
  · refine le_iInf fun q => ?_
    by_cases hq : sel q
    · rw [if_pos hq]
      refine (iInf_le _ q).trans ?_
      rw [if_pos hq, add_zero]
    · rw [if_neg hq]; exact le_top
  · refine le_iInf fun q => ?_
    by_cases hq : sel q
    · refine (iInf_le _ q).trans ?_
      rw [if_pos hq, if_pos hq, add_zero]
    · obtain ⟨q0, hq0⟩ := hex
      refine (iInf_le _ q0).trans ?_
      rw [if_pos hq0, if_neg hq, EReal.coe_le_coe_iff]
      linarith [h0 q, hB q0]

/-- The squared distance of two plane points whose coordinates are at most 2^31 in size is at most 2^66. -/
theorem sqdist_le (x0 x1 y0 y1 : ℝ) (hx0 : |x0| ≤ 2 ^ 31) (hx1 : |x1| ≤ 2 ^ 31) (hy0 : |y0| ≤ 2 ^ 31) (hy1 : |y1| ≤ 2 ^ 31) :
    (x0 - y0) ^ 2 + (x1 - y1) ^ 2 ≤ 2 ^ 66 := by
  have h0 : |x0 - y0| ≤ 2 ^ 32 := by
    calc |x0 - y0| ≤ |x0| + |y0| := abs_sub _ _
      _ ≤ 2 ^ 31 + 2 ^ 31 := add_le_add hx0 hy0
      _ = 2 ^ 32 := by norm_num
  have h1 : |x1 - y1| ≤ 2 ^ 32 := by
    calc |x1 - y1| ≤ |x1| + |y1| := abs_sub _ _
      _ ≤ 2 ^ 31 + 2 ^ 31 := add_le_add hx1 hy1
      _ = 2 ^ 32 := by norm_num
  have s0 : (x0 - y0) ^ 2 ≤ (2 ^ 32) ^ 2 := by
    rw [← sq_abs (x0 - y0)]; exact pow_le_pow_left₀ (abs_nonneg _) h0 2
  have s1 : (x1 - y1) ^ 2 ≤ (2 ^ 32) ^ 2 := by
    rw [← sq_abs (x1 - y1)]; exact pow_le_pow_left₀ (abs_nonneg _) h1 2
  calc (x0 - y0) ^ 2 + (x1 - y1) ^ 2 ≤ (2 ^ 32) ^ 2 + (2 ^ 32) ^ 2 := add_le_add s0 s1
    _ ≤ 2 ^ 66 := by norm_num

/-- The two expanded forms, over reals: the penalised minimum over all indices is the minimum over the selected ones. -/
theorem iInf_expanded {ι : Type} (x0 x1 : ℝ) (y0 y1 : ι → ℝ) (sel : ι → Prop) [DecidablePred sel] (B : ℝ)
    (hx0 : |x0| ≤ 2 ^ 31) (hx1 : |x1| ≤ 2 ^ 31) (hy0 : ∀ q, |y0 q| ≤ 2 ^ 31) (hy1 : ∀ q, |y1 q| ≤ 2 ^ 31)
    (hB : (2 : ℝ) ^ 70 ≤ B) (hex : ∃ q, sel q) :
    (⨅ q, ((((x0 * x0 + x1 * x1) + ((y0 q * y0 q + y1 q * y1 q) + (if sel q then 0 else B)))
        - 2 * (x0 * y0 q + x1 * y1 q) : ℝ) : EReal))
      = ⨅ q, if sel q then ((((x0 * x0 + x1 * x1) + (y0 q * y0 q + y1 q * y1 q)) - 2 * (x0 * y0 q + x1 * y1 q) : ℝ) : EReal) else ⊤ := by
  have hD : ∀ q, ((x0 * x0 + x1 * x1) + (y0 q * y0 q + y1 q * y1 q)) - 2 * (x0 * y0 q + x1 * y1 q)
      = (x0 - y0 q) ^ 2 + (x1 - y1 q) ^ 2 := fun q => by ring
  have h := iInf_penalty (fun q => (x0 - y0 q) ^ 2 + (x1 - y1 q) ^ 2) sel B
    (fun q => by positivity)
    (fun q => (sqdist_le x0 x1 (y0 q) (y1 q) hx0 hx1 (hy0 q) (hy1 q)).trans
      ((by norm_num : (2 : ℝ) ^ 66 ≤ 2 ^ 70).trans hB)) hex
  simp only [hD]
  rw [← h]
  refine iInf_congr fun q => ?_
  congr 1
  ring

end Cert.Nearest

end
-- ==== Proof.NearestE.lean ====
/-
  The two entries on the extended reals.

  With real coordinates embedded in the extended reals, one program's entry is
  sqrt(max(min_q [(x0² + x1²) + ((y0 q² + y1 q²) + penalty_q) − 2·(x0·y0 q + x1·y1 q)], 0))·h multiplied by 1 or 0,
  the other's is the same expression with +∞ in place of every non-selected entry and no penalty, selected against 0.
  If the multiplier is 1 only when some index is selected, the two agree: by the real-number statement when the
  multiplier is 1, and because every extended real times 0 is 0 when it is 0.
-/
import proofs.«161537_j24713241822141_1_alg».proof.Proof.Nearest
import Idealize.ShloMosaic.PureOps.Ideal

noncomputable section

namespace Cert.Nearest

open Idealize.ShloMosaic

/-- One penalised entry, as an embedded real. -/
theorem pen_entry_coe (x0 x1 y0 y1 B : ℝ) (s : Prop) [Decidable s] :
    (((x0 : EReal) * x0 + (x1 : EReal) * x1) + (((y0 : EReal) * y0 + (y1 : EReal) * y1) + (if s then ((0 : ℝ) : EReal) else (B : EReal))))
        - ((2 : ℝ) : EReal) * ((x0 : EReal) * y0 + (x1 : EReal) * y1)
      = ((((x0 * x0 + x1 * x1) + ((y0 * y0 + y1 * y1) + (if s then 0 else B))) - 2 * (x0 * y0 + x1 * y1) : ℝ) : EReal) := by
  by_cases hs : s
  · simp only [if_pos hs, EReal.coe_add, EReal.coe_mul, EReal.coe_sub]
  · simp only [if_neg hs, EReal.coe_add, EReal.coe_mul, EReal.coe_sub]

/-- One plain entry, as an embedded real. -/
theorem plain_entry_coe (x0 x1 y0 y1 : ℝ) :
    (((x0 : EReal) * x0 + (x1 : EReal) * x1) + ((y0 : EReal) * y0 + (y1 : EReal) * y1))
        - ((2 : ℝ) : EReal) * ((x0 : EReal) * y0 + (x1 : EReal) * y1)
      = ((((x0 * x0 + x1 * x1) + (y0 * y0 + y1 * y1)) - 2 * (x0 * y0 + x1 * y1) : ℝ) : EReal) := by
  simp only [EReal.coe_add, EReal.coe_mul, EReal.coe_sub]

/-- The penalised and the masked minimum on the extended reals. -/
theorem iInf_agree {ι : Type} (x0 x1 : ℝ) (y0 y1 : ι → ℝ) (sel : ι → Prop) [DecidablePred sel] (B : ℝ)
    (hx0 : |x0| ≤ 2 ^ 31) (hx1 : |x1| ≤ 2 ^ 31) (hy0 : ∀ q, |y0 q| ≤ 2 ^ 31) (hy1 : ∀ q, |y1 q| ≤ 2 ^ 31)
    (hB : (2 : ℝ) ^ 70 ≤ B) (hex : ∃ q, sel q) :
    (⨅ q, (((x0 : EReal) * x0 + (x1 : EReal) * x1) + (((y0 q : EReal) * y0 q + (y1 q : EReal) * y1 q) + (if sel q then ((0 : ℝ) : EReal) else (B : EReal))))
        - ((2 : ℝ) : EReal) * ((x0 : EReal) * y0 q + (x1 : EReal) * y1 q))
      = ⨅ q, if sel q then ((((x0 : EReal) * x0 + (x1 : EReal) * x1) + ((y0 q : EReal) * y0 q + (y1 q : EReal) * y1 q))
        - ((2 : ℝ) : EReal) * ((x0 : EReal) * y0 q + (x1 : EReal) * y1 q)) else ⊤ := by
  have h := iInf_expanded x0 x1 y0 y1 sel B hx0 hx1 hy0 hy1 hB hex
  calc _ = ⨅ q, ((((x0 * x0 + x1 * x1) + ((y0 q * y0 q + y1 q * y1 q) + (if sel q then 0 else B))) - 2 * (x0 * y0 q + x1 * y1 q) : ℝ) : EReal) :=
        iInf_congr fun q => pen_entry_coe x0 x1 (y0 q) (y1 q) B (sel q)
    _ = _ := h
    _ = _ := iInf_congr fun q => by
        by_cases hq : sel q
        · rw [if_pos hq, if_pos hq, plain_entry_coe]
        · rw [if_neg hq, if_neg hq]

/-- The two whole entries: the penalised one times a 1-or-0 multiplier, the masked one selected against 0. -/
theorem entries_agree {ι : Type} (x0 x1 : ℝ) (y0 y1 : ι → ℝ) (sel : ι → Prop) [DecidablePred sel] (B h : ℝ) (u : Prop) [Decidable u]
    (hx0 : |x0| ≤ 2 ^ 31) (hx1 : |x1| ≤ 2 ^ 31) (hy0 : ∀ q, |y0 q| ≤ 2 ^ 31) (hy1 : ∀ q, |y1 q| ≤ 2 ^ 31)
    (hB : (2 : ℝ) ^ 70 ≤ B) (hu : u → ∃ q, sel q) :
    (Ideal.sqrt (max (⨅ q, (((x0 : EReal) * x0 + (x1 : EReal) * x1) + (((y0 q : EReal) * y0 q + (y1 q : EReal) * y1 q) + (if sel q then ((0 : ℝ) : EReal) else (B : EReal))))
        - ((2 : ℝ) : EReal) * ((x0 : EReal) * y0 q + (x1 : EReal) * y1 q)) ((0 : ℝ) : EReal)) * (h : EReal))
        * (if u then ((1 : ℝ) : EReal) else ((0 : ℝ) : EReal))
      = if u then (Ideal.sqrt (max (⨅ q, if sel q then ((((x0 : EReal) * x0 + (x1 : EReal) * x1) + ((y0 q : EReal) * y0 q + (y1 q : EReal) * y1 q))
        - ((2 : ℝ) : EReal) * ((x0 : EReal) * y0 q + (x1 : EReal) * y1 q)) else ⊤) ((0 : ℝ) : EReal)) * (h : EReal)) else ((0 : ℝ) : EReal) := by
  by_cases hu' : u
  · rw [if_pos hu', if_pos hu', EReal.coe_one, mul_one,
      iInf_agree x0 x1 y0 y1 sel B hx0 hx1 hy0 hy1 hB (hu hu')]
  · rw [if_neg hu', if_neg hu', EReal.coe_zero, mul_zero]

end Cert.Nearest

end
-- ==== Proof.Glue.lean ====
/-
  The two entries of the nearest-point distance, as terms of the float operations at the extended-real instance, and the
  statement that joins them: with integer coordinates converted to floats, the penalised entry times its 1-or-0
  multiplier equals the masked entry selected against 0. Every float operation is the extended reals' own, the converted
  words are embedded integers of absolute value at most 2^31, the penalty word denotes a real at least 2^70 and the
  scale word a real; the statement on the extended reals then applies.
-/
import proofs.«161537_j24713241822141_1_alg».proof.Proof.Bounds
import proofs.«161537_j24713241822141_1_alg».proof.Proof.NearestE
import Idealize.ShloMosaic.PureOps.Ideal

noncomputable section

namespace Cert.Nearest.Glue

open Idealize.ShloMosaic

/-- The penalised entry: sqrt(max(min_q [(a0² + a1²) + bias_q − 2·(a0·bx q + a1·bz q)], 0)) · scale. -/
def entryK (a0 a1 : Ideal .f32) (bx bz bias : Fin 2048 → Ideal .f32) : Ideal .f32 :=
  FloatOps.mulf (FloatOps.sqrt (FloatOps.maximumf ((⨅ q : Fin 2048, (FloatOps.subf (FloatOps.addf (FloatOps.addf (FloatOps.mulf a0 a0) (FloatOps.mulf a1 a1)) (bias q)) (FloatOps.mulf (FloatOps.ofBits .f32 0x40000000#32) (FloatOps.addf (FloatOps.mulf a0 (bx q)) (FloatOps.mulf a1 (bz q)))) : EReal)) : Ideal .f32) (FloatOps.ofBits .f32 0x00000000#32))) (FloatOps.ofBits .f32 0x3C23D70A#32)

/-- The masked entry: the same with +∞ at every non-selected index and no penalty. -/
def entryR (a0 a1 : Ideal .f32) (y0 y1 : Fin 2048 → Ideal .f32) (mk : Fin 2048 → BitVec 1) : Ideal .f32 :=
  FloatOps.mulf (FloatOps.sqrt (FloatOps.maximumf ((⨅ q : Fin 2048, (Scalar.select (mk q) (FloatOps.subf (FloatOps.addf (FloatOps.addf (FloatOps.mulf a0 a0) (FloatOps.mulf a1 a1)) (FloatOps.addf (FloatOps.mulf (y0 q) (y0 q)) (FloatOps.mulf (y1 q) (y1 q)))) (FloatOps.mulf (FloatOps.ofBits .f32 0x40000000#32) (FloatOps.addf (FloatOps.mulf a0 (y0 q)) (FloatOps.mulf a1 (y1 q))))) (⊤ : EReal) : EReal)) : Ideal .f32) (FloatOps.ofBits .f32 0x00000000#32))) (FloatOps.ofBits .f32 0x3C23D70A#32)

/-- The kernel's entry times its 1-or-0 multiplier is the reference's entry selected against 0. -/
theorem glue (x0 x1 : BitVec 32) (y0 y1 : Fin 2048 → BitVec 32) (mk : Fin 2048 → BitVec 1) (u : BitVec 1) (hu : u = 1#1 → ∃ q, mk q = 1#1) :
    FloatOps.mulf (entryK (FloatOps.sitofp .f32 x0) (FloatOps.sitofp .f32 x1) (fun q => FloatOps.sitofp .f32 (y0 q)) (fun q => FloatOps.sitofp .f32 (y1 q))
        (fun q => FloatOps.addf (FloatOps.addf (FloatOps.mulf (FloatOps.sitofp .f32 (y0 q)) (FloatOps.sitofp .f32 (y0 q))) (FloatOps.mulf (FloatOps.sitofp .f32 (y1 q)) (FloatOps.sitofp .f32 (y1 q)))) (Scalar.select (mk q) (FloatOps.ofBits .f32 0x00000000#32) (FloatOps.ofBits .f32 0x7149F2CA#32))))
      (FloatOps.uitofp .f32 u)
    = Scalar.select u (entryR (FloatOps.sitofp .f32 x0) (FloatOps.sitofp .f32 x1) (fun q => FloatOps.sitofp .f32 (y0 q)) (fun q => FloatOps.sitofp .f32 (y1 q)) mk) (FloatOps.ofBits .f32 0x00000000#32) := by
  obtain ⟨B, hB, hBge⟩ := Bounds.big_val
  obtain ⟨h, hh⟩ := Bounds.hundredth_val
  have key := entries_agree (x0.toInt : ℝ) (x1.toInt : ℝ) (fun q => ((y0 q).toInt : ℝ)) (fun q => ((y1 q).toInt : ℝ))
    (fun q => mk q = 1#1) B h (u = 1#1) (Bounds.toInt_abs_le x0) (Bounds.toInt_abs_le x1)
    (fun q => Bounds.toInt_abs_le (y0 q)) (fun q => Bounds.toInt_abs_le (y1 q)) hBge hu
  unfold entryK entryR Scalar.select
  simp only [Bounds.uitofp_bit, Bounds.sitofp_coe, Bounds.two_val, Bounds.zero_val, hB, hh, Ideal.mulf_def, Ideal.addf_def,
    Ideal.subf_def, Ideal.maximumf_def, Ideal.sqrt_def]
  exact key

end Cert.Nearest.Glue

end
-- ==== Proof.Entries.lean ====
/-
  One entry of each result, kernel against reference.

  At entry (i, j) the kernel's result is its tile entry for row 9·i + j times the 1-or-0 count test, the tile entry
  taken at the contents the host stretches leave in the regions' input arrays; the reference's is its own entry for the
  same row selected against 0 by the same count test. The coordinates on both sides are the same 32-bit integers
  converted to floats, the mask bits are the same bits, so the two entries are the two sides of the penalised-against-
  masked minimum, and the count test exceeding 1 gives the dynamic voxel that statement needs.
-/
import proofs.«161537_j24713241822141_1_alg».proof.Proof.KernelTile
import proofs.«161537_j24713241822141_1_alg».proof.Proof.KernelHost
import proofs.«161537_j24713241822141_1_alg».proof.Proof.KernelHostIn
import proofs.«161537_j24713241822141_1_alg».proof.Proof.RefStage
import proofs.«161537_j24713241822141_1_alg».proof.Proof.Chains
import proofs.«161537_j24713241822141_1_alg».proof.Proof.Glue
import proofs.«161537_j24713241822141_1_alg».proof.Proof.Bounds

noncomputable section

namespace Cert.Proof.Entries

open Idealize.ShloMosaic Idealize.ShloMosaic.TcCoe Idealize.ShloMosaic.ValueIdx Idealize.SL.Sem Cert.Nearest
open Cert.KernelIdeal Cert.KernelIdeal.Gen Cert.KernelIdeal.HostVal

variable (m : (ℓ : Loc nD τ sig) → Buf (Elt Ideal) ℓ) (ρ : Dev nD → PrngReg)

/-- If the count test holds, some voxel is dynamic. -/
theorem dynamic_of_use (mk : IVec S2048 1) (h : useK mk ix0 = 1#1) : ∃ q : Fin 2048, mk (ix1 q) = 1#1 :=
  Cert.Nearest.Bounds.exists_of_count reducesTo_S2048_S_d0 h_S_ natLt_1_32 mk h

/-- Entry (i, j) of the first result: the kernel's value is the reference's function of the same chains. -/
theorem li_entry (c : Dev nD) (i : Fin 8192) (j : Fin 9) :
    W10 m ρ c (Proc.devRef .tc main_v45) (ix2 i j)
      = Cert.ReferenceIdeal.Stage.liOut (F := Ideal)
          (nbLiK (m ((c : Thread nD τ).loc main_arg0)))
          (sitofp .f32 (dyK (m ((c : Thread nD τ).loc main_arg3))))
          (maskK (F := Ideal) (m ((c : Thread nD τ).loc main_arg2))) (ix2 i j) := by
  rw [W10_v45, Cert.KernelIdeal.Tile.final0, Cert.ReferenceIdeal.Stage.liOut_apply]
  rw [Cert.KernelIdeal.Tile.entryK_congr (congrFun (V7_v29 m ρ c) (ix2 (rowLi i j) 0)) (congrFun (V7_v29 m ρ c) (ix2 (rowLi i j) 1))
    (fun q => (V7_v22 m ρ c q).1) (fun q => (V7_v22 m ρ c q).2) (fun q => V7_v19 m ρ c q)]
  exact Cert.Nearest.Glue.glue _ _ _ _ _ _ (dynamic_of_use _)

/-- Entry (i, j) of the second result. -/
theorem ra_entry (c : Dev nD) (i : Fin 2048) (j : Fin 9) :
    W10 m ρ c (Proc.devRef .tc main_v48) (ix2 i j)
      = Cert.ReferenceIdeal.Stage.raOut (F := Ideal)
          (nbRaK (m ((c : Thread nD τ).loc main_arg1)))
          (sitofp .f32 (dyK (m ((c : Thread nD τ).loc main_arg3))))
          (maskK (F := Ideal) (m ((c : Thread nD τ).loc main_arg2))) (ix2 i j) := by
  rw [W10_v48, Cert.KernelIdeal.Tile.final1, Cert.ReferenceIdeal.Stage.raOut_apply]
  rw [Cert.KernelIdeal.Tile.entryK_congr (congrFun (V8_v36 m ρ c) (ix2 (rowRa i j) 0)) (congrFun (V8_v36 m ρ c) (ix2 (rowRa i j) 1))
    (fun q => (V8_v22 m ρ c q).1) (fun q => (V8_v22 m ρ c q).2) (fun q => V8_v19 m ρ c q)]
  exact Cert.Nearest.Glue.glue _ _ _ _ _ _ (dynamic_of_use _)

/-- The first result array, whole: the reference's function of the kernel program's chains. -/
theorem li_result (c : Dev nD) :
    (W10 m ρ c (Proc.devRef .tc main_v45) : S8192x9.Idx → Ideal .f32)
      = Cert.ReferenceIdeal.Stage.liOut (F := Ideal)
          (nbLiK (m ((c : Thread nD τ).loc main_arg0)))
          (sitofp .f32 (dyK (m ((c : Thread nD τ).loc main_arg3))))
          (maskK (F := Ideal) (m ((c : Thread nD τ).loc main_arg2))) := by
  funext idx
  obtain ⟨i, j, rfl⟩ : ∃ (i : Fin 8192) (j : Fin 9), idx = ix2 i j := ⟨idx 0, idx 1, eq_ix2 idx⟩
  exact li_entry m ρ c i j

/-- The second result array, whole. -/
theorem ra_result (c : Dev nD) :
    (W10 m ρ c (Proc.devRef .tc main_v48) : S2048x9.Idx → Ideal .f32)
      = Cert.ReferenceIdeal.Stage.raOut (F := Ideal)
          (nbRaK (m ((c : Thread nD τ).loc main_arg1)))
          (sitofp .f32 (dyK (m ((c : Thread nD τ).loc main_arg3))))
          (maskK (F := Ideal) (m ((c : Thread nD τ).loc main_arg2))) := by
  funext idx
  obtain ⟨i, j, rfl⟩ : ∃ (i : Fin 2048) (j : Fin 9), idx = ix2 i j := ⟨idx 0, idx 1, eq_ix2 idx⟩
  exact ra_entry m ρ c i j

/-- The reference's first result over its own chains of arrays equal to the kernel program's arguments is the same
    function over the kernel program's chains: the chains are the same terms. -/
theorem li_bridge (a0' a0 : IVec S8192x2 32) (a2' a2 : FVec Ideal S2048x5 .f32) (a3' a3 : IVec S2048x3 32)
    (h0 : a0' = a0) (h2 : a2' = a2) (h3 : a3' = a3) :
    Cert.ReferenceIdeal.Stage.liOut (F := Ideal) (Cert.ReferenceIdeal.Run.nbLiR a0') (sitofp .f32 (Cert.ReferenceIdeal.Run.dyR a3'))
        (Cert.ReferenceIdeal.Run.maskR (F := Ideal) a2')
      = Cert.ReferenceIdeal.Stage.liOut (F := Ideal) (nbLiK a0) (sitofp .f32 (dyK a3)) (maskK (F := Ideal) a2) := by
  subst h0 h2 h3
  rw [Cert.Nearest.Chains.nbLi_eq, Cert.Nearest.Chains.dy_eq, Cert.Nearest.Chains.mask_eq]

/-- The same for the second result. -/
theorem ra_bridge (a1' a1 : IVec S2048x2 32) (a2' a2 : FVec Ideal S2048x5 .f32) (a3' a3 : IVec S2048x3 32)
    (h1 : a1' = a1) (h2 : a2' = a2) (h3 : a3' = a3) :
    Cert.ReferenceIdeal.Stage.raOut (F := Ideal) (Cert.ReferenceIdeal.Run.nbRaR a1') (sitofp .f32 (Cert.ReferenceIdeal.Run.dyR a3'))
        (Cert.ReferenceIdeal.Run.maskR (F := Ideal) a2')
      = Cert.ReferenceIdeal.Stage.raOut (F := Ideal) (nbRaK a1) (sitofp .f32 (dyK a3)) (maskK (F := Ideal) a2) := by
  subst h1 h2 h3
  rw [Cert.Nearest.Chains.nbRa_eq, Cert.Nearest.Chains.dy_eq, Cert.Nearest.Chains.mask_eq]

end Cert.Proof.Entries

end
-- ==== Proof.RefTail.lean ====
/-
  The tail of the reference program, read back in short stretches.

  After the two wrapped neighbour tables the reference counts the mask bits and then, for each point set, forms the
  squared norms (sums over the two coordinates), the cross products, the table of squared distances, masks it,
  takes the minimum over the voxels, clamps, takes the root, scales, reshapes and selects by the count. The tail is
  cut after each sum, product and minimum, each stretch is read over arbitrary contents, and the stretches are chained:
  the result buffers hold the stage functions of the neighbour table, the voxel coordinates and the mask.
-/
import proofs.«161537_j24713241822141_1_alg».proof.Proof.RefRun
import proofs.«161537_j24713241822141_1_alg».proof.Proof.RefStage
import Idealize.ShloMosaic.Lib.StableHlo.Run

set_option maxRecDepth 8192

noncomputable section

namespace Cert.ReferenceIdeal.Tail

open Cert.ReferenceIdeal Cert.ReferenceIdeal.Gen Idealize.ShloMosaic Idealize.ShloMosaic.TcCoe Idealize.SL.Sem Idealize.ShloMosaic.StableHlo
open Cert.ReferenceIdeal.Run

variable {F : FTy → Type} [FloatOps F]

/-- Two lines run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The stretches -/

abbrev tA : List (HloOp τ sig (Elt F)) :=
  [ unary main_v4 main_v19 ((extui 32 · natLt_1_32) : (⟨S2048, .i1⟩ : BufTy).Contents (Elt F) → (⟨S2048, .i32⟩ : BufTy).Contents (Elt F)),
    nullary main_c_1 (constantI S_ 32 0#32),
    binary main_v19 main_c_1 main_v20 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    nullary main_c_2 (constantI S_ 32 1#32),
    binary main_v20 main_c_2 main_v21 (cmpi .sgt : (⟨S_, .i32⟩ : BufTy).Contents (Elt F) → (⟨S_, .i32⟩ : BufTy).Contents (Elt F) → (⟨S_, .i1⟩ : BufTy).Contents (Elt F)) ]
abbrev tL1 : List (HloOp τ sig (Elt F)) :=
  [ reshape main_v12 main_v22 rfl shapeCasts_S8192x9x2_S73728x2,
    unary main_v22 main_v23 (sitofp .f32 : (⟨S73728x2, .i32⟩ : BufTy).Contents (Elt F) → (⟨S73728x2, .f32⟩ : BufTy).Contents (Elt F)),
    binary main_v23 main_v23 main_v24 (mulf : (⟨S73728x2, .f32⟩ : BufTy).Contents (Elt F) → (⟨S73728x2, .f32⟩ : BufTy).Contents (Elt F) → (⟨S73728x2, .f32⟩ : BufTy).Contents (Elt F)),
    nullary main_cst_3 (constant S_ .f32 0x00000000#32),
    binary main_v24 main_cst_3 main_v25 ((fun x v => Host.reduceAdd x v reducesTo_S73728x2_S73728_d1 h_S_) : (⟨S73728x2, .f32⟩ : BufTy).Contents (Elt F) → (⟨S_, .f32⟩ : BufTy).Contents (Elt F) → (⟨S73728, .f32⟩ : BufTy).Contents (Elt F)) ]
abbrev tL2 : List (HloOp τ sig (Elt F)) :=
  [ binary main_v6 main_v6 main_v26 (mulf : (⟨S2048x2, .f32⟩ : BufTy).Contents (Elt F) → (⟨S2048x2, .f32⟩ : BufTy).Contents (Elt F) → (⟨S2048x2, .f32⟩ : BufTy).Contents (Elt F)),
    nullary main_cst_4 (constant S_ .f32 0x00000000#32),
    binary main_v26 main_cst_4 main_v27 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)) ]
abbrev tL3 : List (HloOp τ sig (Elt F)) :=
  [ unary main_v25 main_v28 (broadcastInDim S73728x1 ![0] bcast_S73728_S73728x1_0 : (⟨S73728, .f32⟩ : BufTy).Contents (Elt F) → (⟨S73728x1, .f32⟩ : BufTy).Contents (Elt F)),
    unary main_v27 main_v29 (broadcastInDim S1x2048 ![1] bcast_S2048_S1x2048_1 : (⟨S2048, .f32⟩ : BufTy).Contents (Elt F) → (⟨S1x2048, .f32⟩ : BufTy).Contents (Elt F)),
    unary main_v28 main_v30 (broadcastInDim S73728x2048 ![0, 1] bcast_S73728x1_S73728x2048_0_1 : (⟨S73728x1, .f32⟩ : BufTy).Contents (Elt F) → (⟨S73728x2048, .f32⟩ : BufTy).Contents (Elt F)),
    unary main_v29 main_v31 (broadcastInDim S73728x2048 ![0, 1] bcast_S1x2048_S73728x2048_0_1 : (⟨S1x2048, .f32⟩ : BufTy).Contents (Elt F) → (⟨S73728x2048, .f32⟩ : BufTy).Contents (Elt F)),
    binary main_v30 main_v31 main_v32 (addf : (⟨S73728x2048, .f32⟩ : BufTy).Contents (Elt F) → (⟨S73728x2048, .f32⟩ : BufTy).Contents (Elt F) → (⟨S73728x2048, .f32⟩ : BufTy).Contents (Elt F)),
    unary main_v6 main_v33 ((transpose S2x2048 [1, 0] · transposes_S2048x2_S2x2048_1_0) : (⟨S2048x2, .f32⟩ : BufTy).Contents (Elt F) → (⟨S2x2048, .f32⟩ : BufTy).Contents (Elt F)),
    binary main_v23 main_v33 main_v34 ((fun l r => Host.dotGeneral dot_S73728x2_S2x2048_S73728x2048_1_0_0_1_n_n none l r) : (⟨S73728x2, .f32⟩ : BufTy).Contents (Elt F) → (⟨S2x2048, .f32⟩ : BufTy).Contents (Elt F) → (⟨S73728x2048, .f32⟩ : BufTy).Contents (Elt F)) ]
abbrev tL4 : List (HloOp τ sig (Elt F)) :=
  [ nullary main_cst_5 (constant S_ .f32 0x40000000#32),
    unary main_cst_5 main_v35 (broadcastInDim S73728x2048 ![] bcast_S_S73728x2048 : (⟨S_, .f32⟩ : BufTy).Contents (Elt F) → (⟨S73728x2048, .f32⟩ : BufTy).Contents (Elt F)),
    binary main_v35 main_v34 main_v36 (mulf : (⟨S73728x2048, .f32⟩ : BufTy).Contents (Elt F) → (⟨S73728x2048, .f32⟩ : BufTy).Contents (Elt F) → (⟨S73728x2048, .f32⟩ : BufTy).Contents (Elt F)),
    binary main_v32 main_v36 main_v37 (subf : (⟨S73728x2048, .f32⟩ : BufTy).Contents (Elt F) → (⟨S73728x2048, .f32⟩ : BufTy).Contents (Elt F) → (⟨S73728x2048, .f32⟩ : BufTy).Contents (Elt F)) ]
abbrev tL5 : List (HloOp τ sig (Elt F)) :=
  [ unary main_v4 main_v38 (broadcastInDim S1x2048 ![1] bcast_S2048_S1x2048_1 : (⟨S2048, .i1⟩ : BufTy).Contents (Elt F) → (⟨S1x2048, .i1⟩ : BufTy).Contents (Elt F)),
    nullary main_cst_6 (constant S_ .f32 0x7F800000#32),
    TRef.unary (TRef.of main_cst_6 : TRef sig ⟨S_, .f32⟩) main_call2.v0 id,
    TRef.unary (TRef.of main_v38 : TRef sig ⟨S1x2048, .i1⟩) main_call2.v1 (broadcastInDim S73728x2048 ![0, 1] bcast_S1x2048_S73728x2048_0_1),
    TRef.unary main_call2.v0 main_call2.v2 (broadcastInDim S73728x2048 ![] bcast_S_S73728x2048),
    TRef.ternary main_call2.v1 (TRef.of main_v37 : TRef sig ⟨S73728x2048, .f32⟩) main_call2.v2 main_call2.v3 select ]
abbrev tL6 : List (HloOp τ sig (Elt F)) :=
  [ nullary main_cst_7 (constant S_ .f32 0x7F800000#32),
    binary main_v39 main_cst_7 main_v40 ((fun x v => Host.reduce FloatOps.minimumf x v reducesTo_S73728x2048_S73728_d1 h_S_) : (⟨S73728x2048, .f32⟩ : BufTy).Contents (Elt F) → (⟨S_, .f32⟩ : BufTy).Contents (Elt F) → (⟨S73728, .f32⟩ : BufTy).Contents (Elt F)) ]
abbrev tL7 : List (HloOp τ sig (Elt F)) :=
  [ nullary main_cst_8 (constant S_ .f32 0x00000000#32),
    unary main_cst_8 main_v41 (broadcastInDim S73728 ![] bcast_S_S73728 : (⟨S_, .f32⟩ : BufTy).Contents (Elt F) → (⟨S73728, .f32⟩ : BufTy).Contents (Elt F)),
    binary main_v40 main_v41 main_v42 (maximumf : (⟨S73728, .f32⟩ : BufTy).Contents (Elt F) → (⟨S73728, .f32⟩ : BufTy).Contents (Elt F) → (⟨S73728, .f32⟩ : BufTy).Contents (Elt F)),
    unary main_v42 main_v43 (Host.sqrt : (⟨S73728, .f32⟩ : BufTy).Contents (Elt F) → (⟨S73728, .f32⟩ : BufTy).Contents (Elt F)),
    nullary main_cst_9 (constant S_ .f32 0x3C23D70A#32),
    unary main_cst_9 main_v44 (broadcastInDim S73728 ![] bcast_S_S73728 : (⟨S_, .f32⟩ : BufTy).Contents (Elt F) → (⟨S73728, .f32⟩ : BufTy).Contents (Elt F)),
    binary main_v43 main_v44 main_v45 (mulf : (⟨S73728, .f32⟩ : BufTy).Contents (Elt F) → (⟨S73728, .f32⟩ : BufTy).Contents (Elt F) → (⟨S73728, .f32⟩ : BufTy).Contents (Elt F)),
    reshape main_v45 main_v46 rfl shapeCasts_S73728_S8192x9 ]
abbrev tL8 : List (HloOp τ sig (Elt F)) :=
  [ nullary main_cst_10 (constant S_ .f32 0x00000000#32),
    TRef.unary (TRef.of main_cst_10 : TRef sig ⟨S_, .f32⟩) main_call3.v0 id,
    TRef.unary main_call3.v0 main_call3.v1 (broadcastInDim S8192x9 ![] bcast_S_S8192x9),
    TRef.ternary (TRef.of main_v21 : TRef sig ⟨S_, .i1⟩) (TRef.of main_v46 : TRef sig ⟨S8192x9, .f32⟩) main_call3.v1 main_call3.v2 (fun p a b => select (broadcastInDim S8192x9 ![] bcast_S_S8192x9 p) a b) ]
abbrev tR1 : List (HloOp τ sig (Elt F)) :=
  [ reshape main_v18 main_v48 rfl shapeCasts_S2048x9x2_S18432x2,
    unary main_v48 main_v49 (sitofp .f32 : (⟨S18432x2, .i32⟩ : BufTy).Contents (Elt F) → (⟨S18432x2, .f32⟩ : BufTy).Contents (Elt F)),
    binary main_v49 main_v49 main_v50 (mulf : (⟨S18432x2, .f32⟩ : BufTy).Contents (Elt F) → (⟨S18432x2, .f32⟩ : BufTy).Contents (Elt F) → (⟨S18432x2, .f32⟩ : BufTy).Contents (Elt F)),
    nullary main_cst_11 (constant S_ .f32 0x00000000#32),
    binary main_v50 main_cst_11 main_v51 ((fun x v => Host.reduceAdd x v reducesTo_S18432x2_S18432_d1 h_S_) : (⟨S18432x2, .f32⟩ : BufTy).Contents (Elt F) → (⟨S_, .f32⟩ : BufTy).Contents (Elt F) → (⟨S18432, .f32⟩ : BufTy).Contents (Elt F)) ]
abbrev tR2 : List (HloOp τ sig (Elt F)) :=
  [ binary main_v6 main_v6 main_v52 (mulf : (⟨S2048x2, .f32⟩ : BufTy).Contents (Elt F) → (⟨S2048x2, .f32⟩ : BufTy).Contents (Elt F) → (⟨S2048x2, .f32⟩ : BufTy).Contents (Elt F)),
    nullary main_cst_12 (constant S_ .f32 0x00000000#32),
    binary main_v52 main_cst_12 main_v53 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F)) ]
abbrev tR3 : List (HloOp τ sig (Elt F)) :=
  [ unary main_v51 main_v54 (broadcastInDim S18432x1 ![0] bcast_S18432_S18432x1_0 : (⟨S18432, .f32⟩ : BufTy).Contents (Elt F) → (⟨S18432x1, .f32⟩ : BufTy).Contents (Elt F)),
    unary main_v53 main_v55 (broadcastInDim S1x2048 ![1] bcast_S2048_S1x2048_1 : (⟨S2048, .f32⟩ : BufTy).Contents (Elt F) → (⟨S1x2048, .f32⟩ : BufTy).Contents (Elt F)),
    unary main_v54 main_v56 (broadcastInDim S18432x2048 ![0, 1] bcast_S18432x1_S18432x2048_0_1 : (⟨S18432x1, .f32⟩ : BufTy).Contents (Elt F) → (⟨S18432x2048, .f32⟩ : BufTy).Contents (Elt F)),
    unary main_v55 main_v57 (broadcastInDim S18432x2048 ![0, 1] bcast_S1x2048_S18432x2048_0_1 : (⟨S1x2048, .f32⟩ : BufTy).Contents (Elt F) → (⟨S18432x2048, .f32⟩ : BufTy).Contents (Elt F)),
    binary main_v56 main_v57 main_v58 (addf : (⟨S18432x2048, .f32⟩ : BufTy).Contents (Elt F) → (⟨S18432x2048, .f32⟩ : BufTy).Contents (Elt F) → (⟨S18432x2048, .f32⟩ : BufTy).Contents (Elt F)),
    unary main_v6 main_v59 ((transpose S2x2048 [1, 0] · transposes_S2048x2_S2x2048_1_0) : (⟨S2048x2, .f32⟩ : BufTy).Contents (Elt F) → (⟨S2x2048, .f32⟩ : BufTy).Contents (Elt F)),
    binary main_v49 main_v59 main_v60 ((fun l r => Host.dotGeneral dot_S18432x2_S2x2048_S18432x2048_1_0_0_1_n_n none l r) : (⟨S18432x2, .f32⟩ : BufTy).Contents (Elt F) → (⟨S2x2048, .f32⟩ : BufTy).Contents (Elt F) → (⟨S18432x2048, .f32⟩ : BufTy).Contents (Elt F)) ]
abbrev tR4 : List (HloOp τ sig (Elt F)) :=
  [ nullary main_cst_13 (constant S_ .f32 0x40000000#32),
    unary main_cst_13 main_v61 (broadcastInDim S18432x2048 ![] bcast_S_S18432x2048 : (⟨S_, .f32⟩ : BufTy).Contents (Elt F) → (⟨S18432x2048, .f32⟩ : BufTy).Contents (Elt F)),
    binary main_v61 main_v60 main_v62 (mulf : (⟨S18432x2048, .f32⟩ : BufTy).Contents (Elt F) → (⟨S18432x2048, .f32⟩ : BufTy).Contents (Elt F) → (⟨S18432x2048, .f32⟩ : BufTy).Contents (Elt F)),
    binary main_v58 main_v62 main_v63 (subf : (⟨S18432x2048, .f32⟩ : BufTy).Contents (Elt F) → (⟨S18432x2048, .f32⟩ : BufTy).Contents (Elt F) → (⟨S18432x2048, .f32⟩ : BufTy).Contents (Elt F)) ]
abbrev tR5 : List (HloOp τ sig (Elt F)) :=
  [ unary main_v4 main_v64 (broadcastInDim S1x2048 ![1] bcast_S2048_S1x2048_1 : (⟨S2048, .i1⟩ : BufTy).Contents (Elt F) → (⟨S1x2048, .i1⟩ : BufTy).Contents (Elt F)),
    nullary main_cst_14 (constant S_ .f32 0x7F800000#32),
    TRef.unary (TRef.of main_cst_14 : TRef sig ⟨S_, .f32⟩) main_call4.v0 id,
    TRef.unary (TRef.of main_v64 : TRef sig ⟨S1x2048, .i1⟩) main_call4.v1 (broadcastInDim S18432x2048 ![0, 1] bcast_S1x2048_S18432x2048_0_1),
    TRef.unary main_call4.v0 main_call4.v2 (broadcastInDim S18432x2048 ![] bcast_S_S18432x2048),
    TRef.ternary main_call4.v1 (TRef.of main_v63 : TRef sig ⟨S18432x2048, .f32⟩) main_call4.v2 main_call4.v3 select ]
abbrev tR6 : List (HloOp τ sig (Elt F)) :=
  [ nullary main_cst_15 (constant S_ .f32 0x7F800000#32),
    binary main_v65 main_cst_15 main_v66 ((fun x v => Host.reduce FloatOps.minimumf x v reducesTo_S18432x2048_S18432_d1 h_S_) : (⟨S18432x2048, .f32⟩ : BufTy).Contents (Elt F) → (⟨S_, .f32⟩ : BufTy).Contents (Elt F) → (⟨S18432, .f32⟩ : BufTy).Contents (Elt F)) ]
abbrev tR7 : List (HloOp τ sig (Elt F)) :=
  [ nullary main_cst_16 (constant S_ .f32 0x00000000#32),
    unary main_cst_16 main_v67 (broadcastInDim S18432 ![] bcast_S_S18432 : (⟨S_, .f32⟩ : BufTy).Contents (Elt F) → (⟨S18432, .f32⟩ : BufTy).Contents (Elt F)),
    binary main_v66 main_v67 main_v68 (maximumf : (⟨S18432, .f32⟩ : BufTy).Contents (Elt F) → (⟨S18432, .f32⟩ : BufTy).Contents (Elt F) → (⟨S18432, .f32⟩ : BufTy).Contents (Elt F)),
    unary main_v68 main_v69 (Host.sqrt : (⟨S18432, .f32⟩ : BufTy).Contents (Elt F) → (⟨S18432, .f32⟩ : BufTy).Contents (Elt F)),
    nullary main_cst_17 (constant S_ .f32 0x3C23D70A#32),
    unary main_cst_17 main_v70 (broadcastInDim S18432 ![] bcast_S_S18432 : (⟨S_, .f32⟩ : BufTy).Contents (Elt F) → (⟨S18432, .f32⟩ : BufTy).Contents (Elt F)),
    binary main_v69 main_v70 main_v71 (mulf : (⟨S18432, .f32⟩ : BufTy).Contents (Elt F) → (⟨S18432, .f32⟩ : BufTy).Contents (Elt F) → (⟨S18432, .f32⟩ : BufTy).Contents (Elt F)),
    reshape main_v71 main_v72 rfl shapeCasts_S18432_S2048x9 ]
abbrev tR8 : List (HloOp τ sig (Elt F)) :=
  [ nullary main_cst_18 (constant S_ .f32 0x00000000#32),
    TRef.unary (TRef.of main_cst_18 : TRef sig ⟨S_, .f32⟩) main_call5.v0 id,
    TRef.unary main_call5.v0 main_call5.v1 (broadcastInDim S2048x9 ![] bcast_S_S2048x9),
    TRef.ternary (TRef.of main_v21 : TRef sig ⟨S_, .i1⟩) (TRef.of main_v72 : TRef sig ⟨S2048x9, .f32⟩) main_call5.v1 main_call5.v2 (fun p a b => select (broadcastInDim S2048x9 ![] bcast_S_S2048x9 p) a b) ]

/-- The tail is the stretches in order. -/
theorem tail_eq : (ops.drop 68 : List (HloOp τ sig (Elt F)))
    = tA ++ ((tL1 ++ (tL2 ++ (tL3 ++ (tL4 ++ (tL5 ++ (tL6 ++ (tL7 ++ tL8))))))) ++ (tR1 ++ (tR2 ++ (tR3 ++ (tR4 ++ (tR5 ++ (tR6 ++ (tR7 ++ tR8)))))))) := by
  simp only [ops, List.drop_succ_cons, List.drop_zero]
  rfl

/-! ## Each stretch over arbitrary contents -/

/-- A buffer a line does not write keeps its contents. -/
local macro "not_written" : tactic =>
  `(tactic| exact after_of_forall_not_mem _ _ (List.forall_iff_forall_mem.mp (by
      simp only [tA, tL1, tL2, tL3, tL4, tL5, tL6, tL7, tL8, tR1, tR2, tR3, tR4, tR5, tR6, tR7, tR8,
        List.cons_append, List.nil_append, List.append_nil, List.Forall, nullary_writes, unary_writes, binary_writes,
        ternary_writes, reshape_writes, Finset.mem_singleton]
      repeat' apply And.intro
      all_goals exact devRef_ne_of_ne (by decide))))

section Stretches
variable (V : Valuation τ sig (Elt F))

theorem sA_v21 : after tA V (main_v21 : DevRef τ sig) = Stage.useR (V (main_v4 : DevRef τ sig)) := by
  dsimp only [tA]; after_results <;> rfl
theorem sL_v23 : after tL1 V (main_v23 : DevRef τ sig)
    = sitofp .f32 (shapeCast S73728x2 (V (main_v12 : DevRef τ sig)) shapeCasts_S8192x9x2_S73728x2) := by
  dsimp only [tL1]; after_results <;> rfl
theorem sL_v25 : after tL1 V (main_v25 : DevRef τ sig)
    = Host.reduceAdd (mulf (sitofp .f32 (shapeCast S73728x2 (V (main_v12 : DevRef τ sig)) shapeCasts_S8192x9x2_S73728x2)) (sitofp .f32 (shapeCast S73728x2 (V (main_v12 : DevRef τ sig)) shapeCasts_S8192x9x2_S73728x2))) (constant S_ .f32 0x00000000#32) reducesTo_S73728x2_S73728_d1 h_S_ := by
  dsimp only [tL1]; after_results <;> rfl
theorem sL_v27 : after tL2 V (main_v27 : DevRef τ sig)
    = Host.reduceAdd (mulf (V (main_v6 : DevRef τ sig)) (V (main_v6 : DevRef τ sig))) (constant S_ .f32 0x00000000#32) reducesTo_S2048x2_S2048_d1 h_S_ := by
  dsimp only [tL2]; after_results <;> rfl
theorem sL_v32 : after tL3 V (main_v32 : DevRef τ sig)
    = addf (broadcastInDim S73728x2048 ![0, 1] bcast_S73728x1_S73728x2048_0_1 (broadcastInDim S73728x1 ![0] bcast_S73728_S73728x1_0 (V (main_v25 : DevRef τ sig)))) (broadcastInDim S73728x2048 ![0, 1] bcast_S1x2048_S73728x2048_0_1 (broadcastInDim S1x2048 ![1] bcast_S2048_S1x2048_1 (V (main_v27 : DevRef τ sig)))) := by
  dsimp only [tL3]; after_results <;> rfl
theorem sL_v34 : after tL3 V (main_v34 : DevRef τ sig)
    = Host.dotGeneral dot_S73728x2_S2x2048_S73728x2048_1_0_0_1_n_n none (V (main_v23 : DevRef τ sig)) (transpose S2x2048 [1, 0] (V (main_v6 : DevRef τ sig)) transposes_S2048x2_S2x2048_1_0) := by
  dsimp only [tL3]; after_results <;> rfl
theorem sL_v37 : after tL4 V (main_v37 : DevRef τ sig)
    = subf (V (main_v32 : DevRef τ sig)) (mulf (broadcastInDim S73728x2048 ![] bcast_S_S73728x2048 (constant S_ .f32 0x40000000#32)) (V (main_v34 : DevRef τ sig))) := by
  dsimp only [tL4]; after_results <;> rfl
theorem sL_v39 : after tL5 V (main_v39 : DevRef τ sig)
    = select (broadcastInDim S73728x2048 ![0, 1] bcast_S1x2048_S73728x2048_0_1 (broadcastInDim S1x2048 ![1] bcast_S2048_S1x2048_1 (V (main_v4 : DevRef τ sig)))) (V (main_v37 : DevRef τ sig)) (broadcastInDim S73728x2048 ![] bcast_S_S73728x2048 (id (constant S_ .f32 0x7F800000#32))) := by
  dsimp only [tL5]; after_results
  simp only [TRef.ofBuf, TRef.toBuf, cast_eq]
  try rfl
theorem sL_v40 : after tL6 V (main_v40 : DevRef τ sig)
    = Host.reduce FloatOps.minimumf (V (main_v39 : DevRef τ sig)) (constant S_ .f32 0x7F800000#32) reducesTo_S73728x2048_S73728_d1 h_S_ := by
  dsimp only [tL6]; after_results <;> rfl
theorem sL_v46 : after tL7 V (main_v46 : DevRef τ sig)
    = shapeCast S8192x9 (mulf (Host.sqrt (maximumf (V (main_v40 : DevRef τ sig)) (broadcastInDim S73728 ![] bcast_S_S73728 (constant S_ .f32 0x00000000#32)))) (broadcastInDim S73728 ![] bcast_S_S73728 (constant S_ .f32 0x3C23D70A#32))) shapeCasts_S73728_S8192x9 := by
  dsimp only [tL7]; after_results <;> rfl
theorem sL_v47 : after tL8 V (main_v47 : DevRef τ sig)
    = select (broadcastInDim S8192x9 ![] bcast_S_S8192x9 (V (main_v21 : DevRef τ sig))) (V (main_v46 : DevRef τ sig)) (broadcastInDim S8192x9 ![] bcast_S_S8192x9 (id (constant S_ .f32 0x00000000#32))) := by
  dsimp only [tL8]; after_results
  simp only [TRef.ofBuf, TRef.toBuf, cast_eq]
  try rfl
theorem sR_v49 : after tR1 V (main_v49 : DevRef τ sig)
    = sitofp .f32 (shapeCast S18432x2 (V (main_v18 : DevRef τ sig)) shapeCasts_S2048x9x2_S18432x2) := by
  dsimp only [tR1]; after_results <;> rfl
theorem sR_v51 : after tR1 V (main_v51 : DevRef τ sig)
    = Host.reduceAdd (mulf (sitofp .f32 (shapeCast S18432x2 (V (main_v18 : DevRef τ sig)) shapeCasts_S2048x9x2_S18432x2)) (sitofp .f32 (shapeCast S18432x2 (V (main_v18 : DevRef τ sig)) shapeCasts_S2048x9x2_S18432x2))) (constant S_ .f32 0x00000000#32) reducesTo_S18432x2_S18432_d1 h_S_ := by
  dsimp only [tR1]; after_results <;> rfl
theorem sR_v53 : after tR2 V (main_v53 : DevRef τ sig)
    = Host.reduceAdd (mulf (V (main_v6 : DevRef τ sig)) (V (main_v6 : DevRef τ sig))) (constant S_ .f32 0x00000000#32) reducesTo_S2048x2_S2048_d1 h_S_ := by
  dsimp only [tR2]; after_results <;> rfl
theorem sR_v58 : after tR3 V (main_v58 : DevRef τ sig)
    = addf (broadcastInDim S18432x2048 ![0, 1] bcast_S18432x1_S18432x2048_0_1 (broadcastInDim S18432x1 ![0] bcast_S18432_S18432x1_0 (V (main_v51 : DevRef τ sig)))) (broadcastInDim S18432x2048 ![0, 1] bcast_S1x2048_S18432x2048_0_1 (broadcastInDim S1x2048 ![1] bcast_S2048_S1x2048_1 (V (main_v53 : DevRef τ sig)))) := by
  dsimp only [tR3]; after_results <;> rfl
theorem sR_v60 : after tR3 V (main_v60 : DevRef τ sig)
    = Host.dotGeneral dot_S18432x2_S2x2048_S18432x2048_1_0_0_1_n_n none (V (main_v49 : DevRef τ sig)) (transpose S2x2048 [1, 0] (V (main_v6 : DevRef τ sig)) transposes_S2048x2_S2x2048_1_0) := by
  dsimp only [tR3]; after_results <;> rfl
theorem sR_v63 : after tR4 V (main_v63 : DevRef τ sig)
    = subf (V (main_v58 : DevRef τ sig)) (mulf (broadcastInDim S18432x2048 ![] bcast_S_S18432x2048 (constant S_ .f32 0x40000000#32)) (V (main_v60 : DevRef τ sig))) := by
  dsimp only [tR4]; after_results <;> rfl
theorem sR_v65 : after tR5 V (main_v65 : DevRef τ sig)
    = select (broadcastInDim S18432x2048 ![0, 1] bcast_S1x2048_S18432x2048_0_1 (broadcastInDim S1x2048 ![1] bcast_S2048_S1x2048_1 (V (main_v4 : DevRef τ sig)))) (V (main_v63 : DevRef τ sig)) (broadcastInDim S18432x2048 ![] bcast_S_S18432x2048 (id (constant S_ .f32 0x7F800000#32))) := by
  dsimp only [tR5]; after_results
  simp only [TRef.ofBuf, TRef.toBuf, cast_eq]
  try rfl
theorem sR_v66 : after tR6 V (main_v66 : DevRef τ sig)
    = Host.reduce FloatOps.minimumf (V (main_v65 : DevRef τ sig)) (constant S_ .f32 0x7F800000#32) reducesTo_S18432x2048_S18432_d1 h_S_ := by
  dsimp only [tR6]; after_results <;> rfl
theorem sR_v72 : after tR7 V (main_v72 : DevRef τ sig)
    = shapeCast S2048x9 (mulf (Host.sqrt (maximumf (V (main_v66 : DevRef τ sig)) (broadcastInDim S18432 ![] bcast_S_S18432 (constant S_ .f32 0x00000000#32)))) (broadcastInDim S18432 ![] bcast_S_S18432 (constant S_ .f32 0x3C23D70A#32))) shapeCasts_S18432_S2048x9 := by
  dsimp only [tR7]; after_results <;> rfl
theorem sR_v73 : after tR8 V (main_v73 : DevRef τ sig)
    = select (broadcastInDim S2048x9 ![] bcast_S_S2048x9 (V (main_v21 : DevRef τ sig))) (V (main_v72 : DevRef τ sig)) (broadcastInDim S2048x9 ![] bcast_S_S2048x9 (id (constant S_ .f32 0x00000000#32))) := by
  dsimp only [tR8]; after_results
  simp only [TRef.ofBuf, TRef.toBuf, cast_eq]
  try rfl

end Stretches

/-! ## What each stretch leaves alone -/

section Keeps
variable (V : Valuation τ sig (Elt F))

theorem k_tL1_v21 : after tL1 V (main_v21 : DevRef τ sig) = V (main_v21 : DevRef τ sig) := by not_written
theorem k_tL2_v21 : after tL2 V (main_v21 : DevRef τ sig) = V (main_v21 : DevRef τ sig) := by not_written
theorem k_tL3_v21 : after tL3 V (main_v21 : DevRef τ sig) = V (main_v21 : DevRef τ sig) := by not_written
theorem k_tL4_v21 : after tL4 V (main_v21 : DevRef τ sig) = V (main_v21 : DevRef τ sig) := by not_written
theorem k_tL5_v21 : after tL5 V (main_v21 : DevRef τ sig) = V (main_v21 : DevRef τ sig) := by not_written
theorem k_tL6_v21 : after tL6 V (main_v21 : DevRef τ sig) = V (main_v21 : DevRef τ sig) := by not_written
theorem k_tL7_v21 : after tL7 V (main_v21 : DevRef τ sig) = V (main_v21 : DevRef τ sig) := by not_written
theorem k_tA_v4 : after tA V (main_v4 : DevRef τ sig) = V (main_v4 : DevRef τ sig) := by not_written
theorem k_tL1_v4 : after tL1 V (main_v4 : DevRef τ sig) = V (main_v4 : DevRef τ sig) := by not_written
theorem k_tL2_v4 : after tL2 V (main_v4 : DevRef τ sig) = V (main_v4 : DevRef τ sig) := by not_written
theorem k_tL3_v4 : after tL3 V (main_v4 : DevRef τ sig) = V (main_v4 : DevRef τ sig) := by not_written
theorem k_tL4_v4 : after tL4 V (main_v4 : DevRef τ sig) = V (main_v4 : DevRef τ sig) := by not_written
theorem k_tA_v6 : after tA V (main_v6 : DevRef τ sig) = V (main_v6 : DevRef τ sig) := by not_written
theorem k_tL1_v6 : after tL1 V (main_v6 : DevRef τ sig) = V (main_v6 : DevRef τ sig) := by not_written
theorem k_tL2_v6 : after tL2 V (main_v6 : DevRef τ sig) = V (main_v6 : DevRef τ sig) := by not_written
theorem k_tL2_v25 : after tL2 V (main_v25 : DevRef τ sig) = V (main_v25 : DevRef τ sig) := by not_written
theorem k_tL2_v23 : after tL2 V (main_v23 : DevRef τ sig) = V (main_v23 : DevRef τ sig) := by not_written
theorem k_tA_v12 : after tA V (main_v12 : DevRef τ sig) = V (main_v12 : DevRef τ sig) := by not_written
theorem k_R_v47 : after (tR1 ++ (tR2 ++ (tR3 ++ (tR4 ++ (tR5 ++ (tR6 ++ (tR7 ++ tR8))))))) V (main_v47 : DevRef τ sig) = V (main_v47 : DevRef τ sig) := by not_written
theorem k_L_v18 : after (tL1 ++ (tL2 ++ (tL3 ++ (tL4 ++ (tL5 ++ (tL6 ++ (tL7 ++ tL8))))))) V (main_v18 : DevRef τ sig) = V (main_v18 : DevRef τ sig) := by not_written
theorem k_L_v6 : after (tL1 ++ (tL2 ++ (tL3 ++ (tL4 ++ (tL5 ++ (tL6 ++ (tL7 ++ tL8))))))) V (main_v6 : DevRef τ sig) = V (main_v6 : DevRef τ sig) := by not_written
theorem k_L_v4 : after (tL1 ++ (tL2 ++ (tL3 ++ (tL4 ++ (tL5 ++ (tL6 ++ (tL7 ++ tL8))))))) V (main_v4 : DevRef τ sig) = V (main_v4 : DevRef τ sig) := by not_written
theorem k_L_v21 : after (tL1 ++ (tL2 ++ (tL3 ++ (tL4 ++ (tL5 ++ (tL6 ++ (tL7 ++ tL8))))))) V (main_v21 : DevRef τ sig) = V (main_v21 : DevRef τ sig) := by not_written
theorem k_tA_v18 : after tA V (main_v18 : DevRef τ sig) = V (main_v18 : DevRef τ sig) := by not_written
theorem k_tR1_v21 : after tR1 V (main_v21 : DevRef τ sig) = V (main_v21 : DevRef τ sig) := by not_written
theorem k_tR2_v21 : after tR2 V (main_v21 : DevRef τ sig) = V (main_v21 : DevRef τ sig) := by not_written
theorem k_tR3_v21 : after tR3 V (main_v21 : DevRef τ sig) = V (main_v21 : DevRef τ sig) := by not_written
theorem k_tR4_v21 : after tR4 V (main_v21 : DevRef τ sig) = V (main_v21 : DevRef τ sig) := by not_written
theorem k_tR5_v21 : after tR5 V (main_v21 : DevRef τ sig) = V (main_v21 : DevRef τ sig) := by not_written
theorem k_tR6_v21 : after tR6 V (main_v21 : DevRef τ sig) = V (main_v21 : DevRef τ sig) := by not_written
theorem k_tR7_v21 : after tR7 V (main_v21 : DevRef τ sig) = V (main_v21 : DevRef τ sig) := by not_written
theorem k_tR1_v4 : after tR1 V (main_v4 : DevRef τ sig) = V (main_v4 : DevRef τ sig) := by not_written
theorem k_tR2_v4 : after tR2 V (main_v4 : DevRef τ sig) = V (main_v4 : DevRef τ sig) := by not_written
theorem k_tR3_v4 : after tR3 V (main_v4 : DevRef τ sig) = V (main_v4 : DevRef τ sig) := by not_written
theorem k_tR4_v4 : after tR4 V (main_v4 : DevRef τ sig) = V (main_v4 : DevRef τ sig) := by not_written
theorem k_tR1_v6 : after tR1 V (main_v6 : DevRef τ sig) = V (main_v6 : DevRef τ sig) := by not_written
theorem k_tR2_v6 : after tR2 V (main_v6 : DevRef τ sig) = V (main_v6 : DevRef τ sig) := by not_written
theorem k_tR2_v51 : after tR2 V (main_v51 : DevRef τ sig) = V (main_v51 : DevRef τ sig) := by not_written
theorem k_tR2_v49 : after tR2 V (main_v49 : DevRef τ sig) = V (main_v49 : DevRef τ sig) := by not_written

end Keeps

/-! ## The two results -/

/-- The first result: the stage function of the first neighbour table, the voxel coordinates and the mask. -/
theorem tail47 (W : Valuation τ sig (Elt F)) :
    after (ops.drop 68) W (main_v47 : DevRef τ sig)
      = Stage.liOut (F := F) (shapeCast S73728x2 (W (main_v12 : DevRef τ sig)) shapeCasts_S8192x9x2_S73728x2) (W (main_v6 : DevRef τ sig)) (W (main_v4 : DevRef τ sig)) := by
  rw [tail_eq, after_append, after_append, k_R_v47]
  rw [after_append, after_append, after_append, after_append, after_append, after_append, after_append]
  rw [sL_v47, k_tL7_v21, k_tL6_v21, k_tL5_v21, k_tL4_v21, k_tL3_v21, k_tL2_v21, k_tL1_v21, sA_v21]
  rw [sL_v46, sL_v40, sL_v39, k_tL4_v4, k_tL3_v4, k_tL2_v4, k_tL1_v4, k_tA_v4]
  rw [sL_v37, sL_v32, sL_v34, sL_v27, k_tL2_v25, k_tL2_v23, sL_v25, sL_v23]
  rw [k_tL2_v6, k_tL1_v6, k_tA_v6, k_tA_v12]
  rfl

/-- The second result, likewise. -/
theorem tail73 (W : Valuation τ sig (Elt F)) :
    after (ops.drop 68) W (main_v73 : DevRef τ sig)
      = Stage.raOut (F := F) (shapeCast S18432x2 (W (main_v18 : DevRef τ sig)) shapeCasts_S2048x9x2_S18432x2) (W (main_v6 : DevRef τ sig)) (W (main_v4 : DevRef τ sig)) := by
  rw [tail_eq, after_append, after_append]
  rw [after_append, after_append, after_append, after_append, after_append, after_append, after_append]
  rw [sR_v73, k_tR7_v21, k_tR6_v21, k_tR5_v21, k_tR4_v21, k_tR3_v21, k_tR2_v21, k_tR1_v21, k_L_v21, sA_v21]
  rw [sR_v72, sR_v66, sR_v65, k_tR4_v4, k_tR3_v4, k_tR2_v4, k_tR1_v4, k_L_v4, k_tA_v4]
  rw [sR_v63, sR_v58, sR_v60, sR_v53, k_tR2_v51, k_tR2_v49, sR_v51, sR_v49]
  rw [k_tR2_v6, k_tR1_v6, k_L_v6, k_tA_v6, k_L_v18, k_tA_v18]
  rfl

end Cert.ReferenceIdeal.Tail

end
-- ==== Proof.RefValue.lean ====
/-
  The reference program's two results as the staged functions of its host chains. Running a list of operations is a
  left fold, so the line may be cut: what the later operations leave in a buffer is a function of what the earlier
  ones left. After the operation that completes the second neighbour table every later operation reads only four
  buffers of the earlier part (the two unflattened neighbour tables, the float coordinates of the dynamic points, the
  mask): over any contents at that cut the later operations compose to the staged functions of those four, flatten the
  two tables, and write the float coordinates and the mask no more. The earlier part supplies the four buffers as the
  chains of the arguments.
-/
import proofs.«161537_j24713241822141_1_alg».proof.Proof.RefRun
import proofs.«161537_j24713241822141_1_alg».proof.Proof.RefStage
import proofs.«161537_j24713241822141_1_alg».proof.Proof.RefTail
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The line cut after its first k operations. -/
theorem after_cut (k : Nat) (V : Valuation τ sig (Elt F)) :
    after (ops (F := F)) V = after ((ops (F := F)).drop k) (after ((ops (F := F)).take k) V) := by
  rw [← Tail.after_append, List.take_append_drop]

set_option maxRecDepth 8192 in
set_option maxHeartbeats 4000000 in
/-- The dynamic voxel points' coordinates as floats. -/
theorem v6_eq (V : Valuation τ sig (Elt F)) : after ops V (main_v6 : DevRef τ sig) = sitofp .f32 (dyR (V (main_arg3 : DevRef τ sig))) := by
  after_results_simp
  rfl

set_option maxRecDepth 8192 in
set_option maxHeartbeats 1000000 in
/-- The operations after the second neighbour table's last step, over any contents: they flatten the two tables, and
    write the float coordinates and the mask no more. -/
theorem mid (W : Valuation τ sig (Elt F)) :
    after ((ops (F := F)).drop 68) W (main_v22 : DevRef τ sig) = shapeCast S73728x2 (W (main_v12 : DevRef τ sig)) shapeCasts_S8192x9x2_S73728x2
    ∧ after ((ops (F := F)).drop 68) W (main_v48 : DevRef τ sig) = shapeCast S18432x2 (W (main_v18 : DevRef τ sig)) shapeCasts_S2048x9x2_S18432x2
    ∧ after ((ops (F := F)).drop 68) W (main_v6 : DevRef τ sig) = W (main_v6 : DevRef τ sig)
    ∧ after ((ops (F := F)).drop 68) W (main_v4 : DevRef τ sig) = W (main_v4 : DevRef τ sig) := by
  simp only [ops, List.drop_succ_cons, List.drop_zero]
  refine ⟨?_, ?_, ?_, ?_⟩
  · after_results_simp
    rfl
  · after_results_simp
    rfl
  · after_results_simp
  · after_results_simp

/-- The first result: the staged function of the first neighbour table, the float coordinates and the mask. -/
theorem v47_eq (V : Valuation τ sig (Elt Ideal)) :
    after ops V (main_v47 : DevRef τ sig)
      = Stage.liOut (F := Ideal) (nbLiR (V (main_arg0 : DevRef τ sig))) (sitofp .f32 (dyR (V (main_arg3 : DevRef τ sig)))) (maskR (F := Ideal) (V (main_arg2 : DevRef τ sig))) := by
  have hc := after_cut (F := Ideal) 68 V
  generalize after ((ops (F := Ideal)).take 68) V = W at hc
  obtain ⟨h22, _, h6, h4⟩ := mid (F := Ideal) W
  have e22 : shapeCast S73728x2 (W (main_v12 : DevRef τ sig)) shapeCasts_S8192x9x2_S73728x2 = nbLiR (V (main_arg0 : DevRef τ sig)) := by
    rw [← h22, ← hc]; exact v22_eq V
  have e6 : W (main_v6 : DevRef τ sig) = sitofp (F := Ideal) .f32 (dyR (V (main_arg3 : DevRef τ sig))) := by
    rw [← h6, ← hc]; exact v6_eq V
  have e4 : W (main_v4 : DevRef τ sig) = maskR (F := Ideal) (V (main_arg2 : DevRef τ sig)) := by
    rw [← h4, ← hc]; exact v4_eq V
  rw [hc, Tail.tail47 W, e22, e6, e4]

/-- The second result: the staged function of the second neighbour table, the float coordinates and the mask. -/
theorem v73_eq (V : Valuation τ sig (Elt Ideal)) :
    after ops V (main_v73 : DevRef τ sig)
      = Stage.raOut (F := Ideal) (nbRaR (V (main_arg1 : DevRef τ sig))) (sitofp .f32 (dyR (V (main_arg3 : DevRef τ sig)))) (maskR (F := Ideal) (V (main_arg2 : DevRef τ sig))) := by
  have hc := after_cut (F := Ideal) 68 V
  generalize after ((ops (F := Ideal)).take 68) V = W at hc
  obtain ⟨_, h48, h6, h4⟩ := mid (F := Ideal) W
  have e48 : shapeCast S18432x2 (W (main_v18 : DevRef τ sig)) shapeCasts_S2048x9x2_S18432x2 = nbRaR (V (main_arg1 : DevRef τ sig)) := by
    rw [← h48, ← hc]; exact v48_eq V
  have e6 : W (main_v6 : DevRef τ sig) = sitofp (F := Ideal) .f32 (dyR (V (main_arg3 : DevRef τ sig))) := by
    rw [← h6, ← hc]; exact v6_eq V
  have e4 : W (main_v4 : DevRef τ sig) = maskR (F := Ideal) (V (main_arg2 : DevRef τ sig)) := by
    rw [← h4, ← hc]; exact v4_eq V
  rw [hc, Tail.tail73 W, e48, e6, e4]

end Cert.ReferenceIdeal.Run

end
-- ==== Proof.lean ====
/-
  Nearest dynamic voxel, kernel against reference.

  For every neighbour point a (an integer point shifted by one of nine offsets and wrapped modulo 513) both programs
  compute the distance to the nearest DYNAMIC voxel point b_q, scaled by 0.01, and both return 0 unless more than one
  voxel is dynamic. The reference masks the non-dynamic columns of the table of squared distances by +∞ before the
  row minimum; the kernel adds the finite penalty 1e30 to the bias of every non-dynamic voxel, takes the row minimum
  over all 2048 columns in two tiled passes, and multiplies by the 1-or-0 count test at the end.

  The two agree on the extended reals: coordinates come from 32-bit integers, so every squared distance is a real in
  [0, 2^66], far below the penalty; with at least one dynamic voxel a penalised column never wins the minimum; and
  when the count test fails the kernel's entry times 0 is the reference's 0.

  The kernel's side is read off its run: the last host stretch over what the two regions leave in their output
  arrays, each region's array entry by entry from its tiles, the regions' inputs from the host stretches before them.
  The reference's side is its list of host operations run in order, read back at an index. The integer chains the two
  programs share (the mask, the voxel coordinates, the wrapped neighbours, the count test) are the same terms on both
  sides and are never opened. No claim uses the precondition: nothing here divides, and no sum meets an infinity.
-/
import proofs.«161537_j24713241822141_1_alg».proof.Defs
import proofs.«161537_j24713241822141_1_alg».proof.Proof.Gen.Kernel
import proofs.«161537_j24713241822141_1_alg».proof.Proof.Gen.Kernel.Skeleton
import proofs.«161537_j24713241822141_1_alg».proof.Proof.Gen.Kernel.Launch
import proofs.«161537_j24713241822141_1_alg».proof.Proof.Gen.Kernel.Points
import proofs.«161537_j24713241822141_1_alg».proof.Proof.Gen.Kernel.Frame
import proofs.«161537_j24713241822141_1_alg».proof.Proof.Gen.KernelIdeal
import proofs.«161537_j24713241822141_1_alg».proof.Proof.Gen.KernelIdeal.Skeleton
import proofs.«161537_j24713241822141_1_alg».proof.Proof.Gen.KernelIdeal.Launch
import proofs.«161537_j24713241822141_1_alg».proof.Proof.Gen.KernelIdeal.Points
import proofs.«161537_j24713241822141_1_alg».proof.Proof.Gen.KernelIdeal.Frame
import proofs.«161537_j24713241822141_1_alg».proof.Proof.Gen.ReferenceIdeal
import proofs.«161537_j24713241822141_1_alg».proof.Proof.Gen.Pre_finite_inputs
import proofs.«161537_j24713241822141_1_alg».proof.Proof.KernelRun
import proofs.«161537_j24713241822141_1_alg».proof.Proof.Entries
import proofs.«161537_j24713241822141_1_alg».proof.Proof.RefRun
import proofs.«161537_j24713241822141_1_alg».proof.Proof.RefValue
import proofs.«161537_j24713241822141_1_alg».proof.Proof.Chains
import Idealize.ShloMosaic.Adequacy
import Idealize.ShloMosaic.Init

noncomputable section

namespace Cert.Proof

open Idealize.ShloMosaic Idealize.ShloMosaic.ValueIdx Idealize.SL.Sem Idealize.ShloMosaic.StableHlo

/-- The reference runs and ends with its four argument arrays as launched: each is read back through the list of
    host operations, none of which writes an argument. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c =>
      ⟨(h c Cert.ReferenceIdeal.main_arg0).trans (Cert.ReferenceIdeal.Run.arg0_eq _),
       (h c Cert.ReferenceIdeal.main_arg1).trans (Cert.ReferenceIdeal.Run.arg1_eq _),
       (h c Cert.ReferenceIdeal.main_arg2).trans (Cert.ReferenceIdeal.Run.arg2_eq _),
       (h c Cert.ReferenceIdeal.main_arg3).trans (Cert.ReferenceIdeal.Run.arg3_eq _)⟩)
    (Cert.ReferenceIdeal.Run.run_all (F := Ideal) m ρ)

/-- Both programs run from memories that agree on the arguments and end with equal results: the kernel's two result
    arrays, as its run leaves them, are entry by entry the reference's two functions of the shared chains, and the
    chains of the two programs are the same terms of the same argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W10 m ρ c (Proc.devRef .tc Cert.KernelIdeal.main_v45),
    fun c => Cert.KernelIdeal.Gen.W10 m ρ c (Proc.devRef .tc Cert.KernelIdeal.main_v48),
    Cert.KernelIdeal.GenRun.run_named m ρ, ?_⟩
  exact (θ_run (Cert.ReferenceIdeal.defs (F := Ideal)) _ _).mono (fun r h c =>
      ⟨(h c Cert.ReferenceIdeal.main_v47).trans ((Cert.ReferenceIdeal.Run.v47_eq _).trans
          ((Cert.Proof.Entries.li_bridge _ _ _ _ _ _ (hagree c).1 (hagree c).2.2.1 (hagree c).2.2.2).trans
            (Cert.Proof.Entries.li_result m ρ c).symm)),
       (h c Cert.ReferenceIdeal.main_v73).trans ((Cert.ReferenceIdeal.Run.v73_eq _).trans
          ((Cert.Proof.Entries.ra_bridge _ _ _ _ _ _ (hagree c).2.1 (hagree c).2.2.1 (hagree c).2.2.2).trans
            (Cert.Proof.Entries.ra_result m ρ c).symm)),
       (h c Cert.ReferenceIdeal.main_arg0).trans (Cert.ReferenceIdeal.Run.arg0_eq _),
       (h c Cert.ReferenceIdeal.main_arg1).trans (Cert.ReferenceIdeal.Run.arg1_eq _),
       (h c Cert.ReferenceIdeal.main_arg2).trans (Cert.ReferenceIdeal.Run.arg2_eq _),
       (h c Cert.ReferenceIdeal.main_arg3).trans (Cert.ReferenceIdeal.Run.arg3_eq _)⟩)
    (Cert.ReferenceIdeal.Run.run_all (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
